-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) (main_arg2 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x128 : Shape := ⟨2, ![1024, 128]⟩
abbrev S1024x1 : Shape := ⟨2, ![1024, 1]⟩
abbrev S1x1024 : Shape := ⟨2, ![1, 1024]⟩
abbrev S128x1024 : Shape := ⟨2, ![128, 1024]⟩
abbrev S1024x1024 : Shape := ⟨2, ![1024, 1024]⟩
abbrev S1024 : Shape := ⟨1, ![1024]⟩

abbrev nBuf : Space → Nat
  | .hbm => 36
  | .vmem => 19
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192, .i32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S8192x128, .bf16⟩
  | .hbm, ⟨14, _⟩ => ⟨S8192x1, .i32⟩
  | .hbm, ⟨15, _⟩ => ⟨S1x8192, .i32⟩
  | .hbm, ⟨16, _⟩ => ⟨S8192x1, .i32⟩
  | .hbm, ⟨17, _⟩ => ⟨S1x8192, .i32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .i1⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .i32⟩
  | .local _ .vmem, ⟨9, _⟩ => ⟨S1024x1, .i32⟩
  | .local _ .vmem, ⟨10, _⟩ => ⟨S1x1024, .i32⟩
  | .local _ .vmem, ⟨11, _⟩ => ⟨S1x1024, .i32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_cst_0 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_call1_v0 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_call2_v0 : Ref sig .tc := ⟨.hbm, 34, rfl⟩
abbrev main_v18 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v66 : BitVec 1 := Scalar.cmpi .eq arg1 c7_i32
  let v67 : BitVec 32 := Scalar.extui v66
  let c0_i32_34 : BitVec 32 := 0#32
  let v68 : BitVec 1 := Scalar.cmpi .ne v67 c0_i32_34
  v68

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bitsLt_bf16_f32 : FTy.bits .bf16 < FTy.bits .f32
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  iota_S1024x1_d0_w32 : S1024x1.Iotas .tc 32 [0]
  iota_S1x1024_d1_w32 : S1x1024.Iotas .tc 32 [1]
  reduces_S1024x1024_S1024 : S1024x1024.Reduces [1] S1024
  shapeCasts_S1024_S1024x1 : S1024.ShapeCasts S1024x1
  natLt_1_32 : 1 < 32
  reducesTo_S8192x1_S_d0_1 : S8192x1.ReducesTo [0, 1] S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .i32 = 32 ∨ (Rect.block (s := S8192x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .i32 = 32 ∨ (Rect.block (s := S1x8192) S1x1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S8192x1.size a
  hwx0_7 : ∀ i : grid0.Coords, EltTy.bits .f32 = 32 ∨ (Rect.block (s := S8192x1) S1024x1.size (cc0_transform_7 i) (hinb0_7 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v5) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_0) S1024x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_1) S1024x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S128x8192 : Shape := ⟨2, ![128, 8192]⟩
abbrev S8192x8192 : Shape := ⟨2, ![8192, 8192]⟩
abbrev S1x8192 : Shape := ⟨2, ![1, 8192]⟩

abbrev nBuf : Space → Nat
  | .hbm => 94
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192, .i32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S128x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .i32⟩
  | .hbm, ⟨19, _⟩ => ⟨S8192x8192, .i32⟩
  | .hbm, ⟨20, _⟩ => ⟨S_, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S8192x1, .i32⟩
  | .hbm, ⟨25, _⟩ => ⟨S1x8192, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S8192x8192, .i1⟩
  | .hbm, ⟨30, _⟩ => ⟨S8192x8192, .i1⟩
  | .hbm, ⟨31, _⟩ => ⟨S8192x8192, .i1⟩
  | .hbm, ⟨32, _⟩ => ⟨S8192x1, .i32⟩
  | .hbm, ⟨33, _⟩ => ⟨S1x8192, .i32⟩
  | .hbm, ⟨34, _⟩ => ⟨S8192x8192, .i32⟩
  | .hbm, ⟨35, _⟩ => ⟨S8192x8192, .i32⟩
  | .hbm, ⟨36, _⟩ => ⟨S8192x8192, .i1⟩
  | .hbm, ⟨37, _⟩ => ⟨S8192x8192, .i1⟩
  | .hbm, ⟨38, _⟩ => ⟨S_, .f32⟩
  | .hbm, ⟨39, _⟩ => ⟨S_, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192, .f32⟩
  | .hbm, ⟨54, _⟩ => ⟨S_, .i1⟩
  | .hbm, ⟨55, _⟩ => ⟨S8192, .i1⟩
  | .hbm, ⟨56, _⟩ => ⟨S_, .i1⟩
  | .hbm, ⟨57, _⟩ => ⟨S8192, .i1⟩
  | .hbm, ⟨58, _⟩ => ⟨S_, .i1⟩
  | .hbm, ⟨59, _⟩ => ⟨S8192, .i1⟩
  | .hbm, ⟨60, _⟩ => ⟨S8192, .f32⟩
  | .hbm, ⟨61, _⟩ => ⟨S8192, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S8192, .i1⟩
  | .hbm, ⟨69, _⟩ => ⟨S_, .f32⟩
  | .hbm, ⟨70, _⟩ => ⟨S8192, .f32⟩
  | .hbm, ⟨71, _⟩ => ⟨S8192, .i1⟩
  | .hbm, ⟨72, _⟩ => ⟨S8192, .i1⟩
  | .hbm, ⟨73, _⟩ => ⟨S8192, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S8192, .f32⟩
  | .hbm, ⟨79, _⟩ => ⟨S8192, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .i1⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .i1⟩
  | .hbm, ⟨91, _⟩ => ⟨S_, .f32⟩
  | .hbm, ⟨92, _⟩ => ⟨S_, .f32⟩
  | .hbm, ⟨93, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_call1_v0 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_cst_3 : Ref sig .tc := ⟨.hbm, 44, rfl⟩
abbrev main_call2_v0 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_cst_5 : Ref sig .tc := ⟨.hbm, 49, rfl⟩
abbrev main_call3_v0 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_call5_cst : Ref sig .tc := ⟨.hbm, 65, rfl⟩
abbrev main_call5_v0 : Ref sig .tc := ⟨.hbm, 66, rfl⟩
abbrev main_v42 : Ref sig .tc := ⟨.hbm, 67, rfl⟩
abbrev main_v43 : Ref sig .tc := ⟨.hbm, 68, rfl⟩
abbrev main_cst_11 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_12 : Ref sig .tc := ⟨.hbm, 74, rfl⟩
abbrev main_v48 : Ref sig .tc := ⟨.hbm, 75, rfl⟩
abbrev main_cst_13 : Ref sig .tc := ⟨.hbm, 76, rfl⟩
abbrev main_call6_v0 : Ref sig .tc := ⟨.hbm, 77, rfl⟩
abbrev main_call6_v1 : Ref sig .tc := ⟨.hbm, 78, rfl⟩
abbrev main_v49 : Ref sig .tc := ⟨.hbm, 79, rfl⟩
abbrev main_cst_14 : Ref sig .tc := ⟨.hbm, 80, rfl⟩
abbrev main_v50 : Ref sig .tc := ⟨.hbm, 81, rfl⟩
abbrev main_cst_15 : Ref sig .tc := ⟨.hbm, 82, rfl⟩
abbrev main_v51 : Ref sig .tc := ⟨.hbm, 83, rfl⟩
abbrev main_cst_16 : Ref sig .tc := ⟨.hbm, 84, rfl⟩
abbrev main_v52 : Ref sig .tc := ⟨.hbm, 85, rfl⟩
abbrev main_v53 : Ref sig .tc := ⟨.hbm, 86, rfl⟩
abbrev main_cst_17 : Ref sig .tc := ⟨.hbm, 87, rfl⟩
abbrev main_call7_v0 : Ref sig .tc := ⟨.hbm, 88, rfl⟩
abbrev main_v54 : Ref sig .tc := ⟨.hbm, 89, rfl⟩
abbrev main_v55 : Ref sig .tc := ⟨.hbm, 90, rfl⟩
abbrev main_cst_18 : Ref sig .tc := ⟨.hbm, 91, rfl⟩
abbrev main_call8_v0 : Ref sig .tc := ⟨.hbm, 92, rfl⟩
abbrev main_v56 : Ref sig .tc := ⟨.hbm, 93, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Setup.lean ====
/-
  The kernel's one pallas_call, seen from @main: the TensorCore buffers as the region finds them (the two
  stretches of host operations before it applied to the launch memory), @main reduced to the region continued by the
  four later stretches, each window's block at a grid point, the two branch conditions of the body decided over the
  8 x 8 grid in closed form (the column coordinate is the point's index mod 8: the reset branch at column 0, the
  finalizing branch at column 7), where the two output windows are idle, and the three scratch buffers as memrefs.
-/
import proofs.«135937_j90099823936181_2_alg».proof.Proof.Gen.Kernel.Launch
import proofs.«135937_j90099823936181_2_alg».proof.Proof.Gen.Kernel.Skeleton
import proofs.«135937_j90099823936181_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered: the host operations before it (the row norms,
    the normalized rows cast to bf16, the labels and groups reshaped to a column and to a row) applied to the launch
    memory. -/
abbrev V0 (c : Dev nD) : Valuation τ sig (Elt F) :=
  StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor

/-- The host stretches after the region. -/
abbrev tailOps : List (List (HloOp τ sig (Elt F))) := [hostOps1, hostOps1_1, hostOps1_2, hostOps1_3]

/-- @main is: two stretches of host operations, the region, four more stretches. It reduces to the region CONTINUED BY
    the later stretches, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0, hostOps0_1] tailOps ⟨hostOps0_sub, hostOps0_1_sub⟩
    ⟨hostOps0_fresh, hostOps0_1_fresh⟩ main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two branches over the grid -/

/-- The reset branch's condition (the column coordinate is 0), from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The finalizing branch's condition (the column coordinate is 7). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

end Cert.Kernel.Hand

end
-- ==== Proof.K.RunB.lean ====
/-
  The kernel body run once at a grid point of a middle column (neither branch taken): on whole staging memrefs, the six
  inputs at their blocks, the two outputs (not stored into at such a point) handed back as they came, the three running
  extrema (hardest positive, hardest same-group negative, hardest negative) at what the column before left, the body
  runs and leaves each running extremum's buffer with the pieces its one store wrote; the pieces are found by the run.
-/
import proofs.«135937_j90099823936181_2_alg».proof.Proof.K.Setup

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬cond0_0 i) (hc1 : ¬cond0_1 i)
    (x0 : Vec F S1024x128 .bf16) (x1 : Vec F S1024x128 .bf16) (x2 : Vec F S1024x1 .i32) (x3 : Vec F S1x1024 .i32) (x4 : Vec F S1024x1 .i32) (x5 : Vec F S1x1024 .i32) (xs0 xs1 xs2 : Vec F S1024x1 .f32) :
    Σ' (LS0 : List (View.Piece (Elt F) S1024x1 .f32)) (LS1 : List (View.Piece (Elt F) S1024x1 .f32)), { LS2 : List (View.Piece (Elt F) S1024x1 .f32) //
      ∀ (xi6 xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨?_, ?_, ?_, fun xi6 xi7 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    iexists _; iexact HS2

end Cert.Kernel.Hand

end
-- ==== Proof.K.RunA.lean ====
/-
  The kernel body run once at a grid point of column 0 (the reset branch taken, the finalizing one not): on whole staging
  memrefs, the six inputs at their blocks, the two outputs (not stored into at such a point) handed back as they came,
  the three running extrema at ANY contents (the reset overwrites them before they are read), the body runs and leaves
  each running extremum's buffer with the pieces its two stores wrote (the reset, then the update); the pieces are
  found by the run.
-/
import proofs.«135937_j90099823936181_2_alg».proof.Proof.K.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : cond0_0 i) (hc1 : ¬cond0_1 i)
    (x0 : Vec F S1024x128 .bf16) (x1 : Vec F S1024x128 .bf16) (x2 : Vec F S1024x1 .i32) (x3 : Vec F S1x1024 .i32) (x4 : Vec F S1024x1 .i32) (x5 : Vec F S1x1024 .i32) :
    Σ' (LS0 : List (View.Piece (Elt F) S1024x1 .f32)) (LS1 : List (View.Piece (Elt F) S1024x1 .f32)), { LS2 : List (View.Piece (Elt F) S1024x1 .f32) //
      ∀ (xi6 xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨?_, ?_, ?_, fun xi6 xi7 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    iexists _; iexact HS2

end Cert.Kernel.Hand

end
-- ==== Proof.K.RunC.lean ====
/-
  The kernel body run once at a grid point of column 7 (the finalizing branch taken, the reset not): on whole staging
  memrefs, the six inputs at their blocks, the two outputs at ANY contents (the finalizing branch stores both whole), the
  three running extrema at what the column before left, the body runs and leaves each running extremum's buffer with the
  piece its store wrote and each output's buffer with the piece the finalizing branch stored (the loss kept where the
  row has a positive and a negative and the loss is positive, and that mask as a float); the pieces are found by the run.
-/
import proofs.«135937_j90099823936181_2_alg».proof.Proof.K.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬cond0_0 i) (hc1 : cond0_1 i)
    (x0 : Vec F S1024x128 .bf16) (x1 : Vec F S1024x128 .bf16) (x2 : Vec F S1024x1 .i32) (x3 : Vec F S1x1024 .i32) (x4 : Vec F S1024x1 .i32) (x5 : Vec F S1x1024 .i32) (xs0 xs1 xs2 : Vec F S1024x1 .f32) :
    Σ' (L6 : List (View.Piece (Elt F) S1024x1 .f32)) (L7 : List (View.Piece (Elt F) S1024x1 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    isplitl [HS1]; · iexists _; iexact HS1
    iexists _; iexact HS2

end Cert.Kernel.Hand

end
-- ==== Proof.K.Windows.lean ====
/-
  The kernel's windows at a grid point: each window's current staging memref as the pipeline passes it to the
  body, the three scratch buffers (the running extrema) as memrefs, where the two output windows are idle (every column
  but the last: the body stores into them only in the finalizing branch, and the pipeline writes them back only there),
  and that each input window's staging buffer holds its block at every point, fetched there or not.
-/
import proofs.«135937_j90099823936181_2_alg».proof.Proof.K.Setup

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from the last column the two outputs are idle and not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- At the last column they are live. -/
theorem liveAt0_6 : ∀ t : Fin cfg0.N, cond0_1 (grid0.coords t) → cfg0.idle 6 (grid0.coords t) = false := by decide +kernel
theorem liveAt0_7 : ∀ t : Fin cfg0.N, cond0_1 (grid0.coords t) → cfg0.idle 7 (grid0.coords t) = false := by decide +kernel

/-! ## The memrefs the body is called with -/

/-- One staging buffer of each output window, through which its contents are stated. -/
abbrev VO0_6 : View sig .tc .vmem S1024x1 .f32 := (Memref.whole cc0_stg6_0 : Memref sig .tc .vmem S1024x1 .f32).view
abbrev VO0_7 : View sig .tc .vmem S1024x1 .f32 := (Memref.whole cc0_stg7_0 : Memref sig .tc .vmem S1024x1 .f32).view

abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1 .f32 := win0_7.stage (cfg0.slots t 7)
abbrev hs0_7 (t : Fin cfg0.N) : (ms0_7 t).IsWhole := hstage0_7 ((cfg0.slots t 7).cast nbuf0_7)

/-- The three scratch operands: the running hardest positive, hardest same-group negative, hardest negative. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2
abbrev VS0_0 : View sig .tc .vmem S1024x1 .f32 := scM0_0.view
abbrev VS0_1 : View sig .tc .vmem S1024x1 .f32 := scM0_1.view
abbrev VS0_2 : View sig .tc .vmem S1024x1 .f32 := scM0_2.view

/-- The region's default invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## Each input's staging buffer holds its block -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand

end
-- ==== Proof.K.Data.lean ====
/-
  What the kernel's pallas_call holds point by point, and its proof data.

  The 64 grid points are row block i = t / 8, column block j = t % 8. At column 0 the body resets the three running
  extrema and folds in the first column block (case A); at columns 1 to 6 it folds the next block into what the point
  before left (case B); at column 7 it folds the last block in and stores the two outputs from the finished extrema
  (case C). `outsAt0` records, by recursion on the point, what the two output buffers and the three scratch buffers hold
  after each point; the proof data names the input arrays as the region finds them, each input buffer's block, the
  outputs' and the scratch buffers' contents by `outsAt0`, nothing owed, and — because the scaled embeddings reach the
  kernel through two windows (anchor rows and candidate rows of one array) — half of that array's share for each.
-/
import proofs.«135937_j90099823936181_2_alg».proof.Proof.K.RunC
import proofs.«135937_j90099823936181_2_alg».proof.Proof.K.Windows

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three running extrema (hardest positive, hardest same-group negative, hardest negative) of a row block. -/
abbrev Scr (F : FTy → Type) [FloatOps F] : Type := Vec F S1024x1 .f32 × Vec F S1024x1 .f32 × Vec F S1024x1 .f32
/-- The two output blocks (kept losses, kept mask). -/
abbrev Outs (F : FTy → Type) [FloatOps F] : Type := Vec F S1024x1 .f32 × Vec F S1024x1 .f32

/-! ## The three cases of the body at a point -/

/-- The body's run at a point of column 0, on the point's memrefs and input blocks. -/
def rA (c : Dev nD) (t : Fin cfg0.N) (h0 : t.val % 8 = 0) (h1 : ¬t.val % 8 = 7) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)
/-- The body's run at a point of a middle column, over what the point before left in the scratch buffers. -/
def rB (c : Dev nD) (t : Fin cfg0.N) (h0 : ¬t.val % 8 = 0) (h1 : ¬t.val % 8 = 7) (p : Scr F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) p.1 p.2.1 p.2.2
/-- The body's run at a point of column 7, over what the point before left in the scratch buffers. -/
def rC (c : Dev nD) (t : Fin cfg0.N) (h0 : ¬t.val % 8 = 0) (h1 : t.val % 8 = 7) (p : Scr F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) p.1 p.2.1 p.2.2

/-- What case A leaves in the scratch buffers: each one's pieces read back. -/
def scrA (c : Dev nD) (t : Fin cfg0.N) (h0 : t.val % 8 = 0) (h1 : ¬t.val % 8 = 7) : Scr F :=
  (VS0_0.read (Elt F) (VS0_0.writes (Elt F) VS0_0.junk (rA m c t h0 h1).1),
   VS0_1.read (Elt F) (VS0_1.writes (Elt F) VS0_1.junk (rA m c t h0 h1).2.1),
   VS0_2.read (Elt F) (VS0_2.writes (Elt F) VS0_2.junk (rA m c t h0 h1).2.2.1))
def scrB (c : Dev nD) (t : Fin cfg0.N) (h0 : ¬t.val % 8 = 0) (h1 : ¬t.val % 8 = 7) (p : Scr F) : Scr F :=
  (VS0_0.read (Elt F) (VS0_0.writes (Elt F) VS0_0.junk (rB m c t h0 h1 p).1),
   VS0_1.read (Elt F) (VS0_1.writes (Elt F) VS0_1.junk (rB m c t h0 h1 p).2.1),
   VS0_2.read (Elt F) (VS0_2.writes (Elt F) VS0_2.junk (rB m c t h0 h1 p).2.2.1))
def scrC (c : Dev nD) (t : Fin cfg0.N) (h0 : ¬t.val % 8 = 0) (h1 : t.val % 8 = 7) (p : Scr F) : Scr F :=
  (VS0_0.read (Elt F) (VS0_0.writes (Elt F) VS0_0.junk (rC m c t h0 h1 p).2.2.1),
   VS0_1.read (Elt F) (VS0_1.writes (Elt F) VS0_1.junk (rC m c t h0 h1 p).2.2.2.1),
   VS0_2.read (Elt F) (VS0_2.writes (Elt F) VS0_2.junk (rC m c t h0 h1 p).2.2.2.2.1))
/-- What case C leaves in the two output buffers. -/
def outC (c : Dev nD) (t : Fin cfg0.N) (h0 : ¬t.val % 8 = 0) (h1 : t.val % 8 = 7) (p : Scr F) : Outs F :=
  (VO0_6.read (Elt F) (VO0_6.writes (Elt F) VO0_6.junk (rC m c t h0 h1 p).1),
   VO0_7.read (Elt F) (VO0_7.writes (Elt F) VO0_7.junk (rC m c t h0 h1 p).2.1))
/-- At the other points the outputs are idle and not written back: a placeholder nothing consults. -/
def outIdle : Outs F := (VO0_6.read (Elt F) VO0_6.junk, VO0_7.read (Elt F) VO0_7.junk)

/-! ## The pieces cover their buffers -/

theorem scoverA_0 (c : Dev nD) (t : Fin cfg0.N) (h0 : t.val % 8 = 0) (h1 : ¬t.val % 8 = 7) (y : S1024x1.Idx) :
    ∃ pc ∈ (rA m c t h0 h1).1, y ∈ pc.1.set := View.cover_of_tiledL (rA m c t h0 h1).1 S1024x1.size (by sl_kernel_rfl) y
theorem scoverA_1 (c : Dev nD) (t : Fin cfg0.N) (h0 : t.val % 8 = 0) (h1 : ¬t.val % 8 = 7) (y : S1024x1.Idx) :
    ∃ pc ∈ (rA m c t h0 h1).2.1, y ∈ pc.1.set := View.cover_of_tiledL (rA m c t h0 h1).2.1 S1024x1.size (by sl_kernel_rfl) y
theorem scoverA_2 (c : Dev nD) (t : Fin cfg0.N) (h0 : t.val % 8 = 0) (h1 : ¬t.val % 8 = 7) (y : S1024x1.Idx) :
    ∃ pc ∈ (rA m c t h0 h1).2.2.1, y ∈ pc.1.set := View.cover_of_tiledL (rA m c t h0 h1).2.2.1 S1024x1.size (by sl_kernel_rfl) y
theorem scoverB_0 (c : Dev nD) (t : Fin cfg0.N) (h0 : ¬t.val % 8 = 0) (h1 : ¬t.val % 8 = 7) (p : Scr F) (y : S1024x1.Idx) :
    ∃ pc ∈ (rB m c t h0 h1 p).1, y ∈ pc.1.set := View.cover_of_tiledL (rB m c t h0 h1 p).1 S1024x1.size (by sl_kernel_rfl) y
theorem scoverB_1 (c : Dev nD) (t : Fin cfg0.N) (h0 : ¬t.val % 8 = 0) (h1 : ¬t.val % 8 = 7) (p : Scr F) (y : S1024x1.Idx) :
    ∃ pc ∈ (rB m c t h0 h1 p).2.1, y ∈ pc.1.set := View.cover_of_tiledL (rB m c t h0 h1 p).2.1 S1024x1.size (by sl_kernel_rfl) y
theorem scoverB_2 (c : Dev nD) (t : Fin cfg0.N) (h0 : ¬t.val % 8 = 0) (h1 : ¬t.val % 8 = 7) (p : Scr F) (y : S1024x1.Idx) :
    ∃ pc ∈ (rB m c t h0 h1 p).2.2.1, y ∈ pc.1.set := View.cover_of_tiledL (rB m c t h0 h1 p).2.2.1 S1024x1.size (by sl_kernel_rfl) y
theorem coverC_6 (c : Dev nD) (t : Fin cfg0.N) (h0 : ¬t.val % 8 = 0) (h1 : t.val % 8 = 7) (p : Scr F) (y : S1024x1.Idx) :
    ∃ pc ∈ (rC m c t h0 h1 p).1, y ∈ pc.1.set := View.cover_of_tiledL (rC m c t h0 h1 p).1 S1024x1.size (by sl_kernel_rfl) y
theorem coverC_7 (c : Dev nD) (t : Fin cfg0.N) (h0 : ¬t.val % 8 = 0) (h1 : t.val % 8 = 7) (p : Scr F) (y : S1024x1.Idx) :
    ∃ pc ∈ (rC m c t h0 h1 p).2.1, y ∈ pc.1.set := View.cover_of_tiledL (rC m c t h0 h1 p).2.1 S1024x1.size (by sl_kernel_rfl) y
theorem scoverC_0 (c : Dev nD) (t : Fin cfg0.N) (h0 : ¬t.val % 8 = 0) (h1 : t.val % 8 = 7) (p : Scr F) (y : S1024x1.Idx) :
    ∃ pc ∈ (rC m c t h0 h1 p).2.2.1, y ∈ pc.1.set := View.cover_of_tiledL (rC m c t h0 h1 p).2.2.1 S1024x1.size (by sl_kernel_rfl) y
theorem scoverC_1 (c : Dev nD) (t : Fin cfg0.N) (h0 : ¬t.val % 8 = 0) (h1 : t.val % 8 = 7) (p : Scr F) (y : S1024x1.Idx) :
    ∃ pc ∈ (rC m c t h0 h1 p).2.2.2.1, y ∈ pc.1.set := View.cover_of_tiledL (rC m c t h0 h1 p).2.2.2.1 S1024x1.size (by sl_kernel_rfl) y
theorem scoverC_2 (c : Dev nD) (t : Fin cfg0.N) (h0 : ¬t.val % 8 = 0) (h1 : t.val % 8 = 7) (p : Scr F) (y : S1024x1.Idx) :
    ∃ pc ∈ (rC m c t h0 h1 p).2.2.2.2.1, y ∈ pc.1.set := View.cover_of_tiledL (rC m c t h0 h1 p).2.2.2.2.1 S1024x1.size (by sl_kernel_rfl) y

/-! ## What the buffers hold after each point -/

/-- After the body at position `n`: the outputs' buffers and the three running extrema. Column 0 resets; the other
    columns fold into what position `n - 1` left. -/
def outsAt0 (c : Dev nD) : (n : ℕ) → n < cfg0.N → Outs F × Scr F
  | 0, hn => (outIdle, scrA m c ⟨0, hn⟩ (Nat.zero_mod _) (by show ¬0 % 8 = 7; decide))
  | n + 1, hn =>
    if h0 : (n + 1) % 8 = 0 then
      (outIdle, scrA m c ⟨n + 1, hn⟩ h0 (by show ¬(n + 1) % 8 = 7; omega))
    else
      if h1 : (n + 1) % 8 = 7 then
        (outC m c ⟨n + 1, hn⟩ h0 h1 (outsAt0 c n (Nat.lt_of_succ_lt hn)).2, scrC m c ⟨n + 1, hn⟩ h0 h1 (outsAt0 c n (Nat.lt_of_succ_lt hn)).2)
      else
        (outIdle, scrB m c ⟨n + 1, hn⟩ h0 h1 (outsAt0 c n (Nat.lt_of_succ_lt hn)).2)

theorem outsAt0_A (c : Dev nD) (t : Fin cfg0.N) (h0 : t.val % 8 = 0) (h1 : ¬t.val % 8 = 7) :
    outsAt0 m c t.val t.isLt = (outIdle, scrA m c t h0 h1) := by
  obtain ⟨n, hn⟩ := t
  cases n with
  | zero => rfl
  | succ n => exact (dif_pos h0).trans rfl

theorem outsAt0_B (c : Dev nD) (t : Fin cfg0.N) (h0 : ¬t.val % 8 = 0) (h1 : ¬t.val % 8 = 7) :
    outsAt0 m c t.val t.isLt = (outIdle, scrB m c t h0 h1 (outsAt0 m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (outC m c t h0 h1 (outsAt0 m c (t.val - 1) (Nat.lt_of_le_of_lt (Nat.sub_le _ _) t.isLt)).2,
      scrC m c t h0 h1 (outsAt0 m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The region's invariant and the proof data -/

/-- Before the first point the region's default invariant (every scratch at anything); afterwards the three scratch
    buffers at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-- The proof data of the pipeline on core `c`. Windows 0 and 1 read one array (the scaled embeddings as anchor rows
    and as candidate rows): each holds half of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1.1
    | ⟨7, _⟩ => (outsAt0 m c t.val t.isLt).1.2
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1.1 := by dsimp only [dats]
theorem after0_7 (c : Dev nD) (t : Fin cfg0.N) : (dats m 0 c).after 7 t = (outsAt0 m c t.val t.isLt).1.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

end Cert.Kernel.Hand

end
-- ==== Proof.K.Body.lean ====
/-
  The body obligation of the kernel's pallas_call: at every grid point, from the region's invariant (the three
  running extrema at what the point before left) and every window's staging buffer at what it then holds, the kernel
  body runs to the invariant at the next point and every buffer at what the proof data says it leaves. The point's
  column decides the case: the inputs' buffers hold their blocks, the outputs' are untouched away from the last
  column and stored whole at it, and the pieces the run found cover the buffers they were written into.
-/
import proofs.«135937_j90099823936181_2_alg».proof.Proof.K.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  by_cases h1 : t.val % 8 = 7
  · -- the last column: the outputs are stored
    have h0 : ¬t.val % 8 = 0 := by omega
    have hz : t.val ≠ 0 := by omega
    rw [show (dats m 0 c).leavesExact 6 t = owns (c : Thread nD τ) (ms0_6 t) fullShare ((dats m 0 c).after 6 t) from by
      unfold Dat.leavesExact; rw [liveAt0_6 t ((hcond0_1 t).mpr h1)], after0_6]
    rw [show (dats m 0 c).leavesExact 7 t = owns (c : Thread nD τ) (ms0_7 t) fullShare ((dats m 0 c).after 7 t) from by
      unfold Dat.leavesExact; rw [liveAt0_7 t ((hcond0_1 t).mpr h1)], after0_7]
    rw [outsAt0_C m c t h0 h1]
    dsimp only
    unfold outC scrC; dsimp only
    rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((rC m c t h0 h1 _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, ⟨%e6, H6⟩, ⟨%e7, H7⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (scoverC_0 m c t h0 h1 _)
        isplitl [HS1]
        · unfold owns; iexists _; isplitr
          swap; · iexact HS1
          ipureintro; exact View.read_writes_of_cover _ _ _ _ _ (scoverC_1 m c t h0 h1 _)
        unfold owns; iexists _; isplitr
        swap; · iexact HS2
        ipureintro; exact View.read_writes_of_cover _ _ _ _ _ (scoverC_2 m c t h0 h1 _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coverC_6 m c t h0 h1 _)
    unfold owns; iexists _; isplitr
    swap; · iexact H7
    ipureintro; exact View.read_writes_of_cover _ _ _ _ _ (coverC_7 m c t h0 h1 _)
  · -- the other columns: the outputs are idle and handed back as they came
    rw [Dat.leavesExact_idle (dats m 0 c) 6 t (idleAt0_6 t (fun h => h1 ((hcond0_1 t).mp h))) (noFlush0_6 t (fun h => h1 ((hcond0_1 t).mp h)))]
    rw [Dat.leavesExact_idle (dats m 0 c) 7 t (idleAt0_7 t (fun h => h1 ((hcond0_1 t).mp h))) (noFlush0_7 t (fun h => h1 ((hcond0_1 t).mp h)))]
    by_cases h0 : t.val % 8 = 0
    · -- column 0: the reset
      rw [outsAt0_A m c t h0 h1]
      dsimp only
      unfold scrA; dsimp only
      have hPhi : (dats m 0 c).Φ t.castSucc ⊢ (Pipeline.ΦA spec0 c : sProp 𝕄) := by
        rw [PhiS_castSucc m c t]
        by_cases hz : t.val = 0
        · rw [PhiS_zero m c _ _ hz]
        · rw [PhiS_pos m c _ _ hz, PhiA0_eq]
          iintro ⟨⟨HS0, HS1, HS2⟩, Hg⟩
          isplitr [Hg]
          · isplitl [HS0]; · iexists _; iexact HS0
            isplitl [HS1]; · iexists _; iexact HS1
            iexists _; iexact HS2
          iexact Hg
      refine (sep_mono hPhi .rfl).trans ?_
      rw [PhiA0_eq]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((rA m c t h0 h1).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverA_0 m c t h0 h1)
          isplitl [HS1]
          · unfold owns; iexists _; isplitr
            swap; · iexact HS1
            ipureintro; exact View.read_writes_of_cover _ _ _ _ _ (scoverA_1 m c t h0 h1)
          unfold owns; iexists _; isplitr
          swap; · iexact HS2
          ipureintro; exact View.read_writes_of_cover _ _ _ _ _ (scoverA_2 m c t h0 h1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · -- a middle column: fold into what the point before left
      have hz : t.val ≠ 0 := fun e => h0 (by rw [e])
      rw [outsAt0_B m c t h0 h1]
      dsimp only
      unfold scrB; dsimp only
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((rB m c t h0 h1 _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverB_0 m c t h0 h1 _)
          isplitl [HS1]
          · unfold owns; iexists _; isplitr
            swap; · iexact HS1
            ipureintro; exact View.read_writes_of_cover _ _ _ _ _ (scoverB_1 m c t h0 h1 _)
          unfold owns; iexists _; isplitr
          swap; · iexact HS2
          ipureintro; exact View.read_writes_of_cover _ _ _ _ _ (scoverB_2 m c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the default one back: the extrema's named contents are forgotten. -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl,
    PhiS_pos m c _ _ ht, PhiA0_eq]
  iintro ⟨⟨HS0, HS1, HS2⟩, Hg⟩
  isplitr [Hg]
  · isplitl [HS0]; · iexists _; iexact HS0
    isplitl [HS1]; · iexists _; iexact HS1
    iexists _; iexact HS2
  iexact Hg

end Cert.Kernel.Hand

end
-- ==== Proof.K.Shared.lean ====
/-
  The kernel's one pallas_call run from @main when two of its windows stage one array.

  Windows 0 and 1 both stage the scaled embeddings (as anchor rows and as candidate rows), so the windows' arrays are
  not pairwise distinct. The buffers behind the arrays are seven; the first is split in two halves of its share, one
  for each of the two windows that read it. After the region the four later stretches of host operations touch only
  the two output arrays and buffers that bypass the region: the six input windows' shares are set aside while they
  run and handed back afterwards.
-/
import proofs.«135937_j90099823936181_2_alg».proof.Proof.K.Setup
import Idealize.ShloMosaic.Lib.Pipeline.FrameSuffix
import Idealize.ShloMosaic.Lib.Pipeline.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers behind the windows' arrays -/

/-- The windows' arrays are seven buffers: the scaled embeddings (windows 0 and 1), the labels as a column and as a
    row, the groups as a column and as a row, and the two outputs. -/
theorem arrImage_eq : Finset.univ.image (Pipeline.arrRef spec0)
    = [main_v5, main_v6, main_v7, main_v8, main_v9, main_v10_0, main_v10_1].toFinset := by decide

/-- The seven buffers one by one, each whole at the full share. -/
theorem arrBufs_chain (c : Dev nD) (W : (b : Ref sig .tc) → Buf (Elt F) ((c.tc : Thread nD τ).loc b)) :
    (Pipeline.arrBufs spec0 c W : sProp 𝕄)
      = iprop((((c.tc : Thread nD τ).loc main_v5) ↦{fullShare} W main_v5) ∗ (((c.tc : Thread nD τ).loc main_v6) ↦{fullShare} W main_v6)
          ∗ (((c.tc : Thread nD τ).loc main_v7) ↦{fullShare} W main_v7) ∗ (((c.tc : Thread nD τ).loc main_v8) ↦{fullShare} W main_v8)
          ∗ (((c.tc : Thread nD τ).loc main_v9) ↦{fullShare} W main_v9) ∗ (((c.tc : Thread nD τ).loc main_v10_0) ↦{fullShare} W main_v10_0)
          ∗ (((c.tc : Thread nD τ).loc main_v10_1) ↦{fullShare} W main_v10_1)) := by
  unfold Pipeline.arrBufs
  exact bigSep_eq_bigSepL_of_eq _ arrImage_eq (by decide) _

/-- The proof data's arrays at contents `G`, window by window: each window's array is a whole buffer. -/
theorem arrays_chain {c : Dev nD} (dat : Dat τ (Elt F) Unit ℕ (UR sig nD τ) ℕ cfg0 c)
    (G : (w : Fin 8) → Buf (Elt F) ((c.tc : Thread nD τ).loc (Pipeline.arrRef spec0 w))) :
    (dat.arrays G : sProp 𝕄)
      = bigSep Finset.univ fun w : Fin 8 => (((c.tc : Thread nD τ).loc (Pipeline.arrRef spec0 w)) ↦{dat.share w} G w : sProp 𝕄) := by
  unfold Dat.arrays
  exact bigSep_congr fun w _ => by rw [(arr_whole0 w).set_eq_univ]

section Shares

variable {c : Dev nD} (dat : Dat τ (Elt F) Unit ℕ (UR sig nD τ) ℕ cfg0 c)
  (hq0 : dat.q 0 = fullShare.left) (hq1 : dat.q 1 = fullShare.right) (hq : ∀ w : Fin 8, 2 ≤ w.val → dat.q w = fullShare)

include hq0 in
theorem share_0 : dat.share 0 = fullShare.left := (if_neg Bool.false_ne_true).trans hq0
include hq1 in
theorem share_1 : dat.share 1 = fullShare.right := (if_neg Bool.false_ne_true).trans hq1
include hq in
theorem share_2 : dat.share 2 = fullShare := (if_neg Bool.false_ne_true).trans (hq 2 (by decide))
include hq in
theorem share_3 : dat.share 3 = fullShare := (if_neg Bool.false_ne_true).trans (hq 3 (by decide))
include hq in
theorem share_4 : dat.share 4 = fullShare := (if_neg Bool.false_ne_true).trans (hq 4 (by decide))
include hq in
theorem share_5 : dat.share 5 = fullShare := (if_neg Bool.false_ne_true).trans (hq 5 (by decide))
theorem share_6 : dat.share 6 = fullShare := if_pos rfl
theorem share_7 : dat.share 7 = fullShare := if_pos rfl

end Shares

/-- The seven buffers behind the arrays, each whole at the full share at the region-entry contents, make the proof
    data's arrays at entry: the scaled embeddings' points-to is split in its left and right halves, for windows 0 and 1. -/
theorem hsplit (dats : (p : Fin 1) → (c : Dev nD) → Dat τ (Elt F) Unit ℕ (UR sig nD τ) ℕ (cfgs p) c)
    (hq0 : ∀ c, (dats 0 c).q 0 = fullShare.left) (hq1 : ∀ c, (dats 0 c).q 1 = fullShare.right)
    (hq : ∀ c w, 2 ≤ w.val → (dats 0 c).q w = fullShare)
    (hA : ∀ c w, (dats 0 c).A w = V m c (Pipeline.arrRef spec0 w)) (c : Dev nD) :
    (Pipeline.arrBufs spec0 c (V m c) : sProp 𝕄) ⊢ (dats 0 c).arrays ((dats 0 c).arrAt · 0) := by
  have e : ((dats 0 c).arrAt · 0) = fun w => V m c (Pipeline.arrRef spec0 w) := funext fun w => hA c w
  rw [e, arrays_chain (dats 0 c), Gen.bigSep_W0, share_0 _ (hq0 c), share_1 _ (hq1 c), share_2 _ (hq c), share_3 _ (hq c),
    share_4 _ (hq c), share_5 _ (hq c), share_6, share_7, arrBufs_chain]
  iintro ⟨H5, H6, H7, H8, H9, Ha, Hb⟩
  ihave H5 := (pointsTo_share (PosShare.mem_left_op_right fullShare)).1 $$ H5
  icases H5 with ⟨H5l, H5r⟩
  isplitl [H5l]; · iexact H5l
  isplitl [H5r]; · iexact H5r
  isplitl [H6]; · iexact H6
  isplitl [H7]; · iexact H7
  isplitl [H8]; · iexact H8
  isplitl [H9]; · iexact H9
  isplitl [Ha]; · iexact Ha
  iexact Hb

/-! ## The two output windows as a family of their own -/

/-- The output windows are windows 6 and 7. -/
abbrev outW (i : Fin 2) : Fin 8 := ⟨6 + i.val, by omega⟩
/-- Their specifications. -/
abbrev specOut : Fin 2 → Pipeline.WinSpec sig grid0.rank := fun i => spec0 (outW i)
/-- The two output arrays are distinct buffers. -/
theorem specOut_inj : Function.Injective (Pipeline.arrRef specOut) := by decide
/-- The five buffers behind the six input windows. -/
abbrev inRefs : Finset (Ref sig .tc) := {main_v5, main_v6, main_v7, main_v8, main_v9}

/-- The buffers that bypass the region are those that bypass its two output windows, the five input arrays apart. -/
theorem rest_eq : Pipeline.restRefsP sig Pipeline.Prefetch.none specOut \ inRefs = Pipeline.restRefsP sig Pipeline.Prefetch.none spec0 := by
  have hI : Finset.univ.image (Pipeline.arrRef spec0) = Finset.univ.image (Pipeline.arrRef specOut) ∪ inRefs := by decide
  ext b
  have hb : b ∈ Finset.univ.image (Pipeline.arrRef spec0) ↔ b ∈ Finset.univ.image (Pipeline.arrRef specOut) ∨ b ∈ inRefs := by
    rw [hI, Finset.mem_union]
  simp only [Finset.mem_sdiff]
  constructor
  · rintro ⟨⟨⟨h1, h2⟩, h3⟩, h4⟩
    exact ⟨⟨h1, fun h => (hb.mp h).elim h2 h4⟩, h3⟩
  · rintro ⟨⟨h1, h2⟩, h3⟩
    exact ⟨⟨⟨h1, fun h => h2 (hb.mpr (Or.inl h))⟩, h3⟩, fun h => h2 (hb.mpr (Or.inr h))⟩

/-- The two output arrays one by one. -/
theorem arrPts_out (c : Dev nD) (A : (i : Fin 2) → Buf (Elt F) ((specOut i).arr.view.loc (c.tc : Thread nD τ))) :
    (Pipeline.arrPts specOut c A : sProp 𝕄)
      = iprop((((c.tc : Thread nD τ).loc main_v10_0) ↦{fullShare} A 0) ∗ (((c.tc : Thread nD τ).loc main_v10_1) ↦{fullShare} A 1)) := by
  unfold Pipeline.arrPts
  exact bigSep_univ_eq_bigSepL [(0 : Fin 2), 1] (by decide) (by decide) _

/-! ## The stretches after the region -/

/-- Core `c`'s buffer contents after the four later stretches: they run from the region's exit, where the two output
    arrays hold what the region left and every other buffer its region-entry contents. -/
def tailV (dats : (p : Fin 1) → (c : Dev nD) → Dat τ (Elt F) Unit ℕ (UR sig nD τ) ℕ (cfgs p) c) (c : Dev nD) (b : Ref sig .tc) :
    Buf (Elt F) ((c.tc : Thread nD τ).loc b) :=
  StableHlo.after (tailOps (F := F)).flatten
    (Pipeline.withArrays specOut c (V0 m c) fun i => (dats 0 c).arrAt (outW i) cfg0.N) (Proc.devRef .tc b)

/-- The later stretches touch TensorCore references only, and none of the five input arrays. -/
theorem tail_sub : ∀ ops ∈ (tailOps : List (List (HloOp τ sig (Elt F)))), ∀ op ∈ ops,
    op.bufs ⊆ Pipeline.tailRefsBut sig Pipeline.Prefetch.none specOut inRefs := by
  intro ops hops op hop
  simp only [tailOps, List.mem_cons, List.mem_nil_iff, or_false] at hops
  refine Pipeline.sub_tailRefsBut Pipeline.Prefetch.none specOut inRefs op ?_ (fun k => k.elim0) ?_
  · rcases hops with rfl | rfl | rfl | rfl
    · exact (List.forall_iff_forall_mem.mp hostOps1_sub) op hop
    · exact (List.forall_iff_forall_mem.mp hostOps1_1_sub) op hop
    · exact (List.forall_iff_forall_mem.mp hostOps1_2_sub) op hop
    · exact (List.forall_iff_forall_mem.mp hostOps1_3_sub) op hop
  · intro b hb
    simp only [inRefs, Finset.mem_insert, Finset.mem_singleton] at hb
    rcases hops with rfl | rfl | rfl | rfl
    · simp only [hostOps1, List.mem_cons, List.mem_nil_iff, or_false] at hop
      rcases hop with rfl | rfl | rfl | rfl | rfl | rfl | rfl | rfl | rfl | rfl
      all_goals
        rcases hb with rfl | rfl | rfl | rfl | rfl <;>
        simp only [StableHlo.nullary_bufs, StableHlo.unary_bufs, StableHlo.binary_bufs, StableHlo.ternary_bufs, Finset.mem_insert, Finset.mem_singleton, not_or] <;>
        (repeat' constructor) <;> exact StableHlo.devRef_ne_of_ne (by decide)
    · simp only [hostOps1_1, List.mem_cons, List.mem_nil_iff, or_false] at hop
      rcases hop with rfl | rfl
      all_goals
        rcases hb with rfl | rfl | rfl | rfl | rfl <;>
        simp only [StableHlo.nullary_bufs, StableHlo.unary_bufs, StableHlo.binary_bufs, StableHlo.ternary_bufs, Finset.mem_insert, Finset.mem_singleton, not_or] <;>
        (repeat' constructor) <;> exact StableHlo.devRef_ne_of_ne (by decide)
    · simp only [hostOps1_2, List.mem_cons, List.mem_nil_iff, or_false] at hop
      rcases hop with rfl | rfl
      all_goals
        rcases hb with rfl | rfl | rfl | rfl | rfl <;>
        simp only [StableHlo.nullary_bufs, StableHlo.unary_bufs, StableHlo.binary_bufs, StableHlo.ternary_bufs, Finset.mem_insert, Finset.mem_singleton, not_or] <;>
        (repeat' constructor) <;> exact StableHlo.devRef_ne_of_ne (by decide)
    · simp only [hostOps1_3, List.mem_cons, List.mem_nil_iff, or_false] at hop
      rcases hop with rfl | rfl
      all_goals
        rcases hb with rfl | rfl | rfl | rfl | rfl <;>
        simp only [StableHlo.nullary_bufs, StableHlo.unary_bufs, StableHlo.binary_bufs, StableHlo.ternary_bufs, Finset.mem_insert, Finset.mem_singleton, not_or] <;>
        (repeat' constructor) <;> exact StableHlo.devRef_ne_of_ne (by decide)

/-- They allocate nothing. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop

/-- And write neither output array (each writes only its own result buffer). -/
theorem tail_keeps : ∀ ops ∈ (tailOps : List (List (HloOp τ sig (Elt F)))), ∀ op ∈ ops,
    ∀ w, Proc.devRef .tc (Pipeline.arrRef specOut w) ∉ op.writes := by
  intro ops hops op hop
  simp only [tailOps, List.mem_cons, List.mem_nil_iff, or_false] at hops
  rcases hops with rfl | rfl | rfl | rfl
  · simp only [hostOps1, List.mem_cons, List.mem_nil_iff, or_false] at hop
    rcases hop with rfl | rfl | rfl | rfl | rfl | rfl | rfl | rfl | rfl | rfl
    all_goals intro w; fin_cases w <;> simp only [StableHlo.nullary_writes, StableHlo.unary_writes, StableHlo.binary_writes, StableHlo.ternary_writes, Finset.mem_singleton] <;> exact StableHlo.devRef_ne_of_ne (by decide)
  · simp only [hostOps1_1, List.mem_cons, List.mem_nil_iff, or_false] at hop
    rcases hop with rfl | rfl
    all_goals intro w; fin_cases w <;> simp only [StableHlo.nullary_writes, StableHlo.unary_writes, StableHlo.binary_writes, StableHlo.ternary_writes, Finset.mem_singleton] <;> exact StableHlo.devRef_ne_of_ne (by decide)
  · simp only [hostOps1_2, List.mem_cons, List.mem_nil_iff, or_false] at hop
    rcases hop with rfl | rfl
    all_goals intro w; fin_cases w <;> simp only [StableHlo.nullary_writes, StableHlo.unary_writes, StableHlo.binary_writes, StableHlo.ternary_writes, Finset.mem_singleton] <;> exact StableHlo.devRef_ne_of_ne (by decide)
  · simp only [hostOps1_3, List.mem_cons, List.mem_nil_iff, or_false] at hop
    rcases hop with rfl | rfl
    all_goals intro w; fin_cases w <;> simp only [StableHlo.nullary_writes, StableHlo.unary_writes, StableHlo.binary_writes, StableHlo.ternary_writes, Finset.mem_singleton] <;> exact StableHlo.devRef_ne_of_ne (by decide)

/-- THE STRETCHES AFTER THE REGION: from the region's exit — the boundary, the proof data's arrays after the last point,
    the bypassing buffers at their region-entry contents — the four stretches run within the two output arrays and the
    bypassing buffers, the six input windows' shares set aside, and hand back the arrays unchanged and the bypassing
    buffers at `tailV`. -/
theorem htail (dats : (p : Fin 1) → (c : Dev nD) → Dat τ (Elt F) Unit ℕ (UR sig nD τ) ℕ (cfgs p) c)
    (hq0 : ∀ c, (dats 0 c).q 0 = fullShare.left) (hq1 : ∀ c, (dats 0 c).q 1 = fullShare.right)
    (hq : ∀ c w, 2 ≤ w.val → (dats 0 c).q w = fullShare) (c : Dev nD) (Q' : PUnit → sProp 𝕄) :
    iprop((iprop((dats 0 c).arrays ((dats 0 c).arrAt · cfg0.N)
              ∗ Pipeline.unscopedRestP (Ix := Unit) (Name := ℕ) (U := UR sig nD τ) (Lvl := ℕ) Pipeline.Prefetch.none spec0 c (tailV m dats c)) -∗ Q' ⟨⟩)
        ∗ boundary (c.tc : Thread nD τ) ∗ (dats 0 c).arrays ((dats 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (pcfgs (F := F)) defs₀) (Variants.lift Variants.none) (c.tc : Thread nD τ) none) Set.univ
          (Pipeline.chain ((tailOps (F := F)).map StableHlo.seq)) Q' := by
  have hZ : ∀ W : (b : Ref sig .tc) → Buf (Elt F) ((c.tc : Thread nD τ).loc b),
      (Pipeline.unscopedRestP (Ix := Unit) (Name := ℕ) (U := UR sig nD τ) (Lvl := ℕ) Pipeline.Prefetch.none spec0 c W : sProp 𝕄)
        = bigSep (Pipeline.restRefsP sig Pipeline.Prefetch.none specOut \ inRefs) fun b => ((c.tc : Thread nD τ).loc b) ↦{fullShare} W b := by
    intro W; rw [rest_eq]; rfl
  rw [arrays_chain (dats 0 c), Gen.bigSep_W0, share_0 _ (hq0 c), share_1 _ (hq1 c), share_2 _ (hq c), share_3 _ (hq c),
    share_4 _ (hq c), share_5 _ (hq c), share_6, share_7, hZ, hZ]
  iintro ⟨Hk, Hb, ⟨H0, H1, H2, H3, H4, H5, H6, H7⟩, HZ⟩
  iapply (Pipeline.tail_seqs_but (pcfgs (F := F)) defs₀ Variants.none Pipeline.Prefetch.none specOut specOut_inj inRefs c (V0 m c)
    (fun i => (dats 0 c).arrAt (outW i) cfg0.N) tailOps tail_sub tail_fresh tail_keeps Q')
  rw [arrPts_out]
  isplitl [Hk H0 H1 H2 H3 H4 H5]
  · iintro ⟨⟨H6, H7⟩, HR⟩
    iapply Hk
    isplitr [HR]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · iexact HR
  · isplitl [Hb]; · iexact Hb
    isplitl [H6 H7]
    · isplitl [H6]; · iexact H6
      iexact H7
    · iexact HZ

/-! ## The run -/

/-- THE RUN of @main around the region, for any proof data that holds the scaled embeddings at the left half of the share
    for window 0 and the right half for window 1, every other input array at the full share (`hq0`, `hq1`, `hq`), owes
    nothing (`howed`), names the region-entry contents as its arrays (`hA`), and whose invariant is entered from and
    left to the class invariant (`hin`, `hout`): every weakly fair execution terminates, every array of the pipeline
    ends at what the library computes from the proof data, and every buffer that bypasses the region at what the four
    later stretches leave (`tailV`). -/
theorem run_shared (dats : (p : Fin 1) → (c : Dev nD) → Dat τ (Elt F) Unit ℕ (UR sig nD τ) ℕ (cfgs p) c)
    (hbody : ∀ c, Pipeline.BodyObligationLoose (dats 0 c) defs₀ Variants.none () Set.univ)
    (hq0 : ∀ c, (dats 0 c).q 0 = fullShare.left) (hq1 : ∀ c, (dats 0 c).q 1 = fullShare.right)
    (hq : ∀ c w, 2 ≤ w.val → (dats 0 c).q w = fullShare)
    (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ) (fun r => ∀ c : Dev nD,
      (∀ w, r.2.mem ((spec0 w).arr.view.loc (c.tc : Thread nD τ)) = (dats 0 c).arrAt w cfg0.N)
      ∧ ∀ b ∈ Pipeline.restRefs sig spec0, r.2.mem ((c.tc : Thread nD τ).loc b) = tailV m dats c b) := by
  classical
  exact Pipeline.θ_run_region_pf_tail (fun q => (cfgs q).toPCfg (Val := Elt F)) (fun q => (cfgs q).toPCfg_adm) dats () cellOf_inj (0 : Fin 1)
    winFacts₀0 (Pipeline.OwnSemFacts.none spec0) (Pipeline.PreFacts.none _) emb₁ defs₀ Variants.none m ρ main
    (fun _ => Pipeline.chain ((tailOps (F := F)).map StableHlo.seq)) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m dats hq0 hq1 hq hA)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (tailV m dats c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := htail m dats hq0 hq1 hq)
    (QY := fun c s => ∀ b ∈ Pipeline.restRefsP sig Pipeline.Prefetch.none spec0, s.mem ((c.tc : Thread nD τ).loc b) = tailV m dats c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (tailV m dats c) s')
      isplitl [HU] <;> iassumption)
    (hQ := fun s h c => ⟨(h c).1, Pipeline.rest_of_restP Pipeline.Prefetch.none spec0 _ c (tailV m dats c) s (fun k => k.elim0) (h c).2.1 (h c).2.2⟩)

end Cert.Kernel.Hand

end
-- ==== Proof.K.Frame.lean ====
/-
  The frame of the kernel program at any float instance: with the proof data of the pallas_call plugged into the launch
  for windows that share an array, every weakly fair execution of @main terminates, and the three argument arrays end
  as they were launched — they bypass the region (no window stages them) and none of the six stretches of host
  operations writes them.
-/
import proofs.«135937_j90099823936181_2_alg».proof.Proof.K.Body
import proofs.«135937_j90099823936181_2_alg».proof.Proof.K.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run: every array of the pipeline ends at what the library computes from the proof data, every buffer that
    bypasses the region at what the four later stretches leave. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = tailV m (dats m) c b) :=
  run_shared m ρ (dats m) (fun c => (body_obligation m c).loose) (fun _ => rfl) (fun _ => rfl)
    (fun c w hw => by
      rcases w with ⟨n, hn⟩
      match n, hn, hw with
      | 0, _, hw => exact absurd hw (by show ¬2 ≤ 0; decide)
      | 1, _, hw => exact absurd hw (by show ¬2 ≤ 1; decide)
      | 2, _, _ => rfl
      | 3, _, _ => rfl
      | 4, _, _ => rfl
      | 5, _, _ => rfl
      | 6, _, _ => rfl
      | 7, _, _ => rfl
      | n + 8, hn, _ => exact absurd hn (by have hW : (cfgs 0).W = 8 := rfl; omega))
    (fun _ _ => rfl) (A_eq m) (hin m) (hout m)

/-- No operation before the region writes an argument array. -/
theorem pre_keeps_args (r : Ref sig .tc) (hr : r = main_arg0 ∨ r = main_arg1 ∨ r = main_arg2) :
    ∀ ops ∈ ([hostOps0, hostOps0_1] : List (List (HloOp τ sig (Elt F)))), ∀ op ∈ ops, Proc.devRef .tc r ∉ op.writes := by
  intro ops hops op hop
  simp only [List.mem_cons, List.mem_nil_iff, or_false] at hops
  rcases hops with rfl | rfl
  · simp only [hostOps0, List.mem_cons, List.mem_nil_iff, or_false] at hop
    rcases hop with rfl | rfl | rfl | rfl | rfl
    all_goals rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps0_1, List.mem_cons, List.mem_nil_iff, or_false] at hop
    rcases hop with rfl | rfl | rfl | rfl | rfl | rfl | rfl | rfl | rfl | rfl
    all_goals rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)

/-- Nor does any after it. -/
theorem tail_keeps_args (r : Ref sig .tc) (hr : r = main_arg0 ∨ r = main_arg1 ∨ r = main_arg2) :
    ∀ ops ∈ (tailOps : List (List (HloOp τ sig (Elt F)))), ∀ op ∈ ops, Proc.devRef .tc r ∉ op.writes := by
  intro ops hops op hop
  simp only [tailOps, List.mem_cons, List.mem_nil_iff, or_false] at hops
  rcases hops with rfl | rfl | rfl | rfl
  · simp only [hostOps1, List.mem_cons, List.mem_nil_iff, or_false] at hop
    rcases hop with rfl | rfl | rfl | rfl | rfl | rfl | rfl | rfl | rfl | rfl
    all_goals rcases hr with rfl | rfl | rfl <;> simp only [StableHlo.nullary_writes, StableHlo.unary_writes, StableHlo.binary_writes, StableHlo.ternary_writes, Finset.mem_singleton] <;> exact StableHlo.devRef_ne_of_ne (by decide)
  · simp only [hostOps1_1, List.mem_cons, List.mem_nil_iff, or_false] at hop
    rcases hop with rfl | rfl
    all_goals rcases hr with rfl | rfl | rfl <;> simp only [StableHlo.nullary_writes, StableHlo.unary_writes, StableHlo.binary_writes, StableHlo.ternary_writes, Finset.mem_singleton] <;> exact StableHlo.devRef_ne_of_ne (by decide)
  · simp only [hostOps1_2, List.mem_cons, List.mem_nil_iff, or_false] at hop
    rcases hop with rfl | rfl
    all_goals rcases hr with rfl | rfl | rfl <;> simp only [StableHlo.nullary_writes, StableHlo.unary_writes, StableHlo.binary_writes, StableHlo.ternary_writes, Finset.mem_singleton] <;> exact StableHlo.devRef_ne_of_ne (by decide)
  · simp only [hostOps1_3, List.mem_cons, List.mem_nil_iff, or_false] at hop
    rcases hop with rfl | rfl
    all_goals rcases hr with rfl | rfl | rfl <;> simp only [StableHlo.nullary_writes, StableHlo.unary_writes, StableHlo.binary_writes, StableHlo.ternary_writes, Finset.mem_singleton] <;> exact StableHlo.devRef_ne_of_ne (by decide)

/-- So the region finds each argument array at its launch contents, -/
theorem V_arg (c : Dev nD) (r : Ref sig .tc) (hr : r = main_arg0 ∨ r = main_arg1 ∨ r = main_arg2) :
    V m c r = m ((c : Thread nD τ).loc r) := by
  show StableHlo.after (List.flatten [hostOps0, hostOps0_1]) (fun b => m (c, b)) (Proc.devRef .tc r) = _
  rw [StableHlo.after_of_forall_not_mem _ _ fun op hop => by
    obtain ⟨ops, hops, hop'⟩ := List.mem_flatten.mp hop
    exact pre_keeps_args r hr ops hops op hop']

/-- and the later stretches leave it there: an argument array is no output array of the pipeline. -/
theorem tailV_arg (dats : (p : Fin 1) → (c : Dev nD) → Dat τ (Elt F) Unit ℕ (UR sig nD τ) ℕ (cfgs p) c) (c : Dev nD)
    (r : Ref sig .tc) (hr : r = main_arg0 ∨ r = main_arg1 ∨ r = main_arg2) :
    tailV m dats c r = m ((c : Thread nD τ).loc r) := by
  unfold tailV
  rw [StableHlo.after_of_forall_not_mem _ _ fun op hop => by
    obtain ⟨ops, hops, hop'⟩ := List.mem_flatten.mp hop
    exact tail_keeps_args r hr ops hops op hop']
  rw [Pipeline.withArrays_of_ne specOut c (V0 m c) _ r fun w => by
    rcases hr with rfl | rfl | rfl <;> fin_cases w <;> decide]
  exact V_arg m c r hr

theorem arg0_rest : main_arg0 ∈ Pipeline.restRefs sig spec0 := by decide
theorem arg1_rest : main_arg1 ∈ Pipeline.restRefs sig spec0 := by decide
theorem arg2_rest : main_arg2 ∈ Pipeline.restRefs sig spec0 := by decide

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 arg0_rest).trans (tailV_arg m (dats m) c main_arg0 (.inl rfl)),
     ((h c).2 main_arg1 arg1_rest).trans (tailV_arg m (dats m) c main_arg1 (.inr (.inl rfl))),
     ((h c).2 main_arg2 arg2_rest).trans (tailV_arg m (dats m) c main_arg2 (.inr (.inr rfl)))⟩) (run_main m ρ)

end Cert.Kernel.Hand

end
-- ==== Proof.KI.Setup.lean ====
/-
  The idealized kernel's one pallas_call, seen from @main: the TensorCore buffers as the region finds them (the two
  stretches of host operations before it applied to the launch memory), @main reduced to the region continued by the
  four later stretches, each window's block at a grid point, the two branch conditions of the body decided over the
  8 x 8 grid in closed form (the column coordinate is the point's index mod 8: the reset branch at column 0, the
  finalizing branch at column 7), where the two output windows are idle, and the three scratch buffers as memrefs.
-/
import proofs.«135937_j90099823936181_2_alg».proof.Proof.Gen.KernelIdeal.Launch
import proofs.«135937_j90099823936181_2_alg».proof.Proof.Gen.KernelIdeal.Skeleton
import proofs.«135937_j90099823936181_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered: the host operations before it (the row norms,
    the normalized rows cast to bf16, the labels and groups reshaped to a column and to a row) applied to the launch
    memory. -/
abbrev V0 (c : Dev nD) : Valuation τ sig (Elt F) :=
  StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor

/-- The host stretches after the region. -/
abbrev tailOps : List (List (HloOp τ sig (Elt F))) := [hostOps1, hostOps1_1, hostOps1_2, hostOps1_3]

/-- @main is: two stretches of host operations, the region, four more stretches. It reduces to the region CONTINUED BY
    the later stretches, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0, hostOps0_1] tailOps ⟨hostOps0_sub, hostOps0_1_sub⟩
    ⟨hostOps0_fresh, hostOps0_1_fresh⟩ main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two branches over the grid -/

/-- The reset branch's condition (the column coordinate is 0), from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The finalizing branch's condition (the column coordinate is 7). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

end Cert.KernelIdeal.Hand

end
-- ==== Proof.KI.RunB.lean ====
/-
  The kernel body run once at a grid point of a middle column (neither branch taken): on whole staging memrefs, the six
  inputs at their blocks, the two outputs (not stored into at such a point) handed back as they came, the three running
  extrema (hardest positive, hardest same-group negative, hardest negative) at what the column before left, the body
  runs and leaves each running extremum's buffer with the pieces its one store wrote; the pieces are found by the run.
-/
import proofs.«135937_j90099823936181_2_alg».proof.Proof.KI.Setup

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬cond0_0 i) (hc1 : ¬cond0_1 i)
    (x0 : Vec F S1024x128 .bf16) (x1 : Vec F S1024x128 .bf16) (x2 : Vec F S1024x1 .i32) (x3 : Vec F S1x1024 .i32) (x4 : Vec F S1024x1 .i32) (x5 : Vec F S1x1024 .i32) (xs0 xs1 xs2 : Vec F S1024x1 .f32) :
    Σ' (LS0 : List (View.Piece (Elt F) S1024x1 .f32)) (LS1 : List (View.Piece (Elt F) S1024x1 .f32)), { LS2 : List (View.Piece (Elt F) S1024x1 .f32) //
      ∀ (xi6 xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨?_, ?_, ?_, fun xi6 xi7 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    iexists _; iexact HS2

end Cert.KernelIdeal.Hand

end
-- ==== Proof.KI.RunA.lean ====
/-
  The kernel body run once at a grid point of column 0 (the reset branch taken, the finalizing one not): on whole staging
  memrefs, the six inputs at their blocks, the two outputs (not stored into at such a point) handed back as they came,
  the three running extrema at ANY contents (the reset overwrites them before they are read), the body runs and leaves
  each running extremum's buffer with the pieces its two stores wrote (the reset, then the update); the pieces are
  found by the run.
-/
import proofs.«135937_j90099823936181_2_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : cond0_0 i) (hc1 : ¬cond0_1 i)
    (x0 : Vec F S1024x128 .bf16) (x1 : Vec F S1024x128 .bf16) (x2 : Vec F S1024x1 .i32) (x3 : Vec F S1x1024 .i32) (x4 : Vec F S1024x1 .i32) (x5 : Vec F S1x1024 .i32) :
    Σ' (LS0 : List (View.Piece (Elt F) S1024x1 .f32)) (LS1 : List (View.Piece (Elt F) S1024x1 .f32)), { LS2 : List (View.Piece (Elt F) S1024x1 .f32) //
      ∀ (xi6 xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨?_, ?_, ?_, fun xi6 xi7 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    iexists _; iexact HS2

end Cert.KernelIdeal.Hand

end
-- ==== Proof.KI.RunC.lean ====
/-
  The kernel body run once at a grid point of column 7 (the finalizing branch taken, the reset not): on whole staging
  memrefs, the six inputs at their blocks, the two outputs at ANY contents (the finalizing branch stores both whole), the
  three running extrema at what the column before left, the body runs and leaves each running extremum's buffer with the
  piece its store wrote and each output's buffer with the piece the finalizing branch stored (the loss kept where the
  row has a positive and a negative and the loss is positive, and that mask as a float); the pieces are found by the run.
-/
import proofs.«135937_j90099823936181_2_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (hc0 : ¬cond0_0 i) (hc1 : cond0_1 i)
    (x0 : Vec F S1024x128 .bf16) (x1 : Vec F S1024x128 .bf16) (x2 : Vec F S1024x1 .i32) (x3 : Vec F S1x1024 .i32) (x4 : Vec F S1024x1 .i32) (x5 : Vec F S1x1024 .i32) (xs0 xs1 xs2 : Vec F S1024x1 .f32) :
    Σ' (L6 : List (View.Piece (Elt F) S1024x1 .f32)) (L7 : List (View.Piece (Elt F) S1024x1 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    isplitl [HS1]; · iexists _; iexact HS1
    iexists _; iexact HS2

end Cert.KernelIdeal.Hand

end
-- ==== Proof.KI.Windows.lean ====
/-
  The idealized kernel's windows at a grid point: each window's current staging memref as the pipeline passes it to the
  body, the three scratch buffers (the running extrema) as memrefs, where the two output windows are idle (every column
  but the last: the body stores into them only in the finalizing branch, and the pipeline writes them back only there),
  and that each input window's staging buffer holds its block at every point, fetched there or not.
-/
import proofs.«135937_j90099823936181_2_alg».proof.Proof.KI.Setup

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from the last column the two outputs are idle and not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- At the last column they are live. -/
theorem liveAt0_6 : ∀ t : Fin cfg0.N, cond0_1 (grid0.coords t) → cfg0.idle 6 (grid0.coords t) = false := by decide +kernel
theorem liveAt0_7 : ∀ t : Fin cfg0.N, cond0_1 (grid0.coords t) → cfg0.idle 7 (grid0.coords t) = false := by decide +kernel

/-! ## The memrefs the body is called with -/

/-- One staging buffer of each output window, through which its contents are stated. -/
abbrev VO0_6 : View sig .tc .vmem S1024x1 .f32 := (Memref.whole cc0_stg6_0 : Memref sig .tc .vmem S1024x1 .f32).view
abbrev VO0_7 : View sig .tc .vmem S1024x1 .f32 := (Memref.whole cc0_stg7_0 : Memref sig .tc .vmem S1024x1 .f32).view

abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1 .f32 := win0_7.stage (cfg0.slots t 7)
abbrev hs0_7 (t : Fin cfg0.N) : (ms0_7 t).IsWhole := hstage0_7 ((cfg0.slots t 7).cast nbuf0_7)

/-- The three scratch operands: the running hardest positive, hardest same-group negative, hardest negative. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2
abbrev VS0_0 : View sig .tc .vmem S1024x1 .f32 := scM0_0.view
abbrev VS0_1 : View sig .tc .vmem S1024x1 .f32 := scM0_1.view
abbrev VS0_2 : View sig .tc .vmem S1024x1 .f32 := scM0_2.view

/-- The region's default invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## Each input's staging buffer holds its block -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand

end
-- ==== Proof.KI.Data.lean ====
/-
  What the idealized kernel's pallas_call holds point by point, and its proof data.

  The 64 grid points are row block i = t / 8, column block j = t % 8. At column 0 the body resets the three running
  extrema and folds in the first column block (case A); at columns 1 to 6 it folds the next block into what the point
  before left (case B); at column 7 it folds the last block in and stores the two outputs from the finished extrema
  (case C). `outsAt0` records, by recursion on the point, what the two output buffers and the three scratch buffers hold
  after each point; the proof data names the input arrays as the region finds them, each input buffer's block, the
  outputs' and the scratch buffers' contents by `outsAt0`, nothing owed, and — because the scaled embeddings reach the
  kernel through two windows (anchor rows and candidate rows of one array) — half of that array's share for each.
-/
import proofs.«135937_j90099823936181_2_alg».proof.Proof.KI.RunC
import proofs.«135937_j90099823936181_2_alg».proof.Proof.KI.Windows

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three running extrema (hardest positive, hardest same-group negative, hardest negative) of a row block. -/
abbrev Scr (F : FTy → Type) [FloatOps F] : Type := Vec F S1024x1 .f32 × Vec F S1024x1 .f32 × Vec F S1024x1 .f32
/-- The two output blocks (kept losses, kept mask). -/
abbrev Outs (F : FTy → Type) [FloatOps F] : Type := Vec F S1024x1 .f32 × Vec F S1024x1 .f32

/-! ## The three cases of the body at a point -/

/-- The body's run at a point of column 0, on the point's memrefs and input blocks. -/
def rA (c : Dev nD) (t : Fin cfg0.N) (h0 : t.val % 8 = 0) (h1 : ¬t.val % 8 = 7) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)
/-- The body's run at a point of a middle column, over what the point before left in the scratch buffers. -/
def rB (c : Dev nD) (t : Fin cfg0.N) (h0 : ¬t.val % 8 = 0) (h1 : ¬t.val % 8 = 7) (p : Scr F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) p.1 p.2.1 p.2.2
/-- The body's run at a point of column 7, over what the point before left in the scratch buffers. -/
def rC (c : Dev nD) (t : Fin cfg0.N) (h0 : ¬t.val % 8 = 0) (h1 : t.val % 8 = 7) (p : Scr F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) p.1 p.2.1 p.2.2

/-- What case A leaves in the scratch buffers: each one's pieces read back. -/
def scrA (c : Dev nD) (t : Fin cfg0.N) (h0 : t.val % 8 = 0) (h1 : ¬t.val % 8 = 7) : Scr F :=
  (VS0_0.read (Elt F) (VS0_0.writes (Elt F) VS0_0.junk (rA m c t h0 h1).1),
   VS0_1.read (Elt F) (VS0_1.writes (Elt F) VS0_1.junk (rA m c t h0 h1).2.1),
   VS0_2.read (Elt F) (VS0_2.writes (Elt F) VS0_2.junk (rA m c t h0 h1).2.2.1))
def scrB (c : Dev nD) (t : Fin cfg0.N) (h0 : ¬t.val % 8 = 0) (h1 : ¬t.val % 8 = 7) (p : Scr F) : Scr F :=
  (VS0_0.read (Elt F) (VS0_0.writes (Elt F) VS0_0.junk (rB m c t h0 h1 p).1),
   VS0_1.read (Elt F) (VS0_1.writes (Elt F) VS0_1.junk (rB m c t h0 h1 p).2.1),
   VS0_2.read (Elt F) (VS0_2.writes (Elt F) VS0_2.junk (rB m c t h0 h1 p).2.2.1))
def scrC (c : Dev nD) (t : Fin cfg0.N) (h0 : ¬t.val % 8 = 0) (h1 : t.val % 8 = 7) (p : Scr F) : Scr F :=
  (VS0_0.read (Elt F) (VS0_0.writes (Elt F) VS0_0.junk (rC m c t h0 h1 p).2.2.1),
   VS0_1.read (Elt F) (VS0_1.writes (Elt F) VS0_1.junk (rC m c t h0 h1 p).2.2.2.1),
   VS0_2.read (Elt F) (VS0_2.writes (Elt F) VS0_2.junk (rC m c t h0 h1 p).2.2.2.2.1))
/-- What case C leaves in the two output buffers. -/
def outC (c : Dev nD) (t : Fin cfg0.N) (h0 : ¬t.val % 8 = 0) (h1 : t.val % 8 = 7) (p : Scr F) : Outs F :=
  (VO0_6.read (Elt F) (VO0_6.writes (Elt F) VO0_6.junk (rC m c t h0 h1 p).1),
   VO0_7.read (Elt F) (VO0_7.writes (Elt F) VO0_7.junk (rC m c t h0 h1 p).2.1))
/-- At the other points the outputs are idle and not written back: a placeholder nothing consults. -/
def outIdle : Outs F := (VO0_6.read (Elt F) VO0_6.junk, VO0_7.read (Elt F) VO0_7.junk)

/-! ## The pieces cover their buffers -/

theorem scoverA_0 (c : Dev nD) (t : Fin cfg0.N) (h0 : t.val % 8 = 0) (h1 : ¬t.val % 8 = 7) (y : S1024x1.Idx) :
    ∃ pc ∈ (rA m c t h0 h1).1, y ∈ pc.1.set := View.cover_of_tiledL (rA m c t h0 h1).1 S1024x1.size (by sl_kernel_rfl) y
theorem scoverA_1 (c : Dev nD) (t : Fin cfg0.N) (h0 : t.val % 8 = 0) (h1 : ¬t.val % 8 = 7) (y : S1024x1.Idx) :
    ∃ pc ∈ (rA m c t h0 h1).2.1, y ∈ pc.1.set := View.cover_of_tiledL (rA m c t h0 h1).2.1 S1024x1.size (by sl_kernel_rfl) y
theorem scoverA_2 (c : Dev nD) (t : Fin cfg0.N) (h0 : t.val % 8 = 0) (h1 : ¬t.val % 8 = 7) (y : S1024x1.Idx) :
    ∃ pc ∈ (rA m c t h0 h1).2.2.1, y ∈ pc.1.set := View.cover_of_tiledL (rA m c t h0 h1).2.2.1 S1024x1.size (by sl_kernel_rfl) y
theorem scoverB_0 (c : Dev nD) (t : Fin cfg0.N) (h0 : ¬t.val % 8 = 0) (h1 : ¬t.val % 8 = 7) (p : Scr F) (y : S1024x1.Idx) :
    ∃ pc ∈ (rB m c t h0 h1 p).1, y ∈ pc.1.set := View.cover_of_tiledL (rB m c t h0 h1 p).1 S1024x1.size (by sl_kernel_rfl) y
theorem scoverB_1 (c : Dev nD) (t : Fin cfg0.N) (h0 : ¬t.val % 8 = 0) (h1 : ¬t.val % 8 = 7) (p : Scr F) (y : S1024x1.Idx) :
    ∃ pc ∈ (rB m c t h0 h1 p).2.1, y ∈ pc.1.set := View.cover_of_tiledL (rB m c t h0 h1 p).2.1 S1024x1.size (by sl_kernel_rfl) y
theorem scoverB_2 (c : Dev nD) (t : Fin cfg0.N) (h0 : ¬t.val % 8 = 0) (h1 : ¬t.val % 8 = 7) (p : Scr F) (y : S1024x1.Idx) :
    ∃ pc ∈ (rB m c t h0 h1 p).2.2.1, y ∈ pc.1.set := View.cover_of_tiledL (rB m c t h0 h1 p).2.2.1 S1024x1.size (by sl_kernel_rfl) y
theorem coverC_6 (c : Dev nD) (t : Fin cfg0.N) (h0 : ¬t.val % 8 = 0) (h1 : t.val % 8 = 7) (p : Scr F) (y : S1024x1.Idx) :
    ∃ pc ∈ (rC m c t h0 h1 p).1, y ∈ pc.1.set := View.cover_of_tiledL (rC m c t h0 h1 p).1 S1024x1.size (by sl_kernel_rfl) y
theorem coverC_7 (c : Dev nD) (t : Fin cfg0.N) (h0 : ¬t.val % 8 = 0) (h1 : t.val % 8 = 7) (p : Scr F) (y : S1024x1.Idx) :
    ∃ pc ∈ (rC m c t h0 h1 p).2.1, y ∈ pc.1.set := View.cover_of_tiledL (rC m c t h0 h1 p).2.1 S1024x1.size (by sl_kernel_rfl) y
theorem scoverC_0 (c : Dev nD) (t : Fin cfg0.N) (h0 : ¬t.val % 8 = 0) (h1 : t.val % 8 = 7) (p : Scr F) (y : S1024x1.Idx) :
    ∃ pc ∈ (rC m c t h0 h1 p).2.2.1, y ∈ pc.1.set := View.cover_of_tiledL (rC m c t h0 h1 p).2.2.1 S1024x1.size (by sl_kernel_rfl) y
theorem scoverC_1 (c : Dev nD) (t : Fin cfg0.N) (h0 : ¬t.val % 8 = 0) (h1 : t.val % 8 = 7) (p : Scr F) (y : S1024x1.Idx) :
    ∃ pc ∈ (rC m c t h0 h1 p).2.2.2.1, y ∈ pc.1.set := View.cover_of_tiledL (rC m c t h0 h1 p).2.2.2.1 S1024x1.size (by sl_kernel_rfl) y
theorem scoverC_2 (c : Dev nD) (t : Fin cfg0.N) (h0 : ¬t.val % 8 = 0) (h1 : t.val % 8 = 7) (p : Scr F) (y : S1024x1.Idx) :
    ∃ pc ∈ (rC m c t h0 h1 p).2.2.2.2.1, y ∈ pc.1.set := View.cover_of_tiledL (rC m c t h0 h1 p).2.2.2.2.1 S1024x1.size (by sl_kernel_rfl) y

/-! ## What the buffers hold after each point -/

/-- After the body at position `n`: the outputs' buffers and the three running extrema. Column 0 resets; the other
    columns fold into what position `n - 1` left. -/
def outsAt0 (c : Dev nD) : (n : ℕ) → n < cfg0.N → Outs F × Scr F
  | 0, hn => (outIdle, scrA m c ⟨0, hn⟩ (Nat.zero_mod _) (by show ¬0 % 8 = 7; decide))
  | n + 1, hn =>
    if h0 : (n + 1) % 8 = 0 then
      (outIdle, scrA m c ⟨n + 1, hn⟩ h0 (by show ¬(n + 1) % 8 = 7; omega))
    else
      if h1 : (n + 1) % 8 = 7 then
        (outC m c ⟨n + 1, hn⟩ h0 h1 (outsAt0 c n (Nat.lt_of_succ_lt hn)).2, scrC m c ⟨n + 1, hn⟩ h0 h1 (outsAt0 c n (Nat.lt_of_succ_lt hn)).2)
      else
        (outIdle, scrB m c ⟨n + 1, hn⟩ h0 h1 (outsAt0 c n (Nat.lt_of_succ_lt hn)).2)

theorem outsAt0_A (c : Dev nD) (t : Fin cfg0.N) (h0 : t.val % 8 = 0) (h1 : ¬t.val % 8 = 7) :
    outsAt0 m c t.val t.isLt = (outIdle, scrA m c t h0 h1) := by
  obtain ⟨n, hn⟩ := t
  cases n with
  | zero => rfl
  | succ n => exact (dif_pos h0).trans rfl

theorem outsAt0_B (c : Dev nD) (t : Fin cfg0.N) (h0 : ¬t.val % 8 = 0) (h1 : ¬t.val % 8 = 7) :
    outsAt0 m c t.val t.isLt = (outIdle, scrB m c t h0 h1 (outsAt0 m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (outC m c t h0 h1 (outsAt0 m c (t.val - 1) (Nat.lt_of_le_of_lt (Nat.sub_le _ _) t.isLt)).2,
      scrC m c t h0 h1 (outsAt0 m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The region's invariant and the proof data -/

/-- Before the first point the region's default invariant (every scratch at anything); afterwards the three scratch
    buffers at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-- The proof data of the pipeline on core `c`. Windows 0 and 1 read one array (the scaled embeddings as anchor rows
    and as candidate rows): each holds half of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1.1
    | ⟨7, _⟩ => (outsAt0 m c t.val t.isLt).1.2
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1.1 := by dsimp only [dats]
theorem after0_7 (c : Dev nD) (t : Fin cfg0.N) : (dats m 0 c).after 7 t = (outsAt0 m c t.val t.isLt).1.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

end Cert.KernelIdeal.Hand

end
-- ==== Proof.KI.Pieces.lean ====
/-
  What each case of the body leaves, as values: the pieces the runs found, read back, are the payloads of the body's
  covering stores over the point's input blocks and the extrema the point before left. With `d` the tile of distances
  (one minus the product of the anchor rows' block with the candidate rows' block), `same` / `grp` the label and group
  agreement tiles and `posm` the positives' tile (labels agree, off the diagonal), a point folds the tile's row maximum
  of the masked distances into the running hardest positive, and the row minima into the two running hardest
  negatives; column 0 folds into the fill values, and column 7 then stores the kept losses and the kept mask.
-/
import proofs.«135937_j90099823936181_2_alg».proof.Proof.KI.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat)
open Cert.KernelIdeal Cert.KernelIdeal.Gen

variable {F : FTy → Type} [FloatOps F]

variable (m : (ℓ : Loc nD τ sig) → Buf (Elt F) ℓ)

theorem hz : (![0, 0] : Fin 2 → Nat) = fun _ => 0 := funext fun a => by fin_cases a <;> rfl

/-- The tile of distances at point `t`. -/
abbrev dT (c : Dev nD) (t : Fin cfg0.N) : FVec F S1024x1024 .f32 := k0_pay12 (iblk m c 0 t) (iblk m c 1 t)
/-- The tiles of label agreement, of group agreement, and of positives (labels agree, off the diagonal). -/
abbrev sameT (c : Dev nD) (t : Fin cfg0.N) : IVec S1024x1024 1 := k0_pay13 (F := F) (iblk m c 2 t) (iblk m c 3 t)
abbrev grpT (c : Dev nD) (t : Fin cfg0.N) : IVec S1024x1024 1 := k0_pay14 (F := F) (iblk m c 4 t) (iblk m c 5 t)
abbrev posT (c : Dev nD) (t : Fin cfg0.N) : IVec S1024x1024 1 := k0_pay15 (F := F) (grid0.coords t) (iblk m c 2 t) (iblk m c 3 t)

/-- One point's fold of the three running extrema. -/
def foldT (c : Dev nD) (t : Fin cfg0.N) (p : Scr F) : Scr F :=
  (k0_pay2 (dT m c t) (posT m c t) p.1, k0_pay3 (dT m c t) (sameT m c t) (grpT m c t) p.2.1, k0_pay4 (dT m c t) (sameT m c t) p.2.2)

/-- The fill values the reset stores. -/
def fillT : Scr F := (k0_pay9 (F := F), k0_pay10 (F := F), k0_pay11 (F := F))

/-- What the finalizing branch stores from finished extrema. -/
def finT (s : Scr F) : Outs F := (k0_pay7 s.1 s.2.1 s.2.2 s.2.1 s.2.2 s.1, k0_pay8 s.1 s.2.1 s.2.2 s.2.1 s.2.2 s.1)

/-- A middle column folds the tile into what the point before left. -/
theorem scrB_eq (c : Dev nD) (t : Fin cfg0.N) (h0 : ¬t.val % 8 = 0) (h1 : ¬t.val % 8 = 7) (p : Scr F) :
    scrB m c t h0 h1 p = foldT m c t p := by
  unfold scrB foldT
  refine Prod.ext ?_ (Prod.ext ?_ ?_)
  · dsimp only
    rw [View.read_writes_eq_canon _ _ _ (scoverB_0 m c t h0 h1 p)]
    unfold rB kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread,
      (Memref.isWhole_whole cc0_scratch0).read_unread, (Memref.isWhole_whole cc0_scratch1).read_unread, (Memref.isWhole_whole cc0_scratch2).read_unread,
      View.ld_unit_zero (S := S1024x128) hz, View.ld_unit_zero (S := S1024x1) hz, View.ld_unit_zero (S := S1x1024) hz,
      View.readCov_unit_zero (S := S1024x1) _ hz]
  · dsimp only
    rw [View.read_writes_eq_canon _ _ _ (scoverB_1 m c t h0 h1 p)]
    unfold rB kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread,
      (Memref.isWhole_whole cc0_scratch0).read_unread, (Memref.isWhole_whole cc0_scratch1).read_unread, (Memref.isWhole_whole cc0_scratch2).read_unread,
      View.ld_unit_zero (S := S1024x128) hz, View.ld_unit_zero (S := S1024x1) hz, View.ld_unit_zero (S := S1x1024) hz,
      View.readCov_unit_zero (S := S1024x1) _ hz]
  · dsimp only
    rw [View.read_writes_eq_canon _ _ _ (scoverB_2 m c t h0 h1 p)]
    unfold rB kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread,
      (Memref.isWhole_whole cc0_scratch0).read_unread, (Memref.isWhole_whole cc0_scratch1).read_unread, (Memref.isWhole_whole cc0_scratch2).read_unread,
      View.ld_unit_zero (S := S1024x128) hz, View.ld_unit_zero (S := S1024x1) hz, View.ld_unit_zero (S := S1x1024) hz,
      View.readCov_unit_zero (S := S1024x1) _ hz]

/-- The last column folds the same way. -/
theorem scrC_eq (c : Dev nD) (t : Fin cfg0.N) (h0 : ¬t.val % 8 = 0) (h1 : t.val % 8 = 7) (p : Scr F) :
    scrC m c t h0 h1 p = foldT m c t p := by
  unfold scrC foldT
  refine Prod.ext ?_ (Prod.ext ?_ ?_)
  · dsimp only
    rw [View.read_writes_eq_canon _ _ _ (scoverC_0 m c t h0 h1 p)]
    unfold rC kernelRun0_C
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread,
      (Memref.isWhole_whole cc0_scratch0).read_unread, (Memref.isWhole_whole cc0_scratch1).read_unread, (Memref.isWhole_whole cc0_scratch2).read_unread,
      View.ld_unit_zero (S := S1024x128) hz, View.ld_unit_zero (S := S1024x1) hz, View.ld_unit_zero (S := S1x1024) hz,
      View.readCov_unit_zero (S := S1024x1) _ hz]
  · dsimp only
    rw [View.read_writes_eq_canon _ _ _ (scoverC_1 m c t h0 h1 p)]
    unfold rC kernelRun0_C
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread,
      (Memref.isWhole_whole cc0_scratch0).read_unread, (Memref.isWhole_whole cc0_scratch1).read_unread, (Memref.isWhole_whole cc0_scratch2).read_unread,
      View.ld_unit_zero (S := S1024x128) hz, View.ld_unit_zero (S := S1024x1) hz, View.ld_unit_zero (S := S1x1024) hz,
      View.readCov_unit_zero (S := S1024x1) _ hz]
  · dsimp only
    rw [View.read_writes_eq_canon _ _ _ (scoverC_2 m c t h0 h1 p)]
    unfold rC kernelRun0_C
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread,
      (Memref.isWhole_whole cc0_scratch0).read_unread, (Memref.isWhole_whole cc0_scratch1).read_unread, (Memref.isWhole_whole cc0_scratch2).read_unread,
      View.ld_unit_zero (S := S1024x128) hz, View.ld_unit_zero (S := S1024x1) hz, View.ld_unit_zero (S := S1x1024) hz,
      View.readCov_unit_zero (S := S1024x1) _ hz]

/-- Column 0 folds the tile into the fill values: the reset's store is covered by the update's, which read it back. -/
theorem scrA_eq (c : Dev nD) (t : Fin cfg0.N) (h0 : t.val % 8 = 0) (h1 : ¬t.val % 8 = 7) :
    scrA m c t h0 h1 = foldT m c t fillT := by
  unfold scrA foldT fillT
  refine Prod.ext ?_ (Prod.ext ?_ ?_)
  · dsimp only
    rw [View.read_writes_eq_canon _ _ _ (scoverA_0 m c t h0 h1)]
    unfold rA kernelRun0_A
    dsimp only
    sl_unfold_words
    rw [View.canon_cons_unit_zero (S := S1024x1) hz, View.readCov_unit_zero (S := S1024x1) _ hz]
    simp only [View.readAt_eq_ld, (hs0_0 t).read_unread, (hs0_1 t).read_unread, (hs0_2 t).read_unread, (hs0_3 t).read_unread, (hs0_4 t).read_unread, (hs0_5 t).read_unread,
      (Memref.isWhole_whole cc0_scratch0).read_unread, (Memref.isWhole_whole cc0_scratch1).read_unread, (Memref.isWhole_whole cc0_scratch2).read_unread,
      View.ld_unit_zero (S := S1024x128) hz, View.ld_unit_zero (S := S1024x1) hz, View.ld_unit_zero (S := S1x1024) hz,
      View.readCov_unit_zero (S := S1024x1) _ hz]
  · dsimp only
    rw [View.read_writes_eq_canon _ _ _ (scoverA_1 m c t h0 h1)]
    unfold rA kernelRun0_A
    dsimp only
    sl_unfold_words
    rw [View.canon_cons_unit_zero (S := S1024x1) hz, View.readCov_unit_zero (S := S1024x1) _ hz]
    simp only [View.readAt_eq_ld, (hs0_0 t).read_unread, (hs0_1 t).read_unread, (hs0_2 t).read_unread, (hs0_3 t).read_unread, (hs0_4 t).read_unread, (hs0_5 t).read_unread,
      (Memref.isWhole_whole cc0_scratch0).read_unread, (Memref.isWhole_whole cc0_scratch1).read_unread, (Memref.isWhole_whole cc0_scratch2).read_unread,
      View.ld_unit_zero (S := S1024x128) hz, View.ld_unit_zero (S := S1024x1) hz, View.ld_unit_zero (S := S1x1024) hz,
      View.readCov_unit_zero (S := S1024x1) _ hz]
  · dsimp only
    rw [View.read_writes_eq_canon _ _ _ (scoverA_2 m c t h0 h1)]
    unfold rA kernelRun0_A
    dsimp only
    sl_unfold_words
    rw [View.canon_cons_unit_zero (S := S1024x1) hz, View.readCov_unit_zero (S := S1024x1) _ hz]
    simp only [View.readAt_eq_ld, (hs0_0 t).read_unread, (hs0_1 t).read_unread, (hs0_2 t).read_unread, (hs0_3 t).read_unread, (hs0_4 t).read_unread, (hs0_5 t).read_unread,
      (Memref.isWhole_whole cc0_scratch0).read_unread, (Memref.isWhole_whole cc0_scratch1).read_unread, (Memref.isWhole_whole cc0_scratch2).read_unread,
      View.ld_unit_zero (S := S1024x128) hz, View.ld_unit_zero (S := S1024x1) hz, View.ld_unit_zero (S := S1x1024) hz,
      View.readCov_unit_zero (S := S1024x1) _ hz]

/-- The last column stores the outputs from the extrema it has just finished (read back after its own stores). -/
theorem outC_eq (c : Dev nD) (t : Fin cfg0.N) (h0 : ¬t.val % 8 = 0) (h1 : t.val % 8 = 7) (p : Scr F) :
    outC m c t h0 h1 p = finT (foldT m c t p) := by
  unfold outC finT foldT
  refine Prod.ext ?_ ?_
  · dsimp only
    rw [View.read_writes_eq_canon _ _ _ (coverC_6 m c t h0 h1 p)]
    unfold rC kernelRun0_C
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread,
      (Memref.isWhole_whole cc0_scratch0).read_unread, (Memref.isWhole_whole cc0_scratch1).read_unread, (Memref.isWhole_whole cc0_scratch2).read_unread,
      View.ld_unit_zero (S := S1024x128) hz, View.ld_unit_zero (S := S1024x1) hz, View.ld_unit_zero (S := S1x1024) hz,
      View.readCov_unit_zero (S := S1024x1) _ hz]
  · dsimp only
    rw [View.read_writes_eq_canon _ _ _ (coverC_7 m c t h0 h1 p)]
    unfold rC kernelRun0_C
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread,
      (Memref.isWhole_whole cc0_scratch0).read_unread, (Memref.isWhole_whole cc0_scratch1).read_unread, (Memref.isWhole_whole cc0_scratch2).read_unread,
      View.ld_unit_zero (S := S1024x128) hz, View.ld_unit_zero (S := S1024x1) hz, View.ld_unit_zero (S := S1x1024) hz,
      View.readCov_unit_zero (S := S1024x1) _ hz]

end Cert.KernelIdeal.Hand

end
-- ==== Proof.Spec.lean ====
/-
  The mathematics both programs compute, stated once over plain indices (rows `Fin 8192`, features `Fin 128`) on the
  extended reals, with no program in sight.

  From embeddings `e` the rows are scaled to `x r = e r / max ‖e r‖ ε` (`xn`). For an anchor row `r` and a candidate row
  `c` the distance is `1 - ⟨x r, x c⟩`; `c` is a positive for `r` when the labels agree and `c ≠ r`, a negative when they
  differ, a same-group negative when moreover the groups agree. The hardest positive is the largest masked distance
  (fill `-10⁹`), the hardest negatives the smallest (fill `10⁹`); the loss of a row is
  `max (ap - an + margin) 0` with `an` the same-group minimum when a same-group negative exists and the minimum over
  all negatives otherwise; a row counts when it has a positive and a negative and its loss is positive; the result is
  the mean loss of the rows that count (`tail`).

  Two readings of "exists" are stated. The REFERENCE form (`…R`) takes each extremum over the whole row from ∓∞ and
  asks whether a candidate exists. The KERNEL form (`…K`) runs each extremum over eight column blocks of 1024 starting
  from the fill value itself, and recovers "a candidate exists" by comparing the extremum against ∓5·10⁸.
-/
import Idealize.ShloMosaic.PureOps.Ideal
import Idealize.ShloMosaic.PureOps.Ideal.Laws

noncomputable section

namespace Cert.Spec

open Idealize.ShloMosaic

/-- An f32 literal's extended real. -/
abbrev lit (b : BitVec 32) : EReal := Ideal.ofBits .f32 b

/-! ## The scaled rows -/

/-- Row `r` of `e` divided by `max (√(0 + Σ e²)) ε`, entry `k`. -/
def xn (e : Fin 8192 → Fin 128 → EReal) (r : Fin 8192) (k : Fin 128) : EReal :=
  Ideal.div (e r k) (max (Ideal.sqrt (lit 0x00000000#32 + ∑ k' : Fin 128, e r k' * e r k')) (lit 0x2B8CBCCC#32))

section Rows

variable (x : Fin 8192 → Fin 128 → EReal) (l g : Fin 8192 → BitVec 32)

/-- `1 - ⟨x r, x c⟩`. -/
def dist (r c : Fin 8192) : EReal := lit 0x3F800000#32 - ∑ k : Fin 128, x r k * x c k

def pos (r c : Fin 8192) : Prop := l r = l c ∧ r ≠ c
def neg (r c : Fin 8192) : Prop := l r ≠ l c
def negsg (r c : Fin 8192) : Prop := l r ≠ l c ∧ g r = g c

instance (r c : Fin 8192) : Decidable (pos l r c) := by unfold pos; infer_instance
instance (r c : Fin 8192) : Decidable (neg l r c) := by unfold neg; infer_instance
instance (r c : Fin 8192) : Decidable (negsg l g r c) := by unfold negsg; infer_instance

/-- The masked distance for the hardest positive, with the fill value a parameter (the two programs spell `-10⁹`
    differently: the negation of the literal `10⁹`, and the literal `-10⁹`). -/
def candAp (fill : EReal) (r c : Fin 8192) : EReal := if pos l r c then dist x r c else fill
def candSg (r c : Fin 8192) : EReal := if negsg l g r c then dist x r c else lit 0x4E6E6B28#32
def candAll (r c : Fin 8192) : EReal := if neg l r c then dist x r c else lit 0x4E6E6B28#32

/-! ## The reference's reading -/

def apR (r : Fin 8192) : EReal := (Finset.univ : Finset (Fin 8192)).fold max (lit 0xFF800000#32) (candAp x l (-(lit 0x4E6E6B28#32)) r)
def sgR (r : Fin 8192) : EReal := (Finset.univ : Finset (Fin 8192)).fold min (lit 0x7F800000#32) (candSg x l g r)
def allR (r : Fin 8192) : EReal := (Finset.univ : Finset (Fin 8192)).fold min (lit 0x7F800000#32) (candAll x l r)
def lossR (r : Fin 8192) : EReal :=
  max (apR x l r - (if ∃ c, negsg l g r c then sgR x l g r else allR x l r) + lit 0x3DCCCCCD#32) (lit 0x00000000#32)
def inclR (r : Fin 8192) : Prop := ((∃ c, pos l r c) ∧ (∃ c, neg l r c)) ∧ lit 0x00000000#32 < lossR x l g r

/-! ## The kernel's reading -/

/-- Column `q` of column block `j`. -/
def col (j : Fin 8) (q : Fin 1024) : Fin 8192 := ⟨j.val * 1024 + q.val, by omega⟩

def apBlk (r : Fin 8192) (j : Fin 8) : EReal :=
  (Finset.univ : Finset (Fin 1024)).fold max (lit 0xFF800000#32) (fun q => candAp x l (lit 0xCE6E6B28#32) r (col j q))
def sgBlk (r : Fin 8192) (j : Fin 8) : EReal :=
  (Finset.univ : Finset (Fin 1024)).fold min (lit 0x7F800000#32) (fun q => candSg x l g r (col j q))
def allBlk (r : Fin 8192) (j : Fin 8) : EReal :=
  (Finset.univ : Finset (Fin 1024)).fold min (lit 0x7F800000#32) (fun q => candAll x l r (col j q))

/-- The running maximum after the first `n` column blocks, from the fill value `-10⁹`. -/
def apRun (r : Fin 8192) : ℕ → EReal
  | 0 => lit 0xCE6E6B28#32
  | n + 1 => max (apRun r n) (if h : n < 8 then apBlk x l r ⟨n, h⟩ else lit 0xFF800000#32)
/-- The running minima after the first `n` column blocks, from the fill value `10⁹`. -/
def sgRun (r : Fin 8192) : ℕ → EReal
  | 0 => lit 0x4E6E6B28#32
  | n + 1 => min (sgRun r n) (if h : n < 8 then sgBlk x l g r ⟨n, h⟩ else lit 0x7F800000#32)
def allRun (r : Fin 8192) : ℕ → EReal
  | 0 => lit 0x4E6E6B28#32
  | n + 1 => min (allRun r n) (if h : n < 8 then allBlk x l r ⟨n, h⟩ else lit 0x7F800000#32)

def apK (r : Fin 8192) : EReal := apRun x l r 8
def sgK (r : Fin 8192) : EReal := sgRun x l g r 8
def allK (r : Fin 8192) : EReal := allRun x l r 8
def lossK (r : Fin 8192) : EReal :=
  max (apK x l r - (if sgK x l g r < lit 0x4DEE6B28#32 then sgK x l g r else allK x l r) + lit 0x3DCCCCCD#32) (lit 0x00000000#32)
def inclK (r : Fin 8192) : Prop :=
  (lit 0xCDEE6B28#32 < apK x l r ∧ allK x l r < lit 0x4DEE6B28#32) ∧ lit 0x00000000#32 < lossK x l g r

instance (r : Fin 8192) : Decidable (inclR x l g r) := Classical.propDecidable _
instance (r : Fin 8192) : Decidable (inclK x l g r) := Classical.propDecidable _

/-! ## The mean over the rows that count -/

/-- From the sum of the kept losses and the count of kept rows: `tot / max cnt 1` when `cnt > 0`, else `0`; a value
    that differs from itself (none does on the extended reals) would be replaced by `0`. -/
def tail (tot cnt : EReal) : EReal :=
  let v := Scalar.select (Ideal.cmp .ogt cnt (lit 0x00000000#32)) (Ideal.div tot (max cnt (lit 0x3F800000#32))) (lit 0x00000000#32)
  Scalar.select (Ideal.cmp .une v v) (lit 0x00000000#32) v

def finalR : EReal :=
  tail (lit 0x00000000#32 + ∑ r : Fin 8192, (if inclR x l g r then lossR x l g r else lit 0x00000000#32))
       (lit 0x00000000#32 + ∑ r : Fin 8192, (if inclR x l g r then (1 : EReal) else 0))
def finalK : EReal :=
  tail (lit 0x00000000#32 + ∑ r : Fin 8192, (if inclK x l g r then lossK x l g r else lit 0x00000000#32))
       (lit 0x00000000#32 + ∑ r : Fin 8192, (if inclK x l g r then (1 : EReal) else 0))

end Rows

end Cert.Spec

end
-- ==== Proof.KI.Payloads.lean ====
/-
  The body's arithmetic read at an index, at the exact instance: each payload of the idealized kernel (the pure value a
  store writes, as a function of the values loaded before it) at row `p` (and column `q`) of its tile.
  The distance tile is one minus the product of the anchor block with the transposed candidate block; the masks are
  integer compares of a label column against a label row; an update folds the masked tile's row maximum (minimum) into
  the running extremum; the finalizing payloads are pointwise in the three finished extrema.
-/
import proofs.«135937_j90099823936181_2_alg».proof.Proof.Gen.KernelIdeal.Skeleton
import proofs.«135937_j90099823936181_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.SL.Sem
open Cert.KernelIdeal Cert.KernelIdeal.Gen
open Idealize.ShloMosaic.ValueIdx
open Cert.Spec (lit)

/-! ## One-bit words and compares -/

/-- A boolean's bit is 1 exactly when the boolean is true. -/
theorem ofBool_one (b : Bool) : BitVec.ofBool b = 1#1 ↔ b = true := by cases b <;> decide
/-- The conjunction of two bits is 1 exactly when both are. -/
theorem and_one (c d : BitVec 1) : IntOp.andi c d = 1#1 ↔ c = 1#1 ∧ d = 1#1 := by revert c d; decide
/-- The complement of a bit is 1 exactly when the bit is not. -/
theorem xor_one (c : BitVec 1) : IntOp.xori c 1#1 = 1#1 ↔ ¬ c = 1#1 := by revert c; decide
/-- The ordered greater-than on the extended reals. -/
theorem cmp_ogt_one (x y : EReal) : Ideal.cmp .ogt x y = 1#1 ↔ y < x := by
  unfold Ideal.cmp; rw [ofBool_one, decide_eq_true_iff]
/-- The ordered less-than on the extended reals. -/
theorem cmp_olt_one (x y : EReal) : Ideal.cmp .olt x y = 1#1 ↔ x < y := by
  unfold Ideal.cmp; rw [ofBool_one, decide_eq_true_iff]
/-- Equality of words as a bit. -/
theorem cmpi_eq_one {w : Nat} (a b : BitVec w) : IntOp.cmpi .eq a b = 1#1 ↔ a = b := by
  unfold IntOp.cmpi; rw [ofBool_one, beq_iff_eq]

/-! ## Two layout operations read at coordinates -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product's operand indices: at output `(r, c)` and contraction coordinate `k` the left operand is read at `(r, k)`, the right at `(k, c)` -/

/-- The left operand's row is the output's row. -/
theorem lhs_dist_0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
/-- The left operand's column is the contraction coordinate. -/
theorem lhs_dist_1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
/-- The right operand's row is the contraction coordinate. -/
theorem rhs_dist_0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
/-- The right operand's column is the output's column. -/
theorem rhs_dist_1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The distance tile: one minus the inner product of anchor row `p` with candidate row `q`. -/
theorem pay12_apply (x0 x1 : Vec Ideal S1024x128 .bf16) (p q : Fin 1024) :
    k0_pay12 (F := Ideal) x0 x1 (ix2 p q)
      = lit 0x3F800000#32 - ∑ k : Fin 128, (x0 : S1024x128.Idx → EReal) (ix2 p k) * (x1 : S1024x128.Idx → EReal) (ix2 q k) := by
  dsimp only [k0_pay12]
  rw [shapeCast_self, shapeCast_self]
  show lit 0x3F800000#32 - FloatOps.matmul dot_S1024x128_S128x1024_S1024x1024_1_0_0_1_n_n none x0 (transpose S128x1024 [1, 0] x1 transposes_S1024x128_p1_0_S128x1024)
      (constant (F := Ideal) S1024x1024 .f32 0x00000000#32) (ix2 p q) = _
  congr 1
  generalize hy : transpose S128x1024 [1, 0] x1 transposes_S1024x128_p1_0_S128x1024 = y
  rw [Ideal.matmul_constant_zero_apply, ← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 p q) ((contrEquiv1 dot_S1024x128_S128x1024_S1024x1024_1_0_0_1_n_n 128 rfl rfl).symm k) = ix2 p k := funext fun a => Fin.ext (by
    match a with
    | ⟨0, _⟩ => exact lhs_dist_0 _ _
    | ⟨1, _⟩ => exact (lhs_dist_1 _ _).trans hk)
  have er : dot_S1024x128_S128x1024_S1024x1024_1_0_0_1_n_n.rhsIdx (ix2 p q) ((contrEquiv1 dot_S1024x128_S128x1024_S1024x1024_1_0_0_1_n_n 128 rfl rfl).symm k) = ix2 k q := funext fun a => Fin.ext (by
    match a with
    | ⟨0, _⟩ => exact (rhs_dist_0 _ _).trans hk
    | ⟨1, _⟩ => exact rhs_dist_1 _ _)
  rw [el, er, ← hy, transpose_ix2_apply]

/-- The agreement tiles: the column's entry at row `p` equals the row's entry at column `q`. -/
theorem pay13_apply (v11 : Vec Ideal S1024x1 .i32) (v13 : Vec Ideal S1x1024 .i32) (p q : Fin 1024) :
    k0_pay13 (F := Ideal) v11 v13 (ix2 p q) = 1#1
      ↔ (v11 : S1024x1.Idx → BitVec 32) (ix2 p (0 : Fin 1)) = (v13 : S1x1024.Idx → BitVec 32) (ix2 (0 : Fin 1) q) := by
  dsimp only [k0_pay13]
  rw [shapeCast_self, shapeCast_self]
  show IntOp.cmpi .eq (broadcastTo S1024x1024 v11 broadcasts_S1024x1_S1024x1024 (ix2 p q))
      (broadcastTo S1024x1024 v13 broadcasts_S1x1024_S1024x1024 (ix2 p q)) = 1#1 ↔ _
  rw [broadcastTo_a1_ab_apply, broadcastTo_1b_ab_apply, cmpi_eq_one]
theorem pay14_apply (v15 : Vec Ideal S1024x1 .i32) (v17 : Vec Ideal S1x1024 .i32) (p q : Fin 1024) :
    k0_pay14 (F := Ideal) v15 v17 (ix2 p q) = 1#1
      ↔ (v15 : S1024x1.Idx → BitVec 32) (ix2 p (0 : Fin 1)) = (v17 : S1x1024.Idx → BitVec 32) (ix2 (0 : Fin 1) q) := by
  dsimp only [k0_pay14]
  rw [shapeCast_self, shapeCast_self]
  show IntOp.cmpi .eq (broadcastTo S1024x1024 v15 broadcasts_S1024x1_S1024x1024 (ix2 p q))
      (broadcastTo S1024x1024 v17 broadcasts_S1x1024_S1024x1024 (ix2 p q)) = 1#1 ↔ _
  rw [broadcastTo_a1_ab_apply, broadcastTo_1b_ab_apply, cmpi_eq_one]
/-- A mask bit that is not 1 is 0. -/
theorem bit_ne_one (b : BitVec 1) : b ≠ 1#1 ↔ b = 0#1 := by
  revert b; decide

/-- Two global positions `a · 1024 + p` below `8192`, computed in 32-bit words, are equal words exactly when they are equal
    numbers: neither the product nor the sum wraps. -/
theorem word_eq_iff (a b p q : ℕ) (ha : a < 8) (hb : b < 8) (hp : p < 1024) (hq : q < 1024) :
    IntOp.addi (Scalar.muli (BitVec.ofNat 32 a) 1024#32) (BitVec.ofNat 32 p)
        = IntOp.addi (Scalar.muli (BitVec.ofNat 32 b) 1024#32) (BitVec.ofNat 32 q)
      ↔ a * 1024 + p = b * 1024 + q := by
  unfold IntOp.addi Scalar.muli IntOp.muli
  rw [← BitVec.toNat_inj]
  simp only [BitVec.toNat_add, BitVec.toNat_mul, BitVec.toNat_ofNat]
  omega

/-- The positives' tile: labels agree, and the global row differs from the global column. -/
theorem pay15_apply (i : grid0.Coords) (v11 : Vec Ideal S1024x1 .i32) (v13 : Vec Ideal S1x1024 .i32) (p q : Fin 1024) :
    k0_pay15 (F := Ideal) i v11 v13 (ix2 p q) = 1#1
      ↔ ((v11 : S1024x1.Idx → BitVec 32) (ix2 p (0 : Fin 1)) = (v13 : S1x1024.Idx → BitVec 32) (ix2 (0 : Fin 1) q)
          ∧ (i 0).val * 1024 + p.val ≠ (i 1).val * 1024 + q.val) := by
  have h0 : (i 0).val < 8 := (i 0).isLt
  have h1 : (i 1).val < 8 := (i 1).isLt
  dsimp only [k0_pay15]
  show IntOp.andi (k0_pay13 (F := Ideal) v11 v13 (ix2 p q))
      (IntOp.xori (IntOp.cmpi .eq
        (broadcastTo S1024x1024 (addi (broadcast S1024x1 (Scalar.muli (BitVec.ofNat 32 (i 0).val) 1024#32)) (iota .tc S1024x1 32 [0] iota_S1024x1_d0_w32)) broadcasts_S1024x1_S1024x1024 (ix2 p q))
        (broadcastTo S1024x1024 (addi (broadcast S1x1024 (Scalar.muli (BitVec.ofNat 32 (i 1).val) 1024#32)) (iota .tc S1x1024 32 [1] iota_S1x1024_d1_w32)) broadcasts_S1x1024_S1024x1024 (ix2 p q))) 1#1) = 1#1 ↔ _
  rw [and_one, pay13_apply, xor_one, cmpi_eq_one, broadcastTo_a1_ab_apply, broadcastTo_1b_ab_apply]
  show _ ∧ ¬ (IntOp.addi (Scalar.muli (BitVec.ofNat 32 (i 0).val) 1024#32) (iota .tc S1024x1 32 [0] iota_S1024x1_d0_w32 (ix2 p (0 : Fin 1)))
      = IntOp.addi (Scalar.muli (BitVec.ofNat 32 (i 1).val) 1024#32) (iota .tc S1x1024 32 [1] iota_S1x1024_d1_w32 (ix2 (0 : Fin 1) q))) ↔ _
  rw [iota_single_apply, iota_single_apply]
  show _ ∧ ¬ (IntOp.addi (Scalar.muli (BitVec.ofNat 32 (i 0).val) 1024#32) (BitVec.ofNat 32 p.val)
      = IntOp.addi (Scalar.muli (BitVec.ofNat 32 (i 1).val) 1024#32) (BitVec.ofNat 32 q.val)) ↔ _
  rw [word_eq_iff _ _ _ _ h0 h1 p.isLt q.isLt]

/-! ## The lane reductions of a square tile, at a row -/

/-- A reduced index `p` with column `k` put back is `(p, k)`. -/
theorem lift_row {m n : Nat} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  match c with
  | ⟨0, _⟩ => rfl
  | ⟨1, _⟩ => rfl

/-- A fold over all of `Fin n` carried along an equation `n = n'` of the bounds. -/
theorem fold_univ_cast {β : Type} {n n' : ℕ} (e : n = n') (op : β → β → β) [Std.Commutative op] [Std.Associative op] (b : β)
    (f : Fin n → β) :
    (Finset.univ : Finset (Fin n)).fold op b f = (Finset.univ : Finset (Fin n')).fold op b (fun k => f (k.cast e.symm)) := by
  subst e; rfl

/-- A float minimum reduction over one axis: the fold of `min` from the accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The lane maximum of a tile at row `p`: the fold of `max` from `-∞` along the row. -/
theorem rowMax_apply (src : FVec Ideal S1024x1024 .f32) (p : Fin 1024) :
    multiReduction (F := Ideal) .maximumf [1] S1024 src 0xFF800000#32 reduces_S1024x1024_S1024 (.inl rfl) rfl (ix1 p)
      = (Finset.univ : Finset (Fin 1024)).fold max (lit 0xFF800000#32) (fun q => src (ix2 p q)) := by
  refine (Ideal.multiReduction_maximumf_single src 0xFF800000#32 reduces_S1024x1024_S1024 (.inl rfl) rfl (ix1 p)).trans ?_
  refine (fold_univ_cast (show S1024x1024.size 1 = 1024 from rfl) max _ _).trans ?_
  refine congrArg (fun f => Finset.fold max (lit 0xFF800000#32) f (Finset.univ : Finset (Fin 1024))) (funext fun k => ?_)
  exact congrArg src (lift_row reduces_S1024x1024_S1024 p _)

/-- The lane minimum of a tile at row `p`: the fold of `min` from `+∞` along the row. -/
theorem rowMin_apply (src : FVec Ideal S1024x1024 .f32) (p : Fin 1024) :
    multiReduction (F := Ideal) .minimumf [1] S1024 src 0x7F800000#32 reduces_S1024x1024_S1024 (.inl rfl) rfl (ix1 p)
      = (Finset.univ : Finset (Fin 1024)).fold min (lit 0x7F800000#32) (fun q => src (ix2 p q)) := by
  refine (multiReduction_minimumf_single src 0x7F800000#32 reduces_S1024x1024_S1024 (.inl rfl) rfl (ix1 p)).trans ?_
  refine (fold_univ_cast (show S1024x1024.size 1 = 1024 from rfl) min _ _).trans ?_
  refine congrArg (fun f => Finset.fold min (lit 0x7F800000#32) f (Finset.univ : Finset (Fin 1024))) (funext fun k => ?_)
  exact congrArg src (lift_row reduces_S1024x1024_S1024 p _)

/-- A select on a complemented bit takes its first operand exactly when the bit is not 1. -/
theorem select_xor_one {α : Type} (c : BitVec 1) (a b : α) :
    Scalar.select (IntOp.xori c 1#1) a b = if ¬ c = 1#1 then a else b := by
  unfold Scalar.select
  exact if_congr (xor_one c) rfl rfl

/-- The negatives' tile: the distance where the labels differ, else the fill `10⁹`. -/
theorem pay1_apply (d : FVec Ideal S1024x1024 .f32) (sm : IVec S1024x1024 1) (j : S1024x1024.Idx) :
    k0_pay1 (F := Ideal) d sm j = if ¬ sm j = 1#1 then (d : S1024x1024.Idx → EReal) j else lit 0x4E6E6B28#32 := by
  dsimp only [k0_pay1]
  exact select_xor_one (sm j) (d j) (lit 0x4E6E6B28#32)

/-- The lane maximum of a tile at row `p`, the row's entries named `g`: the fold of `max` from `-∞` over `g`. -/
theorem rowMax_eq (src : FVec Ideal S1024x1024 .f32) (p : Fin 1024) (g : Fin 1024 → EReal) (hg : ∀ q, src (ix2 p q) = g q) :
    multiReduction (F := Ideal) .maximumf [1] S1024 src 0xFF800000#32 reduces_S1024x1024_S1024 (.inl rfl) rfl (ix1 p)
      = (Finset.univ : Finset (Fin 1024)).fold max (lit 0xFF800000#32) g :=
  (rowMax_apply src p).trans (congrArg (fun f => Finset.fold max (lit 0xFF800000#32) f (Finset.univ : Finset (Fin 1024))) (funext hg))

/-- The lane minimum of a tile at row `p`, the row's entries named `g`: the fold of `min` from `+∞` over `g`. -/
theorem rowMin_eq (src : FVec Ideal S1024x1024 .f32) (p : Fin 1024) (g : Fin 1024 → EReal) (hg : ∀ q, src (ix2 p q) = g q) :
    multiReduction (F := Ideal) .minimumf [1] S1024 src 0x7F800000#32 reduces_S1024x1024_S1024 (.inl rfl) rfl (ix1 p)
      = (Finset.univ : Finset (Fin 1024)).fold min (lit 0x7F800000#32) g :=
  (rowMin_apply src p).trans (congrArg (fun f => Finset.fold min (lit 0x7F800000#32) f (Finset.univ : Finset (Fin 1024))) (funext hg))

/-- The running hardest positive's update at row `p`. -/
theorem pay2_apply (d : FVec Ideal S1024x1024 .f32) (pm : IVec S1024x1024 1) (s : Vec Ideal S1024x1 .f32) (p : Fin 1024) :
    k0_pay2 (F := Ideal) d pm s (ix2 p (0 : Fin 1))
      = max ((s : S1024x1.Idx → EReal) (ix2 p (0 : Fin 1)))
          ((Finset.univ : Finset (Fin 1024)).fold max (lit 0xFF800000#32)
            (fun q => if pm (ix2 p q) = 1#1 then (d : S1024x1024.Idx → EReal) (ix2 p q) else lit 0xCE6E6B28#32)) := by
  dsimp only [k0_pay2]
  rw [shapeCast_self]
  refine congrArg (max (s (ix2 p (0 : Fin 1)))) ?_
  refine (shapeCast_a_a1_apply _ shapeCasts_S1024_S1024x1 p (0 : Fin 1)).trans ?_
  exact rowMax_eq _ p _ (fun q => rfl)

/-- A select of a twice-guarded value: the inner guard a bit that is not 1, the outer a bit that is. -/
theorem select_guarded {α : Type} (c e : BitVec 1) (a b : α) :
    Scalar.select e (if ¬ c = 1#1 then a else b) b = if (¬ c = 1#1) ∧ e = 1#1 then a else b := by
  unfold Scalar.select
  by_cases h1 : c = 1#1 <;> by_cases h2 : e = 1#1 <;> simp [h1, h2]

/-- The running hardest same-group negative's update at row `p` (`sm` the label agreement, `gm` the group agreement). -/
theorem pay3_apply (d : FVec Ideal S1024x1024 .f32) (sm gm : IVec S1024x1024 1) (s : Vec Ideal S1024x1 .f32) (p : Fin 1024) :
    k0_pay3 (F := Ideal) d sm gm s (ix2 p (0 : Fin 1))
      = min ((s : S1024x1.Idx → EReal) (ix2 p (0 : Fin 1)))
          ((Finset.univ : Finset (Fin 1024)).fold min (lit 0x7F800000#32)
            (fun q => if (¬ sm (ix2 p q) = 1#1) ∧ gm (ix2 p q) = 1#1 then (d : S1024x1024.Idx → EReal) (ix2 p q) else lit 0x4E6E6B28#32)) := by
  dsimp only [k0_pay3]
  rw [shapeCast_self]
  refine congrArg (min (s (ix2 p (0 : Fin 1)))) ?_
  refine (shapeCast_a_a1_apply _ shapeCasts_S1024_S1024x1 p (0 : Fin 1)).trans ?_
  refine rowMin_eq _ p _ (fun q => ?_)
  show Scalar.select (gm (ix2 p q)) (k0_pay1 (F := Ideal) d sm (ix2 p q)) (lit 0x4E6E6B28#32) = _
  rw [pay1_apply]
  exact select_guarded (sm (ix2 p q)) (gm (ix2 p q)) (d (ix2 p q)) (lit 0x4E6E6B28#32)

/-- The running hardest negative's update at row `p`. -/
theorem pay4_apply (d : FVec Ideal S1024x1024 .f32) (sm : IVec S1024x1024 1) (s : Vec Ideal S1024x1 .f32) (p : Fin 1024) :
    k0_pay4 (F := Ideal) d sm s (ix2 p (0 : Fin 1))
      = min ((s : S1024x1.Idx → EReal) (ix2 p (0 : Fin 1)))
          ((Finset.univ : Finset (Fin 1024)).fold min (lit 0x7F800000#32)
            (fun q => if ¬ sm (ix2 p q) = 1#1 then (d : S1024x1024.Idx → EReal) (ix2 p q) else lit 0x4E6E6B28#32)) := by
  dsimp only [k0_pay4]
  rw [shapeCast_self]
  refine congrArg (min (s (ix2 p (0 : Fin 1)))) ?_
  refine (shapeCast_a_a1_apply _ shapeCasts_S1024_S1024x1 p (0 : Fin 1)).trans ?_
  exact rowMin_eq _ p _ (fun q => pay1_apply d sm (ix2 p q))

/-- The fill values the reset stores. -/
theorem pay9_apply (i : S1024x1.Idx) : (k0_pay9 (F := Ideal) : S1024x1.Idx → EReal) i = lit 0xCE6E6B28#32 := by
  dsimp only [k0_pay9]
  rw [shapeCast_self]
  rfl
theorem pay10_apply (i : S1024x1.Idx) : (k0_pay10 (F := Ideal) : S1024x1.Idx → EReal) i = lit 0x4E6E6B28#32 := by
  dsimp only [k0_pay10]
  rw [shapeCast_self]
  rfl
theorem pay11_apply (i : S1024x1.Idx) : (k0_pay11 (F := Ideal) : S1024x1.Idx → EReal) i = lit 0x4E6E6B28#32 := by
  dsimp only [k0_pay11]
  rw [shapeCast_self]
  rfl

/-- The row loss from finished extrema `ap` (hardest positive), `sg`, `al` (hardest same-group / any negative). -/
theorem pay5_apply (sg sg' al ap : Vec Ideal S1024x1 .f32) (i : S1024x1.Idx) :
    (k0_pay5 (F := Ideal) sg sg' al ap : S1024x1.Idx → EReal) i
      = max (((ap : S1024x1.Idx → EReal) i
              - (if (sg : S1024x1.Idx → EReal) i < lit 0x4DEE6B28#32 then (sg' : S1024x1.Idx → EReal) i else (al : S1024x1.Idx → EReal) i))
            + lit 0x3DCCCCCD#32) (lit 0x00000000#32) := by
  dsimp only [k0_pay5]
  show max ((ap i - Scalar.select (Ideal.cmp .olt (sg i) (lit 0x4DEE6B28#32)) (sg' i) (al i)) + lit 0x3DCCCCCD#32) (lit 0x00000000#32) = _
  congr 3
  unfold Scalar.select Ideal.cmp
  by_cases h : sg i < lit 0x4DEE6B28#32
  · simp [h]
  · simp [h]

/-- The kept-row bit. -/
theorem pay6_apply (v69 v72 v75 v78 v79 v81 : Vec Ideal S1024x1 .f32) (i : S1024x1.Idx) :
    k0_pay6 (F := Ideal) v69 v72 v75 v78 v79 v81 i = 1#1
      ↔ ((lit 0xCDEE6B28#32 < (v69 : S1024x1.Idx → EReal) i ∧ (v75 : S1024x1.Idx → EReal) i < lit 0x4DEE6B28#32)
          ∧ lit 0x00000000#32 < (k0_pay5 (F := Ideal) v72 v78 v79 v81 : S1024x1.Idx → EReal) i) := by
  dsimp only [k0_pay6]
  show IntOp.andi (IntOp.andi (Ideal.cmp .ogt (v69 i) (lit 0xCDEE6B28#32)) (Ideal.cmp .olt (v75 i) (lit 0x4DEE6B28#32)))
      (Ideal.cmp .ogt (k0_pay5 (F := Ideal) v72 v78 v79 v81 i) (lit 0x00000000#32)) = 1#1 ↔ _
  rw [and_one, and_one, cmp_ogt_one, cmp_olt_one, cmp_ogt_one]

/-- The two stored outputs: the loss where the row is kept, else 0; and the kept bit as a float. -/
theorem pay7_apply (v69 v72 v75 v78 v79 v81 : Vec Ideal S1024x1 .f32) (i : S1024x1.Idx) :
    (k0_pay7 (F := Ideal) v69 v72 v75 v78 v79 v81 : S1024x1.Idx → EReal) i
      = if k0_pay6 (F := Ideal) v69 v72 v75 v78 v79 v81 i = 1#1 then (k0_pay5 (F := Ideal) v72 v78 v79 v81 : S1024x1.Idx → EReal) i
        else lit 0x00000000#32 := by
  dsimp only [k0_pay7]
  rfl
theorem pay8_apply (v69 v72 v75 v78 v79 v81 : Vec Ideal S1024x1 .f32) (i : S1024x1.Idx) :
    (k0_pay8 (F := Ideal) v69 v72 v75 v78 v79 v81 : S1024x1.Idx → EReal) i
      = if k0_pay6 (F := Ideal) v69 v72 v75 v78 v79 v81 i = 1#1 then (1 : EReal) else 0 := by
  dsimp only [k0_pay8]
  show (((BitVec.setWidth 32 (k0_pay6 (F := Ideal) v69 v72 v75 v78 v79 v81 i)).toInt : ℝ) : EReal) = _
  generalize k0_pay6 (F := Ideal) v69 v72 v75 v78 v79 v81 i = b
  rcases BitVec.eq_zero_or_eq_one b with rfl | rfl
  · have h0 : (BitVec.setWidth 32 (0#1)).toInt = 0 := by decide
    rw [h0, if_neg (by decide)]; simp
  · have h1 : (BitVec.setWidth 32 (1#1)).toInt = 1 := by decide
    rw [h1, if_pos rfl]; simp

end Cert.KernelIdeal.Hand

end
-- ==== Proof.KI.Blocks.lean ====
/-
  Each input window's block at a grid point, read at an index inside the block, is the staged array read at the global
  index: point `t` of the 8 x 8 grid is row block `t / 8` and column block `t % 8`; the anchor rows' windows (the scaled
  embeddings, the label column, the group column) take row block `t / 8`, the candidate rows' windows (the scaled
  embeddings again, the label row, the group row) take block `t % 8`; a block's coordinate is index × size + offset.
-/
import proofs.«135937_j90099823936181_2_alg».proof.Proof.KI.Data
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen
open Idealize.ShloMosaic.ValueIdx

variable {F : FTy → Type} [FloatOps F]
variable (m : (ℓ : Loc nD τ sig) → Buf (Elt F) ℓ)

/-- Global row `p` of row block `t / 8`, and global column `q` of column block `t % 8`. -/
def rowOf (t : Fin cfg0.N) (p : Fin 1024) : Fin 8192 :=
  ⟨(t.val / 8) * 1024 + p.val, by have : t.val < 64 := lt_of_lt_of_eq t.isLt (show cfg0.N = 64 from N_0); omega⟩
def colOf (t : Fin cfg0.N) (q : Fin 1024) : Fin 8192 :=
  ⟨(t.val % 8) * 1024 + q.val, by omega⟩

/-- The windows' index maps, decided once over the 8 × 8 grid: the anchor windows and the outputs take row block
    `t / 8`, the candidate windows take block `t % 8`, every other block coordinate is 0. -/
theorem idx_facts : ∀ t : Fin cfg0.N,
    (win0_0.index t (0 : Fin 2) = t.val / 8 ∧ win0_0.index t (1 : Fin 2) = 0)
    ∧ (win0_1.index t (0 : Fin 2) = t.val % 8 ∧ win0_1.index t (1 : Fin 2) = 0)
    ∧ (win0_2.index t (0 : Fin 2) = t.val / 8 ∧ win0_2.index t (1 : Fin 2) = 0)
    ∧ (win0_3.index t (0 : Fin 2) = 0 ∧ win0_3.index t (1 : Fin 2) = t.val % 8)
    ∧ (win0_4.index t (0 : Fin 2) = t.val / 8 ∧ win0_4.index t (1 : Fin 2) = 0)
    ∧ (win0_5.index t (0 : Fin 2) = 0 ∧ win0_5.index t (1 : Fin 2) = t.val % 8)
    ∧ (win0_6.index t (0 : Fin 2) = t.val / 8 ∧ win0_6.index t (1 : Fin 2) = 0)
    ∧ (win0_7.index t (0 : Fin 2) = t.val / 8 ∧ win0_7.index t (1 : Fin 2) = 0) :=
  (by decide +kernel : ∀ t : Fin grid0.N, _)

theorem iblk0_apply (c : Dev nD) (t : Fin cfg0.N) (p : Fin 1024) (k : Fin 128) :
    (iblk m c 0 t : S1024x128.Idx → Elt F .bf16) (ix2 p k) = (V m c main_v5 : S8192x128.Idx → Elt F .bf16) (ix2 (rowOf t p) k) := by
  unfold iblk
  show V m c main_v5 (((cfg0.win 0).blk t).view.emb (ix2 p k)) = _
  refine congrArg (V m c main_v5) (funext fun a => Fin.ext ?_)
  obtain ⟨⟨e0, e1⟩, -⟩ := idx_facts t
  match a with
  | ⟨0, _⟩ => show win0_0.index t (0 : Fin 2) * 1024 + 1 * p.val = (t.val / 8) * 1024 + p.val; rw [e0]; omega
  | ⟨1, _⟩ => show win0_0.index t (1 : Fin 2) * 128 + 1 * k.val = k.val; rw [e1]; omega
theorem iblk1_apply (c : Dev nD) (t : Fin cfg0.N) (q : Fin 1024) (k : Fin 128) :
    (iblk m c 1 t : S1024x128.Idx → Elt F .bf16) (ix2 q k) = (V m c main_v5 : S8192x128.Idx → Elt F .bf16) (ix2 (colOf t q) k) := by
  unfold iblk
  show V m c main_v5 (((cfg0.win 1).blk t).view.emb (ix2 q k)) = _
  refine congrArg (V m c main_v5) (funext fun a => Fin.ext ?_)
  obtain ⟨-, ⟨e0, e1⟩, -⟩ := idx_facts t
  match a with
  | ⟨0, _⟩ => show win0_1.index t (0 : Fin 2) * 1024 + 1 * q.val = (t.val % 8) * 1024 + q.val; rw [e0]; omega
  | ⟨1, _⟩ => show win0_1.index t (1 : Fin 2) * 128 + 1 * k.val = k.val; rw [e1]; omega
theorem iblk2_apply (c : Dev nD) (t : Fin cfg0.N) (p : Fin 1024) :
    (iblk m c 2 t : S1024x1.Idx → Elt F .i32) (ix2 p (0 : Fin 1)) = (V m c main_v6 : S8192x1.Idx → Elt F .i32) (ix2 (rowOf t p) (0 : Fin 1)) := by
  unfold iblk
  show V m c main_v6 (((cfg0.win 2).blk t).view.emb (ix2 p (0 : Fin 1))) = _
  refine congrArg (V m c main_v6) (funext fun a => Fin.ext ?_)
  obtain ⟨-, -, ⟨e0, e1⟩, -⟩ := idx_facts t
  match a with
  | ⟨0, _⟩ => show win0_2.index t (0 : Fin 2) * 1024 + 1 * p.val = (t.val / 8) * 1024 + p.val; rw [e0]; omega
  | ⟨1, _⟩ => show win0_2.index t (1 : Fin 2) * 1 + 1 * (0 : Fin 1).val = (0 : Fin 1).val; rw [e1]; rfl
theorem iblk3_apply (c : Dev nD) (t : Fin cfg0.N) (q : Fin 1024) :
    (iblk m c 3 t : S1x1024.Idx → Elt F .i32) (ix2 (0 : Fin 1) q) = (V m c main_v7 : S1x8192.Idx → Elt F .i32) (ix2 (0 : Fin 1) (colOf t q)) := by
  unfold iblk
  show V m c main_v7 (((cfg0.win 3).blk t).view.emb (ix2 (0 : Fin 1) q)) = _
  refine congrArg (V m c main_v7) (funext fun a => Fin.ext ?_)
  obtain ⟨-, -, -, ⟨e0, e1⟩, -⟩ := idx_facts t
  match a with
  | ⟨0, _⟩ => show win0_3.index t (0 : Fin 2) * 1 + 1 * (0 : Fin 1).val = (0 : Fin 1).val; rw [e0]; rfl
  | ⟨1, _⟩ => show win0_3.index t (1 : Fin 2) * 1024 + 1 * q.val = (t.val % 8) * 1024 + q.val; rw [e1]; omega
theorem iblk4_apply (c : Dev nD) (t : Fin cfg0.N) (p : Fin 1024) :
    (iblk m c 4 t : S1024x1.Idx → Elt F .i32) (ix2 p (0 : Fin 1)) = (V m c main_v8 : S8192x1.Idx → Elt F .i32) (ix2 (rowOf t p) (0 : Fin 1)) := by
  unfold iblk
  show V m c main_v8 (((cfg0.win 4).blk t).view.emb (ix2 p (0 : Fin 1))) = _
  refine congrArg (V m c main_v8) (funext fun a => Fin.ext ?_)
  obtain ⟨-, -, -, -, ⟨e0, e1⟩, -⟩ := idx_facts t
  match a with
  | ⟨0, _⟩ => show win0_4.index t (0 : Fin 2) * 1024 + 1 * p.val = (t.val / 8) * 1024 + p.val; rw [e0]; omega
  | ⟨1, _⟩ => show win0_4.index t (1 : Fin 2) * 1 + 1 * (0 : Fin 1).val = (0 : Fin 1).val; rw [e1]; rfl
theorem iblk5_apply (c : Dev nD) (t : Fin cfg0.N) (q : Fin 1024) :
    (iblk m c 5 t : S1x1024.Idx → Elt F .i32) (ix2 (0 : Fin 1) q) = (V m c main_v9 : S1x8192.Idx → Elt F .i32) (ix2 (0 : Fin 1) (colOf t q)) := by
  unfold iblk
  show V m c main_v9 (((cfg0.win 5).blk t).view.emb (ix2 (0 : Fin 1) q)) = _
  refine congrArg (V m c main_v9) (funext fun a => Fin.ext ?_)
  obtain ⟨-, -, -, -, -, ⟨e0, e1⟩, -⟩ := idx_facts t
  match a with
  | ⟨0, _⟩ => show win0_5.index t (0 : Fin 2) * 1 + 1 * (0 : Fin 1).val = (0 : Fin 1).val; rw [e0]; rfl
  | ⟨1, _⟩ => show win0_5.index t (1 : Fin 2) * 1024 + 1 * q.val = (t.val % 8) * 1024 + q.val; rw [e1]; omega

/-- The grid coordinates of point `t`: row block, column block. -/
theorem coords0 (t : Fin cfg0.N) : ((grid0.coords t) 0).val = t.val / 8 :=
  (by decide +kernel : ∀ t : Fin grid0.N, ((grid0.coords t) 0).val = t.val / 8) t
theorem coords1 (t : Fin cfg0.N) : ((grid0.coords t) 1).val = t.val % 8 :=
  (by decide +kernel : ∀ t : Fin grid0.N, ((grid0.coords t) 1).val = t.val % 8) t

/-- What the pipeline writes back at a point of the last column is the block the body left, read at the block's rows:
    output window `w` (6 or 7) at such a point flushes rows `rowOf t ·` of its array, and no other point flushes them.
    Given the value the staging buffer holds at every last-column point (`hval`), the whole array after the run. -/
theorem out6_of (c : Dev nD) (G : Fin 8192 → Elt F .f32)
    (hval : ∀ (t : Fin cfg0.N), t.val % 8 = 7 → ∀ p : Fin 1024,
      ((outsAt0 m c t.val t.isLt).1.1 : S1024x1.Idx → Elt F .f32) (ix2 p (0 : Fin 1)) = G (rowOf t p))
    (r : Fin 8192) :
    ((dats m 0 c).arrAt 6 cfg0.N : S8192x1.Idx → Elt F .f32) (ix2 r (0 : Fin 1)) = G r := by
  have hN : cfg0.N = 64 := N_0
  -- the whole array ends holding `G` of the row
  have key : (dats m 0 c).arrAt 6 cfg0.N = (fun i : S8192x1.Idx => G (i 0)) := by
    refine (dats m 0 c).arrAt_eq_of_cover 6 (fun i : S8192x1.Idx => G (i 0)) (fun t hf => ?_) (fun (i : S8192x1.Idx) => ?_)
    · -- what a last-column point writes back is its block of that function
      have h7 : t.val % 8 = 7 := (flush0_6 t).mp hf
      obtain ⟨-, -, -, -, -, -, ⟨e0, e1⟩, -⟩ := idx_facts t
      show (cfg0.win 6).cut (grid0.coords t) ((dats m 0 c).after 6 t) = _
      rw [after0_6]
      refine funext fun (y : S1024x1.Idx) => ?_
      obtain ⟨p, z, rfl⟩ : ∃ (p : Fin 1024) (z : Fin 1), y = ix2 p z := ⟨y 0, y 1, eq_ix2 y⟩
      obtain rfl : z = 0 := Subsingleton.elim _ _
      have hx : (cfg0.win 6).xinj (grid0.coords t) (ix2 p (0 : Fin 1)) = ix2 p (0 : Fin 1) :=
        funext fun a => Fin.ext rfl
      refine (congrArg (outsAt0 m c t.val t.isLt).1.1 hx).trans ((hval t h7 p).trans (congrArg G (Fin.ext ?_)))
      show (t.val / 8) * 1024 + p.val = win0_6.index t (0 : Fin 2) * 1024 + 1 * p.val
      rw [e0]; omega
    · -- row `i 0` lies in the block of the last-column point of its row block
      have hi0 : (i 0).val < 8192 := (i 0).isLt
      have hi1 : (i 1).val < 1 := (i 1).isLt
      have ht : (i 0).val / 1024 * 8 + 7 < cfg0.N := by rw [hN]; omega
      obtain ⟨-, -, -, -, -, -, ⟨e0, e1⟩, -⟩ := idx_facts ⟨(i 0).val / 1024 * 8 + 7, ht⟩
      have e0' : win0_6.index ⟨(i 0).val / 1024 * 8 + 7, ht⟩ (0 : Fin 2) = ((i 0).val / 1024 * 8 + 7) / 8 := e0
      refine ⟨⟨(i 0).val / 1024 * 8 + 7, ht⟩, (flush0_6 _).mpr (by show ((i 0).val / 1024 * 8 + 7) % 8 = 7; omega), ?_⟩
      show i ∈ ((View.whole main_v10_0).slice (win0_6.rect ⟨(i 0).val / 1024 * 8 + 7, ht⟩)).set
      rw [View.set_slice_whole, Rect.mem_set_unit]
      intro a
      match a with
      | ⟨0, _⟩ =>
        show win0_6.index ⟨(i 0).val / 1024 * 8 + 7, ht⟩ (0 : Fin 2) * 1024 ≤ (i 0).val
          ∧ (i 0).val < win0_6.index ⟨(i 0).val / 1024 * 8 + 7, ht⟩ (0 : Fin 2) * 1024 + 1024
        rw [e0']; omega
      | ⟨1, _⟩ =>
        show win0_6.index ⟨(i 0).val / 1024 * 8 + 7, ht⟩ (1 : Fin 2) * 1 ≤ (i 1).val
          ∧ (i 1).val < win0_6.index ⟨(i 0).val / 1024 * 8 + 7, ht⟩ (1 : Fin 2) * 1 + 1
        rw [e1]; omega
  exact congrFun key (ix2 r (0 : Fin 1))
theorem out7_of (c : Dev nD) (G : Fin 8192 → Elt F .f32)
    (hval : ∀ (t : Fin cfg0.N), t.val % 8 = 7 → ∀ p : Fin 1024,
      ((outsAt0 m c t.val t.isLt).1.2 : S1024x1.Idx → Elt F .f32) (ix2 p (0 : Fin 1)) = G (rowOf t p))
    (r : Fin 8192) :
    ((dats m 0 c).arrAt 7 cfg0.N : S8192x1.Idx → Elt F .f32) (ix2 r (0 : Fin 1)) = G r := by
  have hN : cfg0.N = 64 := N_0
  -- the whole array ends holding `G` of the row
  have key : (dats m 0 c).arrAt 7 cfg0.N = (fun i : S8192x1.Idx => G (i 0)) := by
    refine (dats m 0 c).arrAt_eq_of_cover 7 (fun i : S8192x1.Idx => G (i 0)) (fun t hf => ?_) (fun (i : S8192x1.Idx) => ?_)
    · -- what a last-column point writes back is its block of that function
      have h7 : t.val % 8 = 7 := (flush0_7 t).mp hf
      obtain ⟨-, -, -, -, -, -, -, ⟨e0, e1⟩⟩ := idx_facts t
      show (cfg0.win 7).cut (grid0.coords t) ((dats m 0 c).after 7 t) = _
      rw [after0_7]
      refine funext fun (y : S1024x1.Idx) => ?_
      obtain ⟨p, z, rfl⟩ : ∃ (p : Fin 1024) (z : Fin 1), y = ix2 p z := ⟨y 0, y 1, eq_ix2 y⟩
      obtain rfl : z = 0 := Subsingleton.elim _ _
      have hx : (cfg0.win 7).xinj (grid0.coords t) (ix2 p (0 : Fin 1)) = ix2 p (0 : Fin 1) :=
        funext fun a => Fin.ext rfl
      refine (congrArg (outsAt0 m c t.val t.isLt).1.2 hx).trans ((hval t h7 p).trans (congrArg G (Fin.ext ?_)))
      show (t.val / 8) * 1024 + p.val = win0_7.index t (0 : Fin 2) * 1024 + 1 * p.val
      rw [e0]; omega
    · -- row `i 0` lies in the block of the last-column point of its row block
      have hi0 : (i 0).val < 8192 := (i 0).isLt
      have hi1 : (i 1).val < 1 := (i 1).isLt
      have ht : (i 0).val / 1024 * 8 + 7 < cfg0.N := by rw [hN]; omega
      obtain ⟨-, -, -, -, -, -, -, ⟨e0, e1⟩⟩ := idx_facts ⟨(i 0).val / 1024 * 8 + 7, ht⟩
      have e0' : win0_7.index ⟨(i 0).val / 1024 * 8 + 7, ht⟩ (0 : Fin 2) = ((i 0).val / 1024 * 8 + 7) / 8 := e0
      refine ⟨⟨(i 0).val / 1024 * 8 + 7, ht⟩, (flush0_7 _).mpr (by show ((i 0).val / 1024 * 8 + 7) % 8 = 7; omega), ?_⟩
      show i ∈ ((View.whole main_v10_1).slice (win0_7.rect ⟨(i 0).val / 1024 * 8 + 7, ht⟩)).set
      rw [View.set_slice_whole, Rect.mem_set_unit]
      intro a
      match a with
      | ⟨0, _⟩ =>
        show win0_7.index ⟨(i 0).val / 1024 * 8 + 7, ht⟩ (0 : Fin 2) * 1024 ≤ (i 0).val
          ∧ (i 0).val < win0_7.index ⟨(i 0).val / 1024 * 8 + 7, ht⟩ (0 : Fin 2) * 1024 + 1024
        rw [e0']; omega
      | ⟨1, _⟩ =>
        show win0_7.index ⟨(i 0).val / 1024 * 8 + 7, ht⟩ (1 : Fin 2) * 1 ≤ (i 1).val
          ∧ (i 1).val < win0_7.index ⟨(i 0).val / 1024 * 8 + 7, ht⟩ (1 : Fin 2) * 1 + 1
        rw [e1]; omega
  exact congrFun key (ix2 r (0 : Fin 1))

end Cert.KernelIdeal.Hand

end
-- ==== Proof.KI.HostVals.lean ====
/-
  The idealized kernel's host operations read as values, at the exact instance.

  Before the region: the scaled embeddings (each row of the argument divided by the larger of its norm and ε; the
  change of float format is the identity on the extended reals) and the labels and groups laid out as a column and as
  a row. After the region: the two outputs summed from zero, and the mean over the rows that count taken of the two
  sums, whatever the buffers held when the region ended.
-/
import proofs.«135937_j90099823936181_2_alg».proof.Proof.KI.Setup
import proofs.«135937_j90099823936181_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Hand

open Idealize.ShloMosaic Idealize.ShloMosaic.TcCoe Idealize.SL.Sem
open Cert.KernelIdeal Cert.KernelIdeal.Gen
open Idealize.ShloMosaic.ValueIdx

variable (m : (ℓ : Loc nD τ sig) → Buf (Elt Ideal) ℓ)

/-- The argument arrays of core `c` as plain functions of plain indices. -/
def embE (c : Dev nD) : Fin 8192 → Fin 128 → EReal :=
  fun r k => (m ((c.tc : Thread nD τ).loc main_arg0) : S8192x128.Idx → EReal) (ix2 r k)
def labL (c : Dev nD) : Fin 8192 → BitVec 32 :=
  fun r => (m ((c.tc : Thread nD τ).loc main_arg1) : S8192.Idx → BitVec 32) (ix1 r)
def grpG (c : Dev nD) : Fin 8192 → BitVec 32 :=
  fun r => (m ((c.tc : Thread nD τ).loc main_arg2) : S8192.Idx → BitVec 32) (ix1 r)

/-! ## The region's entry contents -/

/-- No host operation before the region writes an argument array. -/
theorem V_main_arg0 (c : Dev nD) : V m c main_arg0 = m ((c.tc : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c.tc : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg2 (c : Dev nD) : V m c main_arg2 = m ((c.tc : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The scaled rows as a function of the argument array -/

section Reads
variable {α : Type}

/-- A column broadcast along the rows' entries reads the column's entry of that row. -/
theorem bc_col_apply (Y : S8192x1.Idx → α) (r : Fin 8192) (k : Fin 128) :
    broadcastInDim S8192x128 ![0, 1] bcast_S8192x1_S8192x128_0_1 Y (ix2 r k) = Y (ix2 r (0 : Fin 1)) :=
  broadcastInDim_apply _ bcast_S8192x1_S8192x128_0_1 Y _ _ (fun a => match a with
    | ⟨0, _⟩ => by show r.val = if (8192 : Nat) = 1 then 0 else r.val; rw [if_neg (by decide)]
    | ⟨1, _⟩ => by show 0 = if (1 : Nat) = 1 then 0 else k.val; rw [if_pos rfl])

/-- A vector laid out as a column reads the vector's entry of that row. -/
theorem bc_vec_apply (y : S8192.Idx → α) (r : Fin 8192) (u : Fin 1) :
    broadcastInDim S8192x1 ![0] bcast_S8192_S8192x1_0 y (ix2 r u) = y (ix1 r) :=
  broadcastInDim_apply _ bcast_S8192_S8192x1_0 y _ _ (fun a => match a with
    | ⟨0, _⟩ => by show r.val = if (8192 : Nat) = 1 then 0 else r.val; rw [if_neg (by decide)])

/-- A scalar broadcast to a column reads the scalar. -/
theorem bc_scalar_apply (z : S_.Idx → α) (i : S8192x1.Idx) :
    broadcastInDim S8192x1 ![] bcast_S_S8192x1 z i = z ix0 :=
  broadcastInDim_apply _ bcast_S_S8192x1 z i _ (fun a => a.elim0)

end Reads

/-- The row norms' squares: the row sums, from zero, of the squared entries. -/
def sqV (X : (⟨S8192x128, .f32⟩ : BufTy).Contents (Elt Ideal)) : (⟨S8192, .f32⟩ : BufTy).Contents (Elt Ideal) :=
  Host.reduceAdd (mulf X X) (constant (F := Ideal) S_ .f32 0x00000000#32) reducesTo_S8192x128_S8192_d1 h_S_

theorem sqV_apply (X : (⟨S8192x128, .f32⟩ : BufTy).Contents (Elt Ideal)) (r : Fin 8192) :
    (sqV X : S8192.Idx → EReal) (ix1 r)
      = Cert.Spec.lit 0x00000000#32 + ∑ k : Fin 128, (X : S8192x128.Idx → EReal) (ix2 r k) * (X : S8192x128.Idx → EReal) (ix2 r k) := by
  unfold sqV
  simp only [Host.reduceAdd, Ideal.hostReduceAdd_def]
  rw [Ideal.hostReduceAdd_single reducesTo_S8192x128_S8192_d1 (by decide)]
  refine congrArg₂ (· + ·) rfl (Finset.sum_congr rfl fun k _ => ?_)
  have hk : (Shape.Reduces.lift (s := S8192x128) (t := S8192) (a := 1) (by decide) (ix1 r) k) = ix2 r k :=
    funext fun a => Fin.ext (by match a with | ⟨0, _⟩ => rfl | ⟨1, _⟩ => rfl)
  rw [hk]; rfl

/-- Each row divided by the larger of its norm and ε, in the narrower float format. -/
def xnV (X : (⟨S8192x128, .f32⟩ : BufTy).Contents (Elt Ideal)) : (⟨S8192x128, .bf16⟩ : BufTy).Contents (Elt Ideal) :=
  truncf .bf16
    (Host.divf X
      (broadcastInDim S8192x128 ![0, 1] bcast_S8192x1_S8192x128_0_1
        (maximumf
          (Host.sqrt (broadcastInDim S8192x1 ![0] bcast_S8192_S8192x1_0 (sqV X)))
          (broadcastInDim S8192x1 ![] bcast_S_S8192x1 (constant (F := Ideal) S_ .f32 0x2B8CBCCC#32)))))
    bitsLt_bf16_f32

theorem xnV_apply (X : (⟨S8192x128, .f32⟩ : BufTy).Contents (Elt Ideal)) (r : Fin 8192) (k : Fin 128) :
    (xnV X : S8192x128.Idx → EReal) (ix2 r k) = Cert.Spec.xn (fun r k => (X : S8192x128.Idx → EReal) (ix2 r k)) r k := by
  unfold xnV Cert.Spec.xn
  show Ideal.div ((X : S8192x128.Idx → EReal) (ix2 r k))
      (broadcastInDim (s := S8192x1) S8192x128 ![0, 1] bcast_S8192x1_S8192x128_0_1 _ (ix2 r k)) = _
  rw [bc_col_apply]
  show Ideal.div ((X : S8192x128.Idx → EReal) (ix2 r k))
      (max (Ideal.sqrt (broadcastInDim S8192x1 ![0] bcast_S8192_S8192x1_0 (sqV X) (ix2 r (0 : Fin 1))))
        (broadcastInDim S8192x1 ![] bcast_S_S8192x1 (constant (F := Ideal) S_ .f32 0x2B8CBCCC#32) (ix2 r (0 : Fin 1)))) = _
  rw [bc_vec_apply, bc_scalar_apply, sqV_apply]
  rfl

theorem V_main_v5_eq (c : Dev nD) :
    (V m c main_v5 : S8192x128.Idx → EReal) = xnV (m ((c.tc : Thread nD τ).loc main_arg0)) := by
  dsimp only [V, V0]
  simp only [hostOps0, hostOps0_1, List.flatten_cons, List.flatten_nil, List.append_nil, List.cons_append, List.nil_append]
  after_results
  rfl

/-- The scaled embeddings the two matmul windows stage. -/
theorem V_main_v5_apply (c : Dev nD) (r : Fin 8192) (k : Fin 128) :
    (V m c main_v5 : S8192x128.Idx → EReal) (ix2 r k) = Cert.Spec.xn (embE m c) r k := by
  rw [V_main_v5_eq, xnV_apply]; rfl

/-! ## The labels and the groups as a column and as a row -/

theorem cast_col_apply {α : Type} (x : S8192.Idx → α) (r : Fin 8192) :
    shapeCast S8192x1 x shapeCasts_S8192_S8192x1 (ix2 r (0 : Fin 1)) = x (ix1 r) :=
  shapeCast_apply x shapeCasts_S8192_S8192x1 _ _ (by
    rw [Shape.rowMajor_val_two, Shape.rowMajor_val_one]
    show r.val = r.val * 1 + 0
    omega)

theorem cast_row_apply {α : Type} (x : S8192.Idx → α) (q : Fin 8192) :
    shapeCast S1x8192 x shapeCasts_S8192_S1x8192 (ix2 (0 : Fin 1) q) = x (ix1 q) :=
  shapeCast_apply x shapeCasts_S8192_S1x8192 _ _ (by
    rw [Shape.rowMajor_val_two, Shape.rowMajor_val_one]
    show q.val = 0 * 8192 + q.val
    omega)

theorem V_main_v6_eq (c : Dev nD) : (V m c main_v6 : S8192x1.Idx → BitVec 32)
    = shapeCast S8192x1 (m ((c.tc : Thread nD τ).loc main_arg1) : S8192.Idx → BitVec 32) shapeCasts_S8192_S8192x1 := by
  dsimp only [V, V0]
  simp only [hostOps0, hostOps0_1, List.flatten_cons, List.flatten_nil, List.append_nil, List.cons_append, List.nil_append]
  after_results
  rfl
theorem V_main_v7_eq (c : Dev nD) : (V m c main_v7 : S1x8192.Idx → BitVec 32)
    = shapeCast S1x8192 (m ((c.tc : Thread nD τ).loc main_arg1) : S8192.Idx → BitVec 32) shapeCasts_S8192_S1x8192 := by
  dsimp only [V, V0]
  simp only [hostOps0, hostOps0_1, List.flatten_cons, List.flatten_nil, List.append_nil, List.cons_append, List.nil_append]
  after_results
  rfl
theorem V_main_v8_eq (c : Dev nD) : (V m c main_v8 : S8192x1.Idx → BitVec 32)
    = shapeCast S8192x1 (m ((c.tc : Thread nD τ).loc main_arg2) : S8192.Idx → BitVec 32) shapeCasts_S8192_S8192x1 := by
  dsimp only [V, V0]
  simp only [hostOps0, hostOps0_1, List.flatten_cons, List.flatten_nil, List.append_nil, List.cons_append, List.nil_append]
  after_results
  rfl
theorem V_main_v9_eq (c : Dev nD) : (V m c main_v9 : S1x8192.Idx → BitVec 32)
    = shapeCast S1x8192 (m ((c.tc : Thread nD τ).loc main_arg2) : S8192.Idx → BitVec 32) shapeCasts_S8192_S1x8192 := by
  dsimp only [V, V0]
  simp only [hostOps0, hostOps0_1, List.flatten_cons, List.flatten_nil, List.append_nil, List.cons_append, List.nil_append]
  after_results
  rfl

/-- The labels as a column, as a row; the groups as a column, as a row. -/
theorem V_main_v6_apply (c : Dev nD) (r : Fin 8192) :
    (V m c main_v6 : S8192x1.Idx → BitVec 32) (ix2 r (0 : Fin 1)) = labL m c r := by
  rw [V_main_v6_eq, cast_col_apply]; rfl
theorem V_main_v7_apply (c : Dev nD) (q : Fin 8192) :
    (V m c main_v7 : S1x8192.Idx → BitVec 32) (ix2 (0 : Fin 1) q) = labL m c q := by
  rw [V_main_v7_eq, cast_row_apply]; rfl
theorem V_main_v8_apply (c : Dev nD) (r : Fin 8192) :
    (V m c main_v8 : S8192x1.Idx → BitVec 32) (ix2 r (0 : Fin 1)) = grpG m c r := by
  rw [V_main_v8_eq, cast_col_apply]; rfl
theorem V_main_v9_apply (c : Dev nD) (q : Fin 8192) :
    (V m c main_v9 : S1x8192.Idx → BitVec 32) (ix2 (0 : Fin 1) q) = grpG m c q := by
  rw [V_main_v9_eq, cast_row_apply]; rfl

/-! ## The stretches after the region -/

/-- A column's sum from zero, as the scalar the host reduces it to. -/
def sumV (A : FVec Ideal S8192x1 .f32) : FVec Ideal S_ .f32 :=
  Host.reduceAdd A (constant (F := Ideal) S_ .f32 0x00000000#32) reducesTo_S8192x1_S_d0_1 h_S_

theorem sumV_apply (A : FVec Ideal S8192x1 .f32) (i : S_.Idx) :
    (sumV A : S_.Idx → EReal) i
      = Cert.Spec.lit 0x00000000#32 + ∑ r : Fin 8192, (A : S8192x1.Idx → EReal) (ix2 r (0 : Fin 1)) := by
  unfold sumV
  simp only [Host.reduceAdd, Ideal.hostReduceAdd_def]
  rw [Ideal.hostReduceAdd_total reducesTo_S8192x1_S_d0_1 (fun b => b.elim0)]
  refine congrArg₂ (· + ·) rfl ?_
  rw [sum_idx2]
  exact Finset.sum_congr rfl fun r _ => Fin.sum_univ_one _

/-- The mean over the rows that count, from the two columns. -/
def tailVec (A B : FVec Ideal S8192x1 .f32) : FVec Ideal S_ .f32 :=
  let v16 : FVec Ideal S_ .f32 :=
    select (cmpf .ogt (sumV B) (constant (F := Ideal) S_ .f32 0x00000000#32))
      (Host.divf (sumV A) (maximumf (sumV B) (constant (F := Ideal) S_ .f32 0x3F800000#32)))
      (id (constant (F := Ideal) S_ .f32 0x00000000#32))
  select (cmpf .une v16 v16) (id (constant (F := Ideal) S_ .f32 0x00000000#32)) v16

theorem tailVec_apply (A B : FVec Ideal S8192x1 .f32) (i : S_.Idx) :
    (tailVec A B : S_.Idx → EReal) i
      = Cert.Spec.tail
          (Cert.Spec.lit 0x00000000#32 + ∑ r : Fin 8192, (A : S8192x1.Idx → EReal) (ix2 r (0 : Fin 1)))
          (Cert.Spec.lit 0x00000000#32 + ∑ r : Fin 8192, (B : S8192x1.Idx → EReal) (ix2 r (0 : Fin 1))) := by
  rw [← sumV_apply A i, ← sumV_apply B i]
  rfl

theorem tail_eq (W : Valuation τ sig (Elt Ideal)) :
    (StableHlo.after (tailOps (F := Ideal)).flatten W (Proc.devRef .tc main_v18) : S_.Idx → EReal)
      = tailVec (W (Proc.devRef .tc main_v10_0)) (W (Proc.devRef .tc main_v10_1)) := by
  simp only [tailOps, hostOps1, hostOps1_1, hostOps1_2, hostOps1_3, List.flatten_cons, List.flatten_nil, List.append_nil, List.cons_append, List.nil_append]
  after_results_simp
  rfl

/-- From ANY buffer contents `W` at the region's exit, the later stretches leave in the result buffer the mean over
    the rows that count, of the two output arrays' column sums from zero. -/
theorem tail_value (W : Valuation τ sig (Elt Ideal)) :
    (StableHlo.after (tailOps (F := Ideal)).flatten W (Proc.devRef .tc main_v18) : S_.Idx → EReal)
      = fun _ => Cert.Spec.tail
          (Cert.Spec.lit 0x00000000#32 + (∑ r : Fin 8192, (W (Proc.devRef .tc main_v10_0) : S8192x1.Idx → EReal) (ix2 r (0 : Fin 1)) : EReal))
          (Cert.Spec.lit 0x00000000#32 + (∑ r : Fin 8192, (W (Proc.devRef .tc main_v10_1) : S8192x1.Idx → EReal) (ix2 r (0 : Fin 1)) : EReal)) := by
  rw [tail_eq]
  exact funext fun i => tailVec_apply _ _ i

/-- They write none of the argument arrays. -/
theorem tail_keeps_arg0 (W : Valuation τ sig (Elt Ideal)) :
    StableHlo.after (tailOps (F := Ideal)).flatten W (Proc.devRef .tc main_arg0) = W (Proc.devRef .tc main_arg0) :=
  StableHlo.after_of_forall_not_mem (b := Proc.devRef .tc main_arg0) _ _ (List.forall_iff_forall_mem.mp (by
    simp only [tailOps, hostOps1, hostOps1_1, hostOps1_2, hostOps1_3, List.flatten_cons, List.flatten_nil, List.append_nil,
      List.cons_append, List.nil_append, List.Forall, StableHlo.nullary_writes, StableHlo.unary_writes, StableHlo.binary_writes,
      StableHlo.ternary_writes, Finset.mem_singleton]
    repeat' apply And.intro
    all_goals exact StableHlo.devRef_ne_of_ne (by decide)))
theorem tail_keeps_arg1 (W : Valuation τ sig (Elt Ideal)) :
    StableHlo.after (tailOps (F := Ideal)).flatten W (Proc.devRef .tc main_arg1) = W (Proc.devRef .tc main_arg1) :=
  StableHlo.after_of_forall_not_mem (b := Proc.devRef .tc main_arg1) _ _ (List.forall_iff_forall_mem.mp (by
    simp only [tailOps, hostOps1, hostOps1_1, hostOps1_2, hostOps1_3, List.flatten_cons, List.flatten_nil, List.append_nil,
      List.cons_append, List.nil_append, List.Forall, StableHlo.nullary_writes, StableHlo.unary_writes, StableHlo.binary_writes,
      StableHlo.ternary_writes, Finset.mem_singleton]
    repeat' apply And.intro
    all_goals exact StableHlo.devRef_ne_of_ne (by decide)))
theorem tail_keeps_arg2 (W : Valuation τ sig (Elt Ideal)) :
    StableHlo.after (tailOps (F := Ideal)).flatten W (Proc.devRef .tc main_arg2) = W (Proc.devRef .tc main_arg2) :=
  StableHlo.after_of_forall_not_mem (b := Proc.devRef .tc main_arg2) _ _ (List.forall_iff_forall_mem.mp (by
    simp only [tailOps, hostOps1, hostOps1_1, hostOps1_2, hostOps1_3, List.flatten_cons, List.flatten_nil, List.append_nil,
      List.cons_append, List.nil_append, List.Forall, StableHlo.nullary_writes, StableHlo.unary_writes, StableHlo.binary_writes,
      StableHlo.ternary_writes, Finset.mem_singleton]
    repeat' apply And.intro
    all_goals exact StableHlo.devRef_ne_of_ne (by decide)))

end Cert.KernelIdeal.Hand

end
-- ==== Proof.KI.Extrema.lean ====
/-
  What the three running extrema hold after each grid point, in the specification's terms, and what the last column
  stores. With `x` the scaled embeddings, `l` the labels and `g` the groups of core `c`, at point `t` (row block
  `t / 8`, column block `t % 8`) the tile of distances is `dist x` of global row against global column, the mask tiles
  are the specification's `pos`, `neg`, `negsg`, so one point folds the column block's masked extremum into the running
  one: after point `t` row `p` of the block holds the running extrema over the first `t % 8 + 1` column blocks
  (induction on the point: column 0 starts from the fill values), and at column 7 the stored outputs are the kept
  loss and the kept mask of the finished extrema.
-/
import proofs.«135937_j90099823936181_2_alg».proof.Proof.KI.Pieces
import proofs.«135937_j90099823936181_2_alg».proof.Proof.KI.Payloads
import proofs.«135937_j90099823936181_2_alg».proof.Proof.KI.Blocks
import proofs.«135937_j90099823936181_2_alg».proof.Proof.KI.HostVals

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen
open Idealize.ShloMosaic.ValueIdx
open Cert.Spec

variable (m : (ℓ : Loc nD τ sig) → Buf (Elt Ideal) ℓ)

/-- The scaled embeddings of core `c`. -/
abbrev xS (c : Dev nD) : Fin 8192 → Fin 128 → EReal := xn (embE m c)

/-! ## The tiles at a point -/

theorem colOf_eq (t : Fin cfg0.N) (q : Fin 1024) : colOf t q = col ⟨t.val % 8, Nat.mod_lt _ (by decide)⟩ q := rfl

theorem dT_apply (c : Dev nD) (t : Fin cfg0.N) (p q : Fin 1024) :
    (dT m c t : S1024x1024.Idx → EReal) (ix2 p q) = Cert.Spec.dist (xS m c) (rowOf t p) (colOf t q) := by
  unfold dT
  rw [pay12_apply]
  unfold Cert.Spec.dist
  refine congrArg (fun z => lit 0x3F800000#32 - z) ?_
  refine Finset.sum_congr rfl fun k _ => ?_
  rw [iblk0_apply, iblk1_apply, V_main_v5_apply, V_main_v5_apply]

theorem sameT_apply (c : Dev nD) (t : Fin cfg0.N) (p q : Fin 1024) :
    sameT m c t (ix2 p q) = 1#1 ↔ labL m c (rowOf t p) = labL m c (colOf t q) := by
  unfold sameT
  rw [pay13_apply, iblk2_apply, iblk3_apply, V_main_v6_apply, V_main_v7_apply]

theorem grpT_apply (c : Dev nD) (t : Fin cfg0.N) (p q : Fin 1024) :
    grpT m c t (ix2 p q) = 1#1 ↔ grpG m c (rowOf t p) = grpG m c (colOf t q) := by
  unfold grpT
  rw [pay14_apply, iblk4_apply, iblk5_apply, V_main_v8_apply, V_main_v9_apply]

theorem posT_apply (c : Dev nD) (t : Fin cfg0.N) (p q : Fin 1024) :
    posT m c t (ix2 p q) = 1#1 ↔ pos (labL m c) (rowOf t p) (colOf t q) := by
  unfold posT pos
  rw [pay15_apply, iblk2_apply, iblk3_apply, V_main_v6_apply, V_main_v7_apply, coords0, coords1]
  refine and_congr Iff.rfl ?_
  refine not_congr ?_
  constructor
  · intro h; exact Fin.ext h
  · intro h; exact congrArg Fin.val h

/-! ## One point's fold, row by row -/

theorem fold_ap (c : Dev nD) (t : Fin cfg0.N) (s : Scr Ideal) (p : Fin 1024) :
    ((foldT m c t s).1 : S1024x1.Idx → EReal) (ix2 p (0 : Fin 1))
      = max ((s.1 : S1024x1.Idx → EReal) (ix2 p (0 : Fin 1))) (apBlk (xS m c) (labL m c) (rowOf t p) ⟨t.val % 8, Nat.mod_lt _ (by decide)⟩) := by
  unfold foldT
  dsimp only
  rw [pay2_apply]
  refine congrArg (max ((s.1 : S1024x1.Idx → EReal) (ix2 p (0 : Fin 1)))) ?_
  unfold apBlk
  refine congrArg (fun f => Finset.fold max (lit 0xFF800000#32) f (Finset.univ : Finset (Fin 1024))) (funext fun q => ?_)
  unfold candAp
  rw [← colOf_eq, ← dT_apply]
  by_cases h : posT m c t (ix2 p q) = 1#1
  · rw [if_pos h, if_pos ((posT_apply m c t p q).mp h)]
  · rw [if_neg h, if_neg (fun h' => h ((posT_apply m c t p q).mpr h'))]

theorem fold_sg (c : Dev nD) (t : Fin cfg0.N) (s : Scr Ideal) (p : Fin 1024) :
    ((foldT m c t s).2.1 : S1024x1.Idx → EReal) (ix2 p (0 : Fin 1))
      = min ((s.2.1 : S1024x1.Idx → EReal) (ix2 p (0 : Fin 1))) (sgBlk (xS m c) (labL m c) (grpG m c) (rowOf t p) ⟨t.val % 8, Nat.mod_lt _ (by decide)⟩) := by
  unfold foldT
  dsimp only
  rw [pay3_apply]
  refine congrArg (min ((s.2.1 : S1024x1.Idx → EReal) (ix2 p (0 : Fin 1)))) ?_
  unfold sgBlk
  refine congrArg (fun f => Finset.fold min (lit 0x7F800000#32) f (Finset.univ : Finset (Fin 1024))) (funext fun q => ?_)
  unfold candSg
  rw [← colOf_eq, ← dT_apply]
  have hs := sameT_apply m c t p q
  have hg := grpT_apply m c t p q
  have hn : negsg (labL m c) (grpG m c) (rowOf t p) (colOf t q)
      ↔ ((¬ sameT m c t (ix2 p q) = 1#1) ∧ grpT m c t (ix2 p q) = 1#1) :=
    ⟨fun h' => ⟨fun e => h'.1 (hs.mp e), hg.mpr h'.2⟩, fun h => ⟨fun e => h.1 (hs.mpr e), hg.mp h.2⟩⟩
  by_cases h : (¬ sameT m c t (ix2 p q) = 1#1) ∧ grpT m c t (ix2 p q) = 1#1
  · rw [if_pos h, if_pos (hn.mpr h)]
  · rw [if_neg h, if_neg (fun h' => h (hn.mp h'))]

theorem fold_all (c : Dev nD) (t : Fin cfg0.N) (s : Scr Ideal) (p : Fin 1024) :
    ((foldT m c t s).2.2 : S1024x1.Idx → EReal) (ix2 p (0 : Fin 1))
      = min ((s.2.2 : S1024x1.Idx → EReal) (ix2 p (0 : Fin 1))) (allBlk (xS m c) (labL m c) (rowOf t p) ⟨t.val % 8, Nat.mod_lt _ (by decide)⟩) := by
  unfold foldT
  dsimp only
  rw [pay4_apply]
  refine congrArg (min ((s.2.2 : S1024x1.Idx → EReal) (ix2 p (0 : Fin 1)))) ?_
  unfold allBlk
  refine congrArg (fun f => Finset.fold min (lit 0x7F800000#32) f (Finset.univ : Finset (Fin 1024))) (funext fun q => ?_)
  unfold candAll
  rw [← colOf_eq, ← dT_apply]
  have hs := sameT_apply m c t p q
  have hn : neg (labL m c) (rowOf t p) (colOf t q) ↔ ¬ sameT m c t (ix2 p q) = 1#1 :=
    ⟨fun h' e => h' (hs.mp e), fun h e => h (hs.mpr e)⟩
  by_cases h : ¬ sameT m c t (ix2 p q) = 1#1
  · rw [if_pos h, if_pos (hn.mpr h)]
  · rw [if_neg h, if_neg (fun h' => h (hn.mp h'))]

/-! ## The running extrema after each point -/

/-- The running extrema of the specification, one more column block folded in. -/
theorem apRun_succ (x : Fin 8192 → Fin 128 → EReal) (l : Fin 8192 → BitVec 32) (r : Fin 8192) (n : ℕ) (h : n < 8) :
    apRun x l r (n + 1) = max (apRun x l r n) (apBlk x l r ⟨n, h⟩) := by
  show max (apRun x l r n) (if h : n < 8 then apBlk x l r ⟨n, h⟩ else lit 0xFF800000#32) = _
  rw [dif_pos h]
theorem sgRun_succ (x : Fin 8192 → Fin 128 → EReal) (l g : Fin 8192 → BitVec 32) (r : Fin 8192) (n : ℕ) (h : n < 8) :
    sgRun x l g r (n + 1) = min (sgRun x l g r n) (sgBlk x l g r ⟨n, h⟩) := by
  show min (sgRun x l g r n) (if h : n < 8 then sgBlk x l g r ⟨n, h⟩ else lit 0x7F800000#32) = _
  rw [dif_pos h]
theorem allRun_succ (x : Fin 8192 → Fin 128 → EReal) (l : Fin 8192 → BitVec 32) (r : Fin 8192) (n : ℕ) (h : n < 8) :
    allRun x l r (n + 1) = min (allRun x l r n) (allBlk x l r ⟨n, h⟩) := by
  show min (allRun x l r n) (if h : n < 8 then allBlk x l r ⟨n, h⟩ else lit 0x7F800000#32) = _
  rw [dif_pos h]

/-- What the three scratch buffers hold, row by row, after a point: the running extrema over the first
    `t % 8 + 1` column blocks. -/
def ScrIs (c : Dev nD) (t : Fin cfg0.N) (s : Scr Ideal) : Prop :=
  ∀ p : Fin 1024,
    (s.1 : S1024x1.Idx → EReal) (ix2 p (0 : Fin 1)) = apRun (xS m c) (labL m c) (rowOf t p) (t.val % 8 + 1)
    ∧ (s.2.1 : S1024x1.Idx → EReal) (ix2 p (0 : Fin 1)) = sgRun (xS m c) (labL m c) (grpG m c) (rowOf t p) (t.val % 8 + 1)
    ∧ (s.2.2 : S1024x1.Idx → EReal) (ix2 p (0 : Fin 1)) = allRun (xS m c) (labL m c) (rowOf t p) (t.val % 8 + 1)

/-- A fold from extrema over the first `t % 8` blocks gives the extrema over the first `t % 8 + 1`. -/
theorem fold_step (c : Dev nD) (t : Fin cfg0.N) (s : Scr Ideal)
    (hs : ∀ p : Fin 1024,
      (s.1 : S1024x1.Idx → EReal) (ix2 p (0 : Fin 1)) = apRun (xS m c) (labL m c) (rowOf t p) (t.val % 8)
      ∧ (s.2.1 : S1024x1.Idx → EReal) (ix2 p (0 : Fin 1)) = sgRun (xS m c) (labL m c) (grpG m c) (rowOf t p) (t.val % 8)
      ∧ (s.2.2 : S1024x1.Idx → EReal) (ix2 p (0 : Fin 1)) = allRun (xS m c) (labL m c) (rowOf t p) (t.val % 8)) :
    ScrIs m c t (foldT m c t s) := by
  intro p
  have h8 : t.val % 8 < 8 := Nat.mod_lt _ (by decide)
  obtain ⟨h1, h2, h3⟩ := hs p
  refine ⟨?_, ?_, ?_⟩
  · rw [fold_ap, h1, apRun_succ _ _ _ _ h8]
  · rw [fold_sg, h2, sgRun_succ _ _ _ _ _ h8]
  · rw [fold_all, h3, allRun_succ _ _ _ _ h8]

theorem scr_at (c : Dev nD) : ∀ (n : ℕ) (hn : n < cfg0.N), ScrIs m c ⟨n, hn⟩ (outsAt0 m c n hn).2 := by
  intro n
  induction n with
  | zero =>
    intro hn
    rw [outsAt0_A m c ⟨0, hn⟩ (Nat.zero_mod _) (by show ¬0 % 8 = 7; decide)]
    dsimp only
    rw [scrA_eq]
    refine fold_step m c ⟨0, hn⟩ fillT fun p => ?_
    unfold fillT
    dsimp only
    refine ⟨?_, ?_, ?_⟩
    · rw [pay9_apply]; rfl
    · rw [pay10_apply]; rfl
    · rw [pay11_apply]; rfl
  | succ n ih =>
    intro hn
    have hN : n + 1 < 64 := lt_of_lt_of_eq hn (show cfg0.N = 64 from N_0)
    by_cases h0 : (n + 1) % 8 = 0
    · rw [outsAt0_A m c ⟨n + 1, hn⟩ h0 (by show ¬(n + 1) % 8 = 7; omega)]
      dsimp only
      rw [scrA_eq]
      refine fold_step m c ⟨n + 1, hn⟩ fillT fun p => ?_
      unfold fillT
      dsimp only
      have e : (⟨n + 1, hn⟩ : Fin cfg0.N).val % 8 = 0 := h0
      rw [e]
      refine ⟨?_, ?_, ?_⟩
      · rw [pay9_apply]; rfl
      · rw [pay10_apply]; rfl
      · rw [pay11_apply]; rfl
    · have hprev := ih (Nat.lt_of_succ_lt hn)
      have hrow : ∀ p, rowOf (⟨n, Nat.lt_of_succ_lt hn⟩ : Fin cfg0.N) p = rowOf (⟨n + 1, hn⟩ : Fin cfg0.N) p := fun p =>
        Fin.ext (by show n / 8 * 1024 + p.val = (n + 1) / 8 * 1024 + p.val; have : n / 8 = (n + 1) / 8 := by omega
                    rw [this])
      have hcol : n % 8 + 1 = (n + 1) % 8 := by omega
      have hs : ∀ p : Fin 1024,
          (((outsAt0 m c n (Nat.lt_of_succ_lt hn)).2).1 : S1024x1.Idx → EReal) (ix2 p (0 : Fin 1)) = apRun (xS m c) (labL m c) (rowOf ⟨n + 1, hn⟩ p) ((n + 1) % 8)
          ∧ (((outsAt0 m c n (Nat.lt_of_succ_lt hn)).2).2.1 : S1024x1.Idx → EReal) (ix2 p (0 : Fin 1)) = sgRun (xS m c) (labL m c) (grpG m c) (rowOf ⟨n + 1, hn⟩ p) ((n + 1) % 8)
          ∧ (((outsAt0 m c n (Nat.lt_of_succ_lt hn)).2).2.2 : S1024x1.Idx → EReal) (ix2 p (0 : Fin 1)) = allRun (xS m c) (labL m c) (rowOf ⟨n + 1, hn⟩ p) ((n + 1) % 8) := fun p => by
        have := hprev p
        rw [hrow p] at this
        rw [← hcol]
        exact this
      by_cases h1 : (n + 1) % 8 = 7
      · rw [outsAt0_C m c ⟨n + 1, hn⟩ h0 h1]
        dsimp only
        rw [scrC_eq]
        exact fold_step m c ⟨n + 1, hn⟩ _ hs
      · rw [outsAt0_B m c ⟨n + 1, hn⟩ h0 h1]
        dsimp only
        rw [scrB_eq]
        exact fold_step m c ⟨n + 1, hn⟩ _ hs

/-! ## What the last column stores -/

theorem outs_at (c : Dev nD) (t : Fin cfg0.N) (h7 : t.val % 8 = 7) (p : Fin 1024) :
    (((outsAt0 m c t.val t.isLt).1.1 : S1024x1.Idx → EReal) (ix2 p (0 : Fin 1))
        = if inclK (xS m c) (labL m c) (grpG m c) (rowOf t p) then lossK (xS m c) (labL m c) (grpG m c) (rowOf t p) else lit 0x00000000#32)
    ∧ (((outsAt0 m c t.val t.isLt).1.2 : S1024x1.Idx → EReal) (ix2 p (0 : Fin 1))
        = if inclK (xS m c) (labL m c) (grpG m c) (rowOf t p) then (1 : EReal) else 0) := by
  have h0 : ¬t.val % 8 = 0 := by omega
  have hscr := scr_at m c t.val t.isLt
  rw [outsAt0_C m c t h0 h7] at hscr ⊢
  dsimp only at hscr ⊢
  rw [scrC_eq] at hscr
  rw [outC_eq]
  obtain ⟨ha, hsg, hal⟩ := hscr p
  rw [h7] at ha hsg hal
  set s := foldT m c t (outsAt0 m c (t.val - 1) (Nat.lt_of_le_of_lt (Nat.sub_le _ _) t.isLt)).2 with hsdef
  have hloss : (k0_pay5 (F := Ideal) s.2.1 s.2.1 s.2.2 s.1 : S1024x1.Idx → EReal) (ix2 p (0 : Fin 1))
      = lossK (xS m c) (labL m c) (grpG m c) (rowOf t p) := by
    rw [pay5_apply, ha, hsg, hal]; rfl
  have hincl : k0_pay6 (F := Ideal) s.1 s.2.1 s.2.2 s.2.1 s.2.2 s.1 (ix2 p (0 : Fin 1)) = 1#1
      ↔ inclK (xS m c) (labL m c) (grpG m c) (rowOf t p) := by
    rw [pay6_apply, hloss, ha, hal]; rfl
  unfold finT
  dsimp only
  refine ⟨?_, ?_⟩
  · rw [pay7_apply, hloss]
    by_cases h : inclK (xS m c) (labL m c) (grpG m c) (rowOf t p)
    · rw [if_pos (hincl.mpr h), if_pos h]
    · rw [if_neg (fun e => h (hincl.mp e)), if_neg h]
  · rw [pay8_apply]
    by_cases h : inclK (xS m c) (labL m c) (grpG m c) (rowOf t p)
    · rw [if_pos (hincl.mpr h), if_pos h]
    · rw [if_neg (fun e => h (hincl.mp e)), if_neg h]

/-! ## The two output arrays after the run -/

theorem out6_final (c : Dev nD) (r : Fin 8192) :
    ((dats m 0 c).arrAt 6 cfg0.N : S8192x1.Idx → EReal) (ix2 r (0 : Fin 1))
      = if inclK (xS m c) (labL m c) (grpG m c) r then lossK (xS m c) (labL m c) (grpG m c) r else lit 0x00000000#32 :=
  out6_of m c (fun r => if inclK (xS m c) (labL m c) (grpG m c) r then lossK (xS m c) (labL m c) (grpG m c) r else lit 0x00000000#32)
    (fun t h7 p => (outs_at m c t h7 p).1) r

theorem out7_final (c : Dev nD) (r : Fin 8192) :
    ((dats m 0 c).arrAt 7 cfg0.N : S8192x1.Idx → EReal) (ix2 r (0 : Fin 1))
      = if inclK (xS m c) (labL m c) (grpG m c) r then (1 : EReal) else 0 :=
  out7_of m c (fun r => if inclK (xS m c) (labL m c) (grpG m c) r then (1 : EReal) else 0)
    (fun t h7 p => (outs_at m c t h7 p).2) r

end Cert.KernelIdeal.Hand

end
-- ==== Proof.KI.Body.lean ====
/-
  The body obligation of the idealized kernel's pallas_call: at every grid point, from the region's invariant (the three
  running extrema at what the point before left) and every window's staging buffer at what it then holds, the kernel
  body runs to the invariant at the next point and every buffer at what the proof data says it leaves. The point's
  column decides the case: the inputs' buffers hold their blocks, the outputs' are untouched away from the last
  column and stored whole at it, and the pieces the run found cover the buffers they were written into.
-/
import proofs.«135937_j90099823936181_2_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  by_cases h1 : t.val % 8 = 7
  · -- the last column: the outputs are stored
    have h0 : ¬t.val % 8 = 0 := by omega
    have hz : t.val ≠ 0 := by omega
    rw [show (dats m 0 c).leavesExact 6 t = owns (c : Thread nD τ) (ms0_6 t) fullShare ((dats m 0 c).after 6 t) from by
      unfold Dat.leavesExact; rw [liveAt0_6 t ((hcond0_1 t).mpr h1)], after0_6]
    rw [show (dats m 0 c).leavesExact 7 t = owns (c : Thread nD τ) (ms0_7 t) fullShare ((dats m 0 c).after 7 t) from by
      unfold Dat.leavesExact; rw [liveAt0_7 t ((hcond0_1 t).mpr h1)], after0_7]
    rw [outsAt0_C m c t h0 h1]
    dsimp only
    unfold outC scrC; dsimp only
    rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((rC m c t h0 h1 _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, ⟨%e6, H6⟩, ⟨%e7, H7⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (scoverC_0 m c t h0 h1 _)
        isplitl [HS1]
        · unfold owns; iexists _; isplitr
          swap; · iexact HS1
          ipureintro; exact View.read_writes_of_cover _ _ _ _ _ (scoverC_1 m c t h0 h1 _)
        unfold owns; iexists _; isplitr
        swap; · iexact HS2
        ipureintro; exact View.read_writes_of_cover _ _ _ _ _ (scoverC_2 m c t h0 h1 _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coverC_6 m c t h0 h1 _)
    unfold owns; iexists _; isplitr
    swap; · iexact H7
    ipureintro; exact View.read_writes_of_cover _ _ _ _ _ (coverC_7 m c t h0 h1 _)
  · -- the other columns: the outputs are idle and handed back as they came
    rw [Dat.leavesExact_idle (dats m 0 c) 6 t (idleAt0_6 t (fun h => h1 ((hcond0_1 t).mp h))) (noFlush0_6 t (fun h => h1 ((hcond0_1 t).mp h)))]
    rw [Dat.leavesExact_idle (dats m 0 c) 7 t (idleAt0_7 t (fun h => h1 ((hcond0_1 t).mp h))) (noFlush0_7 t (fun h => h1 ((hcond0_1 t).mp h)))]
    by_cases h0 : t.val % 8 = 0
    · -- column 0: the reset
      rw [outsAt0_A m c t h0 h1]
      dsimp only
      unfold scrA; dsimp only
      have hPhi : (dats m 0 c).Φ t.castSucc ⊢ (Pipeline.ΦA spec0 c : sProp 𝕄) := by
        rw [PhiS_castSucc m c t]
        by_cases hz : t.val = 0
        · rw [PhiS_zero m c _ _ hz]
        · rw [PhiS_pos m c _ _ hz, PhiA0_eq]
          iintro ⟨⟨HS0, HS1, HS2⟩, Hg⟩
          isplitr [Hg]
          · isplitl [HS0]; · iexists _; iexact HS0
            isplitl [HS1]; · iexists _; iexact HS1
            iexists _; iexact HS2
          iexact Hg
      refine (sep_mono hPhi .rfl).trans ?_
      rw [PhiA0_eq]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((rA m c t h0 h1).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverA_0 m c t h0 h1)
          isplitl [HS1]
          · unfold owns; iexists _; isplitr
            swap; · iexact HS1
            ipureintro; exact View.read_writes_of_cover _ _ _ _ _ (scoverA_1 m c t h0 h1)
          unfold owns; iexists _; isplitr
          swap; · iexact HS2
          ipureintro; exact View.read_writes_of_cover _ _ _ _ _ (scoverA_2 m c t h0 h1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · -- a middle column: fold into what the point before left
      have hz : t.val ≠ 0 := fun e => h0 (by rw [e])
      rw [outsAt0_B m c t h0 h1]
      dsimp only
      unfold scrB; dsimp only
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((rB m c t h0 h1 _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverB_0 m c t h0 h1 _)
          isplitl [HS1]
          · unfold owns; iexists _; isplitr
            swap; · iexact HS1
            ipureintro; exact View.read_writes_of_cover _ _ _ _ _ (scoverB_1 m c t h0 h1 _)
          unfold owns; iexists _; isplitr
          swap; · iexact HS2
          ipureintro; exact View.read_writes_of_cover _ _ _ _ _ (scoverB_2 m c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the default one back: the extrema's named contents are forgotten. -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl,
    PhiS_pos m c _ _ ht, PhiA0_eq]
  iintro ⟨⟨HS0, HS1, HS2⟩, Hg⟩
  isplitr [Hg]
  · isplitl [HS0]; · iexists _; iexact HS0
    isplitl [HS1]; · iexists _; iexact HS1
    iexists _; iexact HS2
  iexact Hg

end Cert.KernelIdeal.Hand

end
-- ==== Proof.KI.Shared.lean ====
/-
  The idealized kernel's one pallas_call run from @main when two of its windows stage one array.

  Windows 0 and 1 both stage the scaled embeddings (as anchor rows and as candidate rows), so the windows' arrays are
  not pairwise distinct. The buffers behind the arrays are seven; the first is split in two halves of its share, one
  for each of the two windows that read it. After the region the four later stretches of host operations touch only
  the two output arrays and buffers that bypass the region: the six input windows' shares are set aside while they
  run and handed back afterwards.
-/
import proofs.«135937_j90099823936181_2_alg».proof.Proof.KI.Setup
import Idealize.ShloMosaic.Lib.Pipeline.FrameSuffix
import Idealize.ShloMosaic.Lib.Pipeline.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers behind the windows' arrays -/

/-- The windows' arrays are seven buffers: the scaled embeddings (windows 0 and 1), the labels as a column and as a
    row, the groups as a column and as a row, and the two outputs. -/
theorem arrImage_eq : Finset.univ.image (Pipeline.arrRef spec0)
    = [main_v5, main_v6, main_v7, main_v8, main_v9, main_v10_0, main_v10_1].toFinset := by decide

/-- The seven buffers one by one, each whole at the full share. -/
theorem arrBufs_chain (c : Dev nD) (W : (b : Ref sig .tc) → Buf (Elt F) ((c.tc : Thread nD τ).loc b)) :
    (Pipeline.arrBufs spec0 c W : sProp 𝕄)
      = iprop((((c.tc : Thread nD τ).loc main_v5) ↦{fullShare} W main_v5) ∗ (((c.tc : Thread nD τ).loc main_v6) ↦{fullShare} W main_v6)
          ∗ (((c.tc : Thread nD τ).loc main_v7) ↦{fullShare} W main_v7) ∗ (((c.tc : Thread nD τ).loc main_v8) ↦{fullShare} W main_v8)
          ∗ (((c.tc : Thread nD τ).loc main_v9) ↦{fullShare} W main_v9) ∗ (((c.tc : Thread nD τ).loc main_v10_0) ↦{fullShare} W main_v10_0)
          ∗ (((c.tc : Thread nD τ).loc main_v10_1) ↦{fullShare} W main_v10_1)) := by
  unfold Pipeline.arrBufs
  exact bigSep_eq_bigSepL_of_eq _ arrImage_eq (by decide) _

/-- The proof data's arrays at contents `G`, window by window: each window's array is a whole buffer. -/
theorem arrays_chain {c : Dev nD} (dat : Dat τ (Elt F) Unit ℕ (UR sig nD τ) ℕ cfg0 c)
    (G : (w : Fin 8) → Buf (Elt F) ((c.tc : Thread nD τ).loc (Pipeline.arrRef spec0 w))) :
    (dat.arrays G : sProp 𝕄)
      = bigSep Finset.univ fun w : Fin 8 => (((c.tc : Thread nD τ).loc (Pipeline.arrRef spec0 w)) ↦{dat.share w} G w : sProp 𝕄) := by
  unfold Dat.arrays
  exact bigSep_congr fun w _ => by rw [(arr_whole0 w).set_eq_univ]

section Shares

variable {c : Dev nD} (dat : Dat τ (Elt F) Unit ℕ (UR sig nD τ) ℕ cfg0 c)
  (hq0 : dat.q 0 = fullShare.left) (hq1 : dat.q 1 = fullShare.right) (hq : ∀ w : Fin 8, 2 ≤ w.val → dat.q w = fullShare)

include hq0 in
theorem share_0 : dat.share 0 = fullShare.left := (if_neg Bool.false_ne_true).trans hq0
include hq1 in
theorem share_1 : dat.share 1 = fullShare.right := (if_neg Bool.false_ne_true).trans hq1
include hq in
theorem share_2 : dat.share 2 = fullShare := (if_neg Bool.false_ne_true).trans (hq 2 (by decide))
include hq in
theorem share_3 : dat.share 3 = fullShare := (if_neg Bool.false_ne_true).trans (hq 3 (by decide))
include hq in
theorem share_4 : dat.share 4 = fullShare := (if_neg Bool.false_ne_true).trans (hq 4 (by decide))
include hq in
theorem share_5 : dat.share 5 = fullShare := (if_neg Bool.false_ne_true).trans (hq 5 (by decide))
theorem share_6 : dat.share 6 = fullShare := if_pos rfl
theorem share_7 : dat.share 7 = fullShare := if_pos rfl

end Shares

/-- The seven buffers behind the arrays, each whole at the full share at the region-entry contents, make the proof
    data's arrays at entry: the scaled embeddings' points-to is split in its left and right halves, for windows 0 and 1. -/
theorem hsplit (dats : (p : Fin 1) → (c : Dev nD) → Dat τ (Elt F) Unit ℕ (UR sig nD τ) ℕ (cfgs p) c)
    (hq0 : ∀ c, (dats 0 c).q 0 = fullShare.left) (hq1 : ∀ c, (dats 0 c).q 1 = fullShare.right)
    (hq : ∀ c w, 2 ≤ w.val → (dats 0 c).q w = fullShare)
    (hA : ∀ c w, (dats 0 c).A w = V m c (Pipeline.arrRef spec0 w)) (c : Dev nD) :
    (Pipeline.arrBufs spec0 c (V m c) : sProp 𝕄) ⊢ (dats 0 c).arrays ((dats 0 c).arrAt · 0) := by
  have e : ((dats 0 c).arrAt · 0) = fun w => V m c (Pipeline.arrRef spec0 w) := funext fun w => hA c w
  rw [e, arrays_chain (dats 0 c), Gen.bigSep_W0, share_0 _ (hq0 c), share_1 _ (hq1 c), share_2 _ (hq c), share_3 _ (hq c),
    share_4 _ (hq c), share_5 _ (hq c), share_6, share_7, arrBufs_chain]
  iintro ⟨H5, H6, H7, H8, H9, Ha, Hb⟩
  ihave H5 := (pointsTo_share (PosShare.mem_left_op_right fullShare)).1 $$ H5
  icases H5 with ⟨H5l, H5r⟩
  isplitl [H5l]; · iexact H5l
  isplitl [H5r]; · iexact H5r
  isplitl [H6]; · iexact H6
  isplitl [H7]; · iexact H7
  isplitl [H8]; · iexact H8
  isplitl [H9]; · iexact H9
  isplitl [Ha]; · iexact Ha
  iexact Hb

/-! ## The two output windows as a family of their own -/

/-- The output windows are windows 6 and 7. -/
abbrev outW (i : Fin 2) : Fin 8 := ⟨6 + i.val, by omega⟩
/-- Their specifications. -/
abbrev specOut : Fin 2 → Pipeline.WinSpec sig grid0.rank := fun i => spec0 (outW i)
/-- The two output arrays are distinct buffers. -/
theorem specOut_inj : Function.Injective (Pipeline.arrRef specOut) := by decide
/-- The five buffers behind the six input windows. -/
abbrev inRefs : Finset (Ref sig .tc) := {main_v5, main_v6, main_v7, main_v8, main_v9}

/-- The buffers that bypass the region are those that bypass its two output windows, the five input arrays apart. -/
theorem rest_eq : Pipeline.restRefsP sig Pipeline.Prefetch.none specOut \ inRefs = Pipeline.restRefsP sig Pipeline.Prefetch.none spec0 := by
  have hI : Finset.univ.image (Pipeline.arrRef spec0) = Finset.univ.image (Pipeline.arrRef specOut) ∪ inRefs := by decide
  ext b
  have hb : b ∈ Finset.univ.image (Pipeline.arrRef spec0) ↔ b ∈ Finset.univ.image (Pipeline.arrRef specOut) ∨ b ∈ inRefs := by
    rw [hI, Finset.mem_union]
  simp only [Finset.mem_sdiff]
  constructor
  · rintro ⟨⟨⟨h1, h2⟩, h3⟩, h4⟩
    exact ⟨⟨h1, fun h => (hb.mp h).elim h2 h4⟩, h3⟩
  · rintro ⟨⟨h1, h2⟩, h3⟩
    exact ⟨⟨⟨h1, fun h => h2 (hb.mpr (Or.inl h))⟩, h3⟩, fun h => h2 (hb.mpr (Or.inr h))⟩

/-- The two output arrays one by one. -/
theorem arrPts_out (c : Dev nD) (A : (i : Fin 2) → Buf (Elt F) ((specOut i).arr.view.loc (c.tc : Thread nD τ))) :
    (Pipeline.arrPts specOut c A : sProp 𝕄)
      = iprop((((c.tc : Thread nD τ).loc main_v10_0) ↦{fullShare} A 0) ∗ (((c.tc : Thread nD τ).loc main_v10_1) ↦{fullShare} A 1)) := by
  unfold Pipeline.arrPts
  exact bigSep_univ_eq_bigSepL [(0 : Fin 2), 1] (by decide) (by decide) _

/-! ## The stretches after the region -/

/-- Core `c`'s buffer contents after the four later stretches: they run from the region's exit, where the two output
    arrays hold what the region left and every other buffer its region-entry contents. -/
def tailV (dats : (p : Fin 1) → (c : Dev nD) → Dat τ (Elt F) Unit ℕ (UR sig nD τ) ℕ (cfgs p) c) (c : Dev nD) (b : Ref sig .tc) :
    Buf (Elt F) ((c.tc : Thread nD τ).loc b) :=
  StableHlo.after (tailOps (F := F)).flatten
    (Pipeline.withArrays specOut c (V0 m c) fun i => (dats 0 c).arrAt (outW i) cfg0.N) (Proc.devRef .tc b)

/-- The later stretches touch TensorCore references only, and none of the five input arrays. -/
theorem tail_sub : ∀ ops ∈ (tailOps : List (List (HloOp τ sig (Elt F)))), ∀ op ∈ ops,
    op.bufs ⊆ Pipeline.tailRefsBut sig Pipeline.Prefetch.none specOut inRefs := by
  intro ops hops op hop
  simp only [tailOps, List.mem_cons, List.mem_nil_iff, or_false] at hops
  refine Pipeline.sub_tailRefsBut Pipeline.Prefetch.none specOut inRefs op ?_ (fun k => k.elim0) ?_
  · rcases hops with rfl | rfl | rfl | rfl
    · exact (List.forall_iff_forall_mem.mp hostOps1_sub) op hop
    · exact (List.forall_iff_forall_mem.mp hostOps1_1_sub) op hop
    · exact (List.forall_iff_forall_mem.mp hostOps1_2_sub) op hop
    · exact (List.forall_iff_forall_mem.mp hostOps1_3_sub) op hop
  · intro b hb
    simp only [inRefs, Finset.mem_insert, Finset.mem_singleton] at hb
    rcases hops with rfl | rfl | rfl | rfl
    · simp only [hostOps1, List.mem_cons, List.mem_nil_iff, or_false] at hop
      rcases hop with rfl | rfl | rfl | rfl | rfl | rfl | rfl | rfl | rfl | rfl
      all_goals
        rcases hb with rfl | rfl | rfl | rfl | rfl <;>
        simp only [StableHlo.nullary_bufs, StableHlo.unary_bufs, StableHlo.binary_bufs, StableHlo.ternary_bufs, Finset.mem_insert, Finset.mem_singleton, not_or] <;>
        (repeat' constructor) <;> exact StableHlo.devRef_ne_of_ne (by decide)
    · simp only [hostOps1_1, List.mem_cons, List.mem_nil_iff, or_false] at hop
      rcases hop with rfl | rfl
      all_goals
        rcases hb with rfl | rfl | rfl | rfl | rfl <;>
        simp only [StableHlo.nullary_bufs, StableHlo.unary_bufs, StableHlo.binary_bufs, StableHlo.ternary_bufs, Finset.mem_insert, Finset.mem_singleton, not_or] <;>
        (repeat' constructor) <;> exact StableHlo.devRef_ne_of_ne (by decide)
    · simp only [hostOps1_2, List.mem_cons, List.mem_nil_iff, or_false] at hop
      rcases hop with rfl | rfl
      all_goals
        rcases hb with rfl | rfl | rfl | rfl | rfl <;>
        simp only [StableHlo.nullary_bufs, StableHlo.unary_bufs, StableHlo.binary_bufs, StableHlo.ternary_bufs, Finset.mem_insert, Finset.mem_singleton, not_or] <;>
        (repeat' constructor) <;> exact StableHlo.devRef_ne_of_ne (by decide)
    · simp only [hostOps1_3, List.mem_cons, List.mem_nil_iff, or_false] at hop
      rcases hop with rfl | rfl
      all_goals
        rcases hb with rfl | rfl | rfl | rfl | rfl <;>
        simp only [StableHlo.nullary_bufs, StableHlo.unary_bufs, StableHlo.binary_bufs, StableHlo.ternary_bufs, Finset.mem_insert, Finset.mem_singleton, not_or] <;>
        (repeat' constructor) <;> exact StableHlo.devRef_ne_of_ne (by decide)

/-- They allocate nothing. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop

/-- And write neither output array (each writes only its own result buffer). -/
theorem tail_keeps : ∀ ops ∈ (tailOps : List (List (HloOp τ sig (Elt F)))), ∀ op ∈ ops,
    ∀ w, Proc.devRef .tc (Pipeline.arrRef specOut w) ∉ op.writes := by
  intro ops hops op hop
  simp only [tailOps, List.mem_cons, List.mem_nil_iff, or_false] at hops
  rcases hops with rfl | rfl | rfl | rfl
  · simp only [hostOps1, List.mem_cons, List.mem_nil_iff, or_false] at hop
    rcases hop with rfl | rfl | rfl | rfl | rfl | rfl | rfl | rfl | rfl | rfl
    all_goals intro w; fin_cases w <;> simp only [StableHlo.nullary_writes, StableHlo.unary_writes, StableHlo.binary_writes, StableHlo.ternary_writes, Finset.mem_singleton] <;> exact StableHlo.devRef_ne_of_ne (by decide)
  · simp only [hostOps1_1, List.mem_cons, List.mem_nil_iff, or_false] at hop
    rcases hop with rfl | rfl
    all_goals intro w; fin_cases w <;> simp only [StableHlo.nullary_writes, StableHlo.unary_writes, StableHlo.binary_writes, StableHlo.ternary_writes, Finset.mem_singleton] <;> exact StableHlo.devRef_ne_of_ne (by decide)
  · simp only [hostOps1_2, List.mem_cons, List.mem_nil_iff, or_false] at hop
    rcases hop with rfl | rfl
    all_goals intro w; fin_cases w <;> simp only [StableHlo.nullary_writes, StableHlo.unary_writes, StableHlo.binary_writes, StableHlo.ternary_writes, Finset.mem_singleton] <;> exact StableHlo.devRef_ne_of_ne (by decide)
  · simp only [hostOps1_3, List.mem_cons, List.mem_nil_iff, or_false] at hop
    rcases hop with rfl | rfl
    all_goals intro w; fin_cases w <;> simp only [StableHlo.nullary_writes, StableHlo.unary_writes, StableHlo.binary_writes, StableHlo.ternary_writes, Finset.mem_singleton] <;> exact StableHlo.devRef_ne_of_ne (by decide)

/-- THE STRETCHES AFTER THE REGION: from the region's exit — the boundary, the proof data's arrays after the last point,
    the bypassing buffers at their region-entry contents — the four stretches run within the two output arrays and the
    bypassing buffers, the six input windows' shares set aside, and hand back the arrays unchanged and the bypassing
    buffers at `tailV`. -/
theorem htail (dats : (p : Fin 1) → (c : Dev nD) → Dat τ (Elt F) Unit ℕ (UR sig nD τ) ℕ (cfgs p) c)
    (hq0 : ∀ c, (dats 0 c).q 0 = fullShare.left) (hq1 : ∀ c, (dats 0 c).q 1 = fullShare.right)
    (hq : ∀ c w, 2 ≤ w.val → (dats 0 c).q w = fullShare) (c : Dev nD) (Q' : PUnit → sProp 𝕄) :
    iprop((iprop((dats 0 c).arrays ((dats 0 c).arrAt · cfg0.N)
              ∗ Pipeline.unscopedRestP (Ix := Unit) (Name := ℕ) (U := UR sig nD τ) (Lvl := ℕ) Pipeline.Prefetch.none spec0 c (tailV m dats c)) -∗ Q' ⟨⟩)
        ∗ boundary (c.tc : Thread nD τ) ∗ (dats 0 c).arrays ((dats 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (pcfgs (F := F)) defs₀) (Variants.lift Variants.none) (c.tc : Thread nD τ) none) Set.univ
          (Pipeline.chain ((tailOps (F := F)).map StableHlo.seq)) Q' := by
  have hZ : ∀ W : (b : Ref sig .tc) → Buf (Elt F) ((c.tc : Thread nD τ).loc b),
      (Pipeline.unscopedRestP (Ix := Unit) (Name := ℕ) (U := UR sig nD τ) (Lvl := ℕ) Pipeline.Prefetch.none spec0 c W : sProp 𝕄)
        = bigSep (Pipeline.restRefsP sig Pipeline.Prefetch.none specOut \ inRefs) fun b => ((c.tc : Thread nD τ).loc b) ↦{fullShare} W b := by
    intro W; rw [rest_eq]; rfl
  rw [arrays_chain (dats 0 c), Gen.bigSep_W0, share_0 _ (hq0 c), share_1 _ (hq1 c), share_2 _ (hq c), share_3 _ (hq c),
    share_4 _ (hq c), share_5 _ (hq c), share_6, share_7, hZ, hZ]
  iintro ⟨Hk, Hb, ⟨H0, H1, H2, H3, H4, H5, H6, H7⟩, HZ⟩
  iapply (Pipeline.tail_seqs_but (pcfgs (F := F)) defs₀ Variants.none Pipeline.Prefetch.none specOut specOut_inj inRefs c (V0 m c)
    (fun i => (dats 0 c).arrAt (outW i) cfg0.N) tailOps tail_sub tail_fresh tail_keeps Q')
  rw [arrPts_out]
  isplitl [Hk H0 H1 H2 H3 H4 H5]
  · iintro ⟨⟨H6, H7⟩, HR⟩
    iapply Hk
    isplitr [HR]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · iexact HR
  · isplitl [Hb]; · iexact Hb
    isplitl [H6 H7]
    · isplitl [H6]; · iexact H6
      iexact H7
    · iexact HZ

/-! ## The run -/

/-- THE RUN of @main around the region, for any proof data that holds the scaled embeddings at the left half of the share
    for window 0 and the right half for window 1, every other input array at the full share (`hq0`, `hq1`, `hq`), owes
    nothing (`howed`), names the region-entry contents as its arrays (`hA`), and whose invariant is entered from and
    left to the class invariant (`hin`, `hout`): every weakly fair execution terminates, every array of the pipeline
    ends at what the library computes from the proof data, and every buffer that bypasses the region at what the four
    later stretches leave (`tailV`). -/
theorem run_shared (dats : (p : Fin 1) → (c : Dev nD) → Dat τ (Elt F) Unit ℕ (UR sig nD τ) ℕ (cfgs p) c)
    (hbody : ∀ c, Pipeline.BodyObligationLoose (dats 0 c) defs₀ Variants.none () Set.univ)
    (hq0 : ∀ c, (dats 0 c).q 0 = fullShare.left) (hq1 : ∀ c, (dats 0 c).q 1 = fullShare.right)
    (hq : ∀ c w, 2 ≤ w.val → (dats 0 c).q w = fullShare)
    (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ) (fun r => ∀ c : Dev nD,
      (∀ w, r.2.mem ((spec0 w).arr.view.loc (c.tc : Thread nD τ)) = (dats 0 c).arrAt w cfg0.N)
      ∧ ∀ b ∈ Pipeline.restRefs sig spec0, r.2.mem ((c.tc : Thread nD τ).loc b) = tailV m dats c b) := by
  classical
  exact Pipeline.θ_run_region_pf_tail (fun q => (cfgs q).toPCfg (Val := Elt F)) (fun q => (cfgs q).toPCfg_adm) dats () cellOf_inj (0 : Fin 1)
    winFacts₀0 (Pipeline.OwnSemFacts.none spec0) (Pipeline.PreFacts.none _) emb₁ defs₀ Variants.none m ρ main
    (fun _ => Pipeline.chain ((tailOps (F := F)).map StableHlo.seq)) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m dats hq0 hq1 hq hA)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (tailV m dats c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := htail m dats hq0 hq1 hq)
    (QY := fun c s => ∀ b ∈ Pipeline.restRefsP sig Pipeline.Prefetch.none spec0, s.mem ((c.tc : Thread nD τ).loc b) = tailV m dats c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (tailV m dats c) s')
      isplitl [HU] <;> iassumption)
    (hQ := fun s h c => ⟨(h c).1, Pipeline.rest_of_restP Pipeline.Prefetch.none spec0 _ c (tailV m dats c) s (fun k => k.elim0) (h c).2.1 (h c).2.2⟩)

end Cert.KernelIdeal.Hand

end
-- ==== Proof.KI.Frame.lean ====
/-
  The frame of the kernel program at any float instance: with the proof data of the pallas_call plugged into the launch
  for windows that share an array, every weakly fair execution of @main terminates, and the three argument arrays end
  as they were launched — they bypass the region (no window stages them) and none of the six stretches of host
  operations writes them.
-/
import proofs.«135937_j90099823936181_2_alg».proof.Proof.KI.Body
import proofs.«135937_j90099823936181_2_alg».proof.Proof.KI.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run: every array of the pipeline ends at what the library computes from the proof data, every buffer that
    bypasses the region at what the four later stretches leave. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = tailV m (dats m) c b) :=
  run_shared m ρ (dats m) (fun c => (body_obligation m c).loose) (fun _ => rfl) (fun _ => rfl)
    (fun c w hw => by
      rcases w with ⟨n, hn⟩
      match n, hn, hw with
      | 0, _, hw => exact absurd hw (by show ¬2 ≤ 0; decide)
      | 1, _, hw => exact absurd hw (by show ¬2 ≤ 1; decide)
      | 2, _, _ => rfl
      | 3, _, _ => rfl
      | 4, _, _ => rfl
      | 5, _, _ => rfl
      | 6, _, _ => rfl
      | 7, _, _ => rfl
      | n + 8, hn, _ => exact absurd hn (by have hW : (cfgs 0).W = 8 := rfl; omega))
    (fun _ _ => rfl) (A_eq m) (hin m) (hout m)

/-- No operation before the region writes an argument array. -/
theorem pre_keeps_args (r : Ref sig .tc) (hr : r = main_arg0 ∨ r = main_arg1 ∨ r = main_arg2) :
    ∀ ops ∈ ([hostOps0, hostOps0_1] : List (List (HloOp τ sig (Elt F)))), ∀ op ∈ ops, Proc.devRef .tc r ∉ op.writes := by
  intro ops hops op hop
  simp only [List.mem_cons, List.mem_nil_iff, or_false] at hops
  rcases hops with rfl | rfl
  · simp only [hostOps0, List.mem_cons, List.mem_nil_iff, or_false] at hop
    rcases hop with rfl | rfl | rfl | rfl | rfl
    all_goals rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps0_1, List.mem_cons, List.mem_nil_iff, or_false] at hop
    rcases hop with rfl | rfl | rfl | rfl | rfl | rfl | rfl | rfl | rfl | rfl
    all_goals rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)

/-- Nor does any after it. -/
theorem tail_keeps_args (r : Ref sig .tc) (hr : r = main_arg0 ∨ r = main_arg1 ∨ r = main_arg2) :
    ∀ ops ∈ (tailOps : List (List (HloOp τ sig (Elt F)))), ∀ op ∈ ops, Proc.devRef .tc r ∉ op.writes := by
  intro ops hops op hop
  simp only [tailOps, List.mem_cons, List.mem_nil_iff, or_false] at hops
  rcases hops with rfl | rfl | rfl | rfl
  · simp only [hostOps1, List.mem_cons, List.mem_nil_iff, or_false] at hop
    rcases hop with rfl | rfl | rfl | rfl | rfl | rfl | rfl | rfl | rfl | rfl
    all_goals rcases hr with rfl | rfl | rfl <;> simp only [StableHlo.nullary_writes, StableHlo.unary_writes, StableHlo.binary_writes, StableHlo.ternary_writes, Finset.mem_singleton] <;> exact StableHlo.devRef_ne_of_ne (by decide)
  · simp only [hostOps1_1, List.mem_cons, List.mem_nil_iff, or_false] at hop
    rcases hop with rfl | rfl
    all_goals rcases hr with rfl | rfl | rfl <;> simp only [StableHlo.nullary_writes, StableHlo.unary_writes, StableHlo.binary_writes, StableHlo.ternary_writes, Finset.mem_singleton] <;> exact StableHlo.devRef_ne_of_ne (by decide)
  · simp only [hostOps1_2, List.mem_cons, List.mem_nil_iff, or_false] at hop
    rcases hop with rfl | rfl
    all_goals rcases hr with rfl | rfl | rfl <;> simp only [StableHlo.nullary_writes, StableHlo.unary_writes, StableHlo.binary_writes, StableHlo.ternary_writes, Finset.mem_singleton] <;> exact StableHlo.devRef_ne_of_ne (by decide)
  · simp only [hostOps1_3, List.mem_cons, List.mem_nil_iff, or_false] at hop
    rcases hop with rfl | rfl
    all_goals rcases hr with rfl | rfl | rfl <;> simp only [StableHlo.nullary_writes, StableHlo.unary_writes, StableHlo.binary_writes, StableHlo.ternary_writes, Finset.mem_singleton] <;> exact StableHlo.devRef_ne_of_ne (by decide)

/-- So the region finds each argument array at its launch contents, -/
theorem V_arg (c : Dev nD) (r : Ref sig .tc) (hr : r = main_arg0 ∨ r = main_arg1 ∨ r = main_arg2) :
    V m c r = m ((c : Thread nD τ).loc r) := by
  show StableHlo.after (List.flatten [hostOps0, hostOps0_1]) (fun b => m (c, b)) (Proc.devRef .tc r) = _
  rw [StableHlo.after_of_forall_not_mem _ _ fun op hop => by
    obtain ⟨ops, hops, hop'⟩ := List.mem_flatten.mp hop
    exact pre_keeps_args r hr ops hops op hop']

/-- and the later stretches leave it there: an argument array is no output array of the pipeline. -/
theorem tailV_arg (dats : (p : Fin 1) → (c : Dev nD) → Dat τ (Elt F) Unit ℕ (UR sig nD τ) ℕ (cfgs p) c) (c : Dev nD)
    (r : Ref sig .tc) (hr : r = main_arg0 ∨ r = main_arg1 ∨ r = main_arg2) :
    tailV m dats c r = m ((c : Thread nD τ).loc r) := by
  unfold tailV
  rw [StableHlo.after_of_forall_not_mem _ _ fun op hop => by
    obtain ⟨ops, hops, hop'⟩ := List.mem_flatten.mp hop
    exact tail_keeps_args r hr ops hops op hop']
  rw [Pipeline.withArrays_of_ne specOut c (V0 m c) _ r fun w => by
    rcases hr with rfl | rfl | rfl <;> fin_cases w <;> decide]
  exact V_arg m c r hr

theorem arg0_rest : main_arg0 ∈ Pipeline.restRefs sig spec0 := by decide
theorem arg1_rest : main_arg1 ∈ Pipeline.restRefs sig spec0 := by decide
theorem arg2_rest : main_arg2 ∈ Pipeline.restRefs sig spec0 := by decide

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 arg0_rest).trans (tailV_arg m (dats m) c main_arg0 (.inl rfl)),
     ((h c).2 main_arg1 arg1_rest).trans (tailV_arg m (dats m) c main_arg1 (.inr (.inl rfl))),
     ((h c).2 main_arg2 arg2_rest).trans (tailV_arg m (dats m) c main_arg2 (.inr (.inr rfl)))⟩) (run_main m ρ)

end Cert.KernelIdeal.Hand

end
-- ==== Proof.KI.Result.lean ====
/-
  The idealized kernel's result: every weakly fair execution of @main ends with the result buffer at the
  specification's kernel reading of the argument arrays — the mean, over the rows that count, of the kept losses the
  pallas_call left in its first output array, counted by the kept mask it left in its second — and the arguments as
  launched.
-/
import proofs.«135937_j90099823936181_2_alg».proof.Proof.KI.Extrema
import proofs.«135937_j90099823936181_2_alg».proof.Proof.KI.Frame

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen
open Idealize.ShloMosaic.ValueIdx
open Cert.Spec

variable (m : (ℓ : Loc nD τ sig) → Buf (Elt Ideal) ℓ) (ρ : Dev nD → PrngReg)

theorem v18_rest : main_v18 ∈ Pipeline.restRefs sig spec0 := by decide

/-- The buffers at the region's exit: the two output arrays as the run left them, every other buffer as the region
    found it. -/
abbrev exitW (c : Dev nD) : Valuation τ sig (Elt Ideal) :=
  Pipeline.withArrays specOut c (V0 m c) fun i => (dats m 0 c).arrAt (outW i) cfg0.N

theorem exitW_out6 (c : Dev nD) : exitW m c (Proc.devRef .tc main_v10_0) = (dats m 0 c).arrAt 6 cfg0.N :=
  Pipeline.withArrays_arr specOut specOut_inj c (V0 m c) (fun i => (dats m 0 c).arrAt (outW i) cfg0.N) 0
theorem exitW_out7 (c : Dev nD) : exitW m c (Proc.devRef .tc main_v10_1) = (dats m 0 c).arrAt 7 cfg0.N :=
  Pipeline.withArrays_arr specOut specOut_inj c (V0 m c) (fun i => (dats m 0 c).arrAt (outW i) cfg0.N) 1

/-- What the later stretches leave in the result buffer. -/
theorem tailV_v18 (c : Dev nD) :
    (tailV m (dats m) c main_v18 : S_.Idx → EReal) = fun _ => finalK (xS m c) (labL m c) (grpG m c) := by
  show (StableHlo.after (tailOps (F := Ideal)).flatten (exitW m c) (Proc.devRef .tc main_v18) : S_.Idx → EReal) = _
  rw [tail_value]
  funext _
  unfold finalK
  have e6 : ∀ r : Fin 8192, (exitW m c (Proc.devRef .tc main_v10_0) : S8192x1.Idx → EReal) (ix2 r (0 : Fin 1))
      = (if inclK (xS m c) (labL m c) (grpG m c) r then lossK (xS m c) (labL m c) (grpG m c) r else lit 0x00000000#32) := fun r => by
    rw [exitW_out6]; exact out6_final m c r
  have e7 : ∀ r : Fin 8192, (exitW m c (Proc.devRef .tc main_v10_1) : S8192x1.Idx → EReal) (ix2 r (0 : Fin 1))
      = (if inclK (xS m c) (labL m c) (grpG m c) r then (1 : EReal) else 0) := fun r => by
    rw [exitW_out7]; exact out7_final m c r
  have s6 : (∑ r : Fin 8192, (exitW m c (Proc.devRef .tc main_v10_0) : S8192x1.Idx → EReal) (ix2 r (0 : Fin 1)) : EReal)
      = ∑ r : Fin 8192, (if inclK (xS m c) (labL m c) (grpG m c) r then lossK (xS m c) (labL m c) (grpG m c) r else lit 0x00000000#32) :=
    Finset.sum_congr rfl fun r _ => e6 r
  have s7 : (∑ r : Fin 8192, (exitW m c (Proc.devRef .tc main_v10_1) : S8192x1.Idx → EReal) (ix2 r (0 : Fin 1)) : EReal)
      = ∑ r : Fin 8192, (if inclK (xS m c) (labL m c) (grpG m c) r then (1 : EReal) else 0) :=
    Finset.sum_congr rfl fun r _ => e7 r
  rw [s6, s7]

/-- THE KERNEL'S VALUE: the result buffer ends at the specification's kernel reading; the arguments as launched. -/
theorem kernel_value : θ_run (defs (F := Ideal)) (onTc (τ := τ) (main (F := Ideal))) ⟨m, fun _ => 0, ρ⟩ (fun r => ∀ c : Dev nD,
      r.2.mem ((c.tc : Thread nD τ).loc main_v18) = (fun _ => finalK (xS m c) (labL m c) (grpG m c) : S_.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v18 v18_rest).trans (tailV_v18 m c),
     ((h c).2 main_arg0 arg0_rest).trans (tailV_arg m (dats m) c main_arg0 (.inl rfl)),
     ((h c).2 main_arg1 arg1_rest).trans (tailV_arg m (dats m) c main_arg1 (.inr (.inl rfl))),
     ((h c).2 main_arg2 arg2_rest).trans (tailV_arg m (dats m) c main_arg2 (.inr (.inr rfl)))⟩) (run_main m ρ)

end Cert.KernelIdeal.Hand

end
-- ==== Proof.RefSide.lean ====
/-
  The reference's result as the specification's function of the argument arrays (the reference's reading): the stages
  of the generated read-back, composed index by index, are the scaled rows, the masked distances, the whole-row
  extrema, the row losses and the mean over the rows that count.
-/
import proofs.«135937_j90099823936181_2_alg».proof.Defs
import proofs.«135937_j90099823936181_2_alg».proof.Proof.RefRun
import proofs.«135937_j90099823936181_2_alg».proof.Proof.RefRead
import proofs.«135937_j90099823936181_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.TcCoe Idealize.SL.Sem
open Cert.ReferenceIdeal Cert.ReferenceIdeal.Gen

section Lemmas

open Idealize.ShloMosaic.ValueIdx

/-! ## One-bit words -/

theorem ofBool_eq_one_iff (b : Bool) : BitVec.ofBool b = 1#1 ↔ b = true := by cases b <;> decide

/-- An integer equality test answers the one bit exactly when the words agree. -/
theorem cmpi_eq_one_iff {w : Nat} (a b : BitVec w) : IntOp.cmpi .eq a b = 1#1 ↔ a = b := by
  show BitVec.ofBool (a == b) = 1#1 ↔ a = b
  rw [ofBool_eq_one_iff, beq_iff_eq]

/-- "Greater than" on the extended reals answers the one bit exactly when the second operand is below the first. -/
theorem cmp_ogt_eq_one_iff (x y : EReal) : Ideal.cmp .ogt x y = 1#1 ↔ y < x := by
  show BitVec.ofBool (decide (y < x)) = 1#1 ↔ y < x
  rw [ofBool_eq_one_iff, decide_eq_true_iff]

theorem not_eq_one_iff (b : BitVec 1) : ~~~b = 1#1 ↔ ¬ b = 1#1 := by
  rcases BitVec.eq_zero_or_eq_one b with h | h <;> subst h <;> decide

theorem andi_eq_one_iff (a b : BitVec 1) : IntOp.andi a b = 1#1 ↔ a = 1#1 ∧ b = 1#1 := by
  rcases BitVec.eq_zero_or_eq_one a with h | h <;> rcases BitVec.eq_zero_or_eq_one b with h' | h' <;>
    subst h <;> subst h' <;> decide

theorem ori_eq_one_iff (a b : BitVec 1) : IntOp.ori a b = 1#1 ↔ a = 1#1 ∨ b = 1#1 := by
  rcases BitVec.eq_zero_or_eq_one a with h | h <;> rcases BitVec.eq_zero_or_eq_one b with h' | h' <;>
    subst h <;> subst h' <;> decide

theorem select_eq_ite {α : Type} (c : BitVec 1) (a b : α) : Scalar.select c a b = if c = 1#1 then a else b := rfl

/-- Two conditionals on equivalent conditions with equal branches are equal, whatever decides the conditions. -/
theorem ite_congr_iff {α : Type} {p q : Prop} {dp : Decidable p} {dq : Decidable q} (h : p ↔ q) {a b a' b' : α}
    (ht : a = a') (he : b = b') : @ite α p dp a b = @ite α q dq a' b' := by
  subst ht; subst he
  by_cases hp : p
  · rw [if_pos hp, if_pos (h.1 hp)]
  · rw [if_neg hp, if_neg (fun hq => hp (h.2 hq))]

/-- The row number plus zero equals the column number, as 32-bit words, exactly when row and column agree. -/
theorem iota_eq_iff (r c : Fin 8192) :
    IntOp.addi (BitVec.ofNat 32 r.val) 0#32 = BitVec.ofNat 32 c.val ↔ r = c := by
  show BitVec.ofNat 32 r.val + 0#32 = BitVec.ofNat 32 c.val ↔ r = c
  rw [BitVec.add_zero]
  constructor
  · intro h
    have h2 := congrArg BitVec.toNat h
    rw [BitVec.toNat_ofNat, BitVec.toNat_ofNat] at h2
    have hr : r.val < 2 ^ 32 := Nat.lt_of_lt_of_le r.isLt (by norm_num)
    have hc : c.val < 2 ^ 32 := Nat.lt_of_lt_of_le c.isLt (by norm_num)
    rw [Nat.mod_eq_of_lt hr, Nat.mod_eq_of_lt hc] at h2
    exact Fin.ext h2
  · rintro rfl; rfl

/-- A fold of "or" from the zero bit over a finite set is the one bit exactly when some element is. -/
theorem fold_ori_eq_one_iff {ι : Type} [DecidableEq ι] (s : Finset ι) (f : ι → BitVec 1) :
    s.fold IntOp.ori 0#1 f = 1#1 ↔ ∃ c ∈ s, f c = 1#1 := by
  induction s using Finset.induction_on with
  | empty =>
    rw [Finset.fold_empty]
    constructor
    · intro h; exact absurd h (by decide)
    · rintro ⟨c, hc, _⟩; simp at hc
  | insert a s ha ih =>
    rw [Finset.fold_insert ha, ori_eq_one_iff, ih]
    constructor
    · rintro (h | ⟨c, hc, h⟩)
      · exact ⟨a, Finset.mem_insert_self a s, h⟩
      · exact ⟨c, Finset.mem_insert_of_mem hc, h⟩
    · rintro ⟨c, hc, h⟩
      rcases Finset.mem_insert.1 hc with rfl | hc'
      · exact Or.inl h
      · exact Or.inr ⟨c, hc', h⟩

theorem fold_ori_univ_eq_one_iff (f : Fin 8192 → BitVec 1) :
    (Finset.univ : Finset (Fin 8192)).fold IntOp.ori 0#1 f = 1#1 ↔ ∃ c, f c = 1#1 := by
  rw [fold_ori_eq_one_iff]
  exact ⟨fun ⟨c, _, h⟩ => ⟨c, h⟩, fun ⟨c, h⟩ => ⟨c, Finset.mem_univ c, h⟩⟩

/-- The one-bit word read as an unsigned number: one or zero. -/
theorem uitofp_bit (b : BitVec 1) : FloatOps.uitofp (F := Ideal) .f32 b = if b = 1#1 then (1 : EReal) else 0 := by
  show (((b.toNat : ℕ) : ℝ) : EReal) = _
  rcases BitVec.eq_zero_or_eq_one b with h | h <;> subst h
  · rw [if_neg (by decide)]; simp
  · rw [if_pos rfl]; simp

/-! ## A reduce along the rows of the square array -/

/-- The reduced index r with column k put back is (r, k). -/
theorem lift_ix2 (h : (⟨2, ![8192, 8192]⟩ : Shape).Reduces [1] (⟨1, ![8192]⟩ : Shape)) (r : Fin 8192)
    (k : Fin ((⟨2, ![8192, 8192]⟩ : Shape).size 1)) : h.lift (ix1 r) k = ix2 r (⟨k.val, k.isLt⟩ : Fin 8192) := by
  funext c; apply Fin.ext
  fin_cases c <;> rfl

/-- A one-operand reduce of the square array along axis 1 with a commutative and associative body, at row r: the fold
    of the body from the initial value over the row's columns. -/
theorem hostReduce_row {α : Type} (f : α → α → α) [Std.Commutative f] [Std.Associative f]
    (x : (⟨2, ![8192, 8192]⟩ : Shape).Idx → α) (init : (⟨0, ![]⟩ : Shape).Idx → α)
    (h' : (⟨2, ![8192, 8192]⟩ : Shape).ReducesTo [1] (⟨1, ![8192]⟩ : Shape)) (hu : 0 < (⟨0, ![]⟩ : Shape).numel)
    (r : Fin 8192) :
    Host.reduce f x init h' hu (ix1 r)
      = (Finset.univ : Finset (Fin 8192)).fold f (init (Shape.Idx.first hu)) (fun c => x (ix2 r c)) := by
  have h : (⟨2, ![8192, 8192]⟩ : Shape).Reduces [1] (⟨1, ![8192]⟩ : Shape) := ⟨h'.1, Nat.one_pos, h'.2⟩
  rw [Host.reduce_eq_fold_single f x init h' h hu]
  have hf : (x ∘ h.lift (ix1 r)) = fun k : Fin 8192 => x (ix2 r k) := funext fun k => congrArg x (lift_ix2 h r k)
  exact congrArg (fun g => Finset.fold f (init (Shape.Idx.first hu)) g (Finset.univ : Finset (Fin 8192))) hf

/-! ## A sum over a rank-1 index set -/

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The stages of the read-back, index by index -/

section Stages

open Cert.ReferenceIdeal.ReadP

variable (x0 : (⟨S8192x128, .f32⟩ : BufTy).Contents (Elt Ideal)) (x1 x2 : (⟨S8192, .i32⟩ : BufTy).Contents (Elt Ideal))

/-- The embeddings over plain indices. -/
abbrev emb : Fin 8192 → Fin 128 → EReal := fun r k => x0 (ix2 r k)
/-- An integer argument (labels, groups) over plain indices. -/
abbrev lab (x : (⟨S8192, .i32⟩ : BufTy).Contents (Elt Ideal)) : Fin 8192 → BitVec 32 := fun r => x (ix1 r)

/-- The scaled rows: entry (r, k) of the quotient is the specification's. -/
theorem v4_at (r : Fin 8192) (k : Fin 128) :
    val_main_v4 (F := Ideal) x0 (ix2 r k) = Spec.xn (emb x0) r k := by
  rw [val_main_v4_apply, val_main_v3_apply, val_main_v2_apply, val_main_v0_apply, val_main_call0_v2_apply,
    val_main_call0_v1_apply, val_main_v1_apply, val_main_cst_apply, val_main_call0_cst_apply]
  have hi : ∀ k' : Fin 128, idx_main_call0_v1 (idx_main_call0_v2 (idx_main_v3 (ix2 r k))) k' = ix2 r k' := fun k' =>
    funext fun a => Fin.ext (by match a with | ⟨0, _⟩ => rfl | ⟨1, _⟩ => rfl)
  simp only [val_main_call0_v0_apply, hi, Ideal.hostDivf_def, Ideal.maximumf_def, Ideal.hostUnary_sqrt_def, Ideal.mulf_def,
    Ideal.ofBits_def]
  rfl

/-- The distance of rows r and c. -/
theorem v8_at (r c : Fin 8192) :
    val_main_v8 (F := Ideal) x0 (ix2 r c) = Spec.dist (Spec.xn (emb x0)) r c := by
  rw [val_main_v8_apply, val_main_v7_apply, val_main_cst_0_apply, val_main_v6_apply]
  have hl : ∀ k : Fin 128, lidx_main_v6 (ix2 r c) k = ix2 r k := fun k =>
    funext fun a => Fin.ext (by match a with | ⟨0, _⟩ => rfl | ⟨1, _⟩ => rfl)
  have hr : ∀ k : Fin 128, idx_main_v5 (ridx_main_v6 (ix2 r c) k) = ix2 c k := fun k =>
    funext fun a => Fin.ext (by match a with | ⟨0, _⟩ => rfl | ⟨1, _⟩ => rfl)
  simp only [val_main_v5_apply, hl, hr, v4_at, Ideal.subf_def, Ideal.ofBits_def]
  rfl

/-! ### The three masks -/

theorem v18_iff (r c : Fin 8192) : val_main_v18 (F := Ideal) x1 (ix2 r c) = 1#1 ↔ x1 (ix1 r) = x1 (ix1 c) := by
  have h1 : idx_main_v14 (idx_main_v16 (ix2 r c)) = ix1 r := funext fun a => Fin.ext (by match a with | ⟨0, _⟩ => rfl)
  have h2 : idx_main_v15 (idx_main_v17 (ix2 r c)) = ix1 c := funext fun a => Fin.ext (by match a with | ⟨0, _⟩ => rfl)
  rw [val_main_v18_apply, val_main_v16_apply, val_main_v14_apply, val_main_v17_apply, val_main_v15_apply, h1, h2]
  exact cmpi_eq_one_iff _ _

theorem v26_iff (r c : Fin 8192) : val_main_v26 (F := Ideal) x2 (ix2 r c) = 1#1 ↔ x2 (ix1 r) = x2 (ix1 c) := by
  have h1 : idx_main_v22 (idx_main_v24 (ix2 r c)) = ix1 r := funext fun a => Fin.ext (by match a with | ⟨0, _⟩ => rfl)
  have h2 : idx_main_v23 (idx_main_v25 (ix2 r c)) = ix1 c := funext fun a => Fin.ext (by match a with | ⟨0, _⟩ => rfl)
  rw [val_main_v26_apply, val_main_v24_apply, val_main_v22_apply, val_main_v25_apply, val_main_v23_apply, h1, h2]
  exact cmpi_eq_one_iff _ _

/-- The diagonal mask. -/
theorem v13_iff (r c : Fin 8192) : val_main_v13 (F := Ideal) (ix2 r c) = 1#1 ↔ r = c := by
  rw [val_main_v13_apply, val_main_v12_apply, val_main_v9_apply, val_main_v11_apply, val_main_c_apply, val_main_v10_apply,
    cmpi_eq_one_iff]
  exact iota_eq_iff r c

theorem v20_iff (r c : Fin 8192) : val_main_v20 (F := Ideal) x1 (ix2 r c) = 1#1 ↔ Spec.pos (lab x1) r c := by
  rw [val_main_v20_apply, andi_eq_one_iff, val_main_v19_apply, not_eq_one_iff, v18_iff, v13_iff]
  exact Iff.rfl

theorem v21_iff (r c : Fin 8192) : val_main_v21 (F := Ideal) x1 (ix2 r c) = 1#1 ↔ Spec.neg (lab x1) r c := by
  rw [val_main_v21_apply, not_eq_one_iff, v18_iff]
  exact Iff.rfl

theorem v27_iff (r c : Fin 8192) :
    val_main_v27 (F := Ideal) x1 x2 (ix2 r c) = 1#1 ↔ Spec.negsg (lab x1) (lab x2) r c := by
  rw [val_main_v27_apply, andi_eq_one_iff, v21_iff, v26_iff]
  exact Iff.rfl

/-! ### The three masked distances -/

theorem v29_at (r c : Fin 8192) :
    val_main_v29 (F := Ideal) x0 x1 (ix2 r c)
      = Spec.candAp (Spec.xn (emb x0)) (lab x1) (-(Spec.lit 0x4E6E6B28#32)) r c := by
  rw [val_main_v29_apply, val_main_call1_v0_apply, val_main_v28_apply, val_main_cst_1_apply, select_eq_ite]
  unfold Spec.candAp
  exact ite_congr_iff (v20_iff x1 r c) (v8_at x0 r c) rfl

theorem v31_at (r c : Fin 8192) :
    val_main_v31 (F := Ideal) x0 x1 x2 (ix2 r c) = Spec.candSg (Spec.xn (emb x0)) (lab x1) (lab x2) r c := by
  rw [val_main_v31_apply, val_main_call2_v0_apply, val_main_cst_3_apply, select_eq_ite]
  unfold Spec.candSg
  exact ite_congr_iff (v27_iff x1 x2 r c) (v8_at x0 r c) rfl

theorem v33_at (r c : Fin 8192) :
    val_main_v33 (F := Ideal) x0 x1 (ix2 r c) = Spec.candAll (Spec.xn (emb x0)) (lab x1) r c := by
  rw [val_main_v33_apply, val_main_call3_v0_apply, val_main_cst_5_apply, select_eq_ite]
  unfold Spec.candAll
  exact ite_congr_iff (v21_iff x1 r c) (v8_at x0 r c) rfl

/-! ### The whole-row extrema and the three "a candidate exists" bits -/

theorem v30_at (r : Fin 8192) :
    val_main_v30 (F := Ideal) x0 x1 (ix1 r) = Spec.apR (Spec.xn (emb x0)) (lab x1) r := by
  unfold val_main_v30 Spec.apR
  rw [hostReduce_row, val_main_cst_2_apply]
  exact Finset.fold_congr (fun c _ => v29_at x0 x1 r c)

theorem v32_at (r : Fin 8192) :
    val_main_v32 (F := Ideal) x0 x1 x2 (ix1 r) = Spec.sgR (Spec.xn (emb x0)) (lab x1) (lab x2) r := by
  unfold val_main_v32 Spec.sgR
  rw [hostReduce_row, val_main_cst_4_apply]
  exact Finset.fold_congr (fun c _ => v31_at x0 x1 x2 r c)

theorem v34_at (r : Fin 8192) :
    val_main_v34 (F := Ideal) x0 x1 (ix1 r) = Spec.allR (Spec.xn (emb x0)) (lab x1) r := by
  unfold val_main_v34 Spec.allR
  rw [hostReduce_row, val_main_cst_6_apply]
  exact Finset.fold_congr (fun c _ => v33_at x0 x1 r c)

theorem v35_iff (r : Fin 8192) : val_main_v35 (F := Ideal) x1 (ix1 r) = 1#1 ↔ ∃ c, Spec.pos (lab x1) r c := by
  unfold val_main_v35
  rw [hostReduce_row, val_main_c_7_apply, fold_ori_univ_eq_one_iff]
  exact exists_congr (fun c => v20_iff x1 r c)

theorem v36_iff (r : Fin 8192) :
    val_main_v36 (F := Ideal) x1 x2 (ix1 r) = 1#1 ↔ ∃ c, Spec.negsg (lab x1) (lab x2) r c := by
  unfold val_main_v36
  rw [hostReduce_row, val_main_c_8_apply, fold_ori_univ_eq_one_iff]
  exact exists_congr (fun c => v27_iff x1 x2 r c)

theorem v37_iff (r : Fin 8192) : val_main_v37 (F := Ideal) x1 (ix1 r) = 1#1 ↔ ∃ c, Spec.neg (lab x1) r c := by
  unfold val_main_v37
  rw [hostReduce_row, val_main_c_9_apply, fold_ori_univ_eq_one_iff]
  exact exists_congr (fun c => v21_iff x1 r c)

/-! ### The row losses and the rows that count -/

theorem v42_at (r : Fin 8192) :
    val_main_v42 (F := Ideal) x0 x1 x2 (ix1 r) = Spec.lossR (Spec.xn (emb x0)) (lab x1) (lab x2) r := by
  rw [val_main_v42_apply, val_main_v41_apply, val_main_v39_apply, val_main_v38_apply, val_main_v40_apply,
    val_main_cst_10_apply, val_main_call5_v0_apply, val_main_call5_cst_apply, select_eq_ite, v30_at, v32_at, v34_at]
  unfold Spec.lossR
  exact congrArg (fun t => max (Spec.apR (Spec.xn (emb x0)) (lab x1) r - t + Spec.lit 0x3DCCCCCD#32) (Spec.lit 0x00000000#32))
    (ite_congr_iff (v36_iff x1 x2 r) rfl rfl)

theorem v45_iff (r : Fin 8192) :
    val_main_v45 (F := Ideal) x0 x1 x2 (ix1 r) = 1#1
      ↔ Spec.lit 0x00000000#32 < Spec.lossR (Spec.xn (emb x0)) (lab x1) (lab x2) r := by
  rw [val_main_v45_apply, val_main_v44_apply, val_main_cst_11_apply, v42_at]
  exact cmp_ogt_eq_one_iff _ _

theorem v46_iff (r : Fin 8192) :
    val_main_v46 (F := Ideal) x0 x1 x2 (ix1 r) = 1#1 ↔ Spec.inclR (Spec.xn (emb x0)) (lab x1) (lab x2) r := by
  rw [val_main_v46_apply, andi_eq_one_iff, val_main_v43_apply, andi_eq_one_iff, v35_iff, v37_iff, v45_iff]
  exact Iff.rfl

theorem v47_at (r : Fin 8192) :
    val_main_v47 (F := Ideal) x0 x1 x2 (ix1 r)
      = if Spec.inclR (Spec.xn (emb x0)) (lab x1) (lab x2) r then (1 : EReal) else 0 := by
  rw [val_main_v47_apply, uitofp_bit]
  exact ite_congr_iff (v46_iff x0 x1 x2 r) rfl rfl

theorem v49_at (r : Fin 8192) :
    val_main_v49 (F := Ideal) x0 x1 x2 (ix1 r)
      = if Spec.inclR (Spec.xn (emb x0)) (lab x1) (lab x2) r then Spec.lossR (Spec.xn (emb x0)) (lab x1) (lab x2) r
        else Spec.lit 0x00000000#32 := by
  rw [val_main_v49_apply, val_main_call6_v1_apply, val_main_call6_v0_apply, val_main_cst_13_apply, select_eq_ite, v42_at]
  exact ite_congr_iff (v46_iff x0 x1 x2 r) rfl rfl

/-! ### The two totals -/

theorem v48_at (i : S_.Idx) :
    val_main_v48 (F := Ideal) x0 x1 x2 i
      = Spec.lit 0x00000000#32
        + ∑ r : Fin 8192, (if Spec.inclR (Spec.xn (emb x0)) (lab x1) (lab x2) r then (1 : EReal) else 0) := by
  rw [val_main_v48_apply, val_main_cst_12_apply, sum_idx1]
  simp only [v47_at]
  rfl

theorem v50_at (i : S_.Idx) :
    val_main_v50 (F := Ideal) x0 x1 x2 i
      = Spec.lit 0x00000000#32
        + ∑ r : Fin 8192, (if Spec.inclR (Spec.xn (emb x0)) (lab x1) (lab x2) r
            then Spec.lossR (Spec.xn (emb x0)) (lab x1) (lab x2) r else Spec.lit 0x00000000#32) := by
  rw [val_main_v50_apply, val_main_cst_14_apply, sum_idx1]
  simp only [v49_at]
  rfl

end Stages

end Lemmas

/-- The last stage of the reference's read-back is the specification's reference reading of the argument arrays. -/
theorem ref_value (x0 : (⟨S8192x128, .f32⟩ : BufTy).Contents (Elt Ideal)) (x1 x2 : (⟨S8192, .i32⟩ : BufTy).Contents (Elt Ideal)) :
    Cert.ReferenceIdeal.ReadP.val_main_v56 (F := Ideal) x0 x1 x2
      = fun _ => Cert.Spec.finalR (Cert.Spec.xn (fun r k => x0 (ValueIdx.ix2 r k))) (fun r => x1 (ValueIdx.ix1 r)) (fun r => x2 (ValueIdx.ix1 r)) := by
  funext i
  rw [ReadP.val_main_v56_apply, ReadP.val_main_v55_apply, ReadP.val_main_call8_v0_apply, ReadP.val_main_cst_18_apply,
    ReadP.val_main_v54_apply, ReadP.val_main_v51_apply, ReadP.val_main_v53_apply, ReadP.val_main_v52_apply,
    ReadP.val_main_call7_v0_apply, ReadP.val_main_cst_17_apply, ReadP.val_main_cst_15_apply, ReadP.val_main_cst_16_apply,
    v48_at, v50_at]
  rfl

end Cert.ReferenceIdeal.RefValue

end
-- ==== Proof.RefRunStages.lean ====
/-
  The run of the reference program read back stage by stage. The 91 operations of @main are cut into thirteen
  stretches; across a stretch only the buffers a later operation still reads are followed, each held at its stage of the
  read-back (one definition per operation, each over the earlier ones, never opened further than the stretch), so
  that no composed term of the whole program is ever formed. The stretches in a row are the program, and the last
  one leaves the result buffer at the last stage.
-/
import proofs.«135937_j90099823936181_2_alg».proof.Defs
import proofs.«135937_j90099823936181_2_alg».proof.Proof.RefRun
import proofs.«135937_j90099823936181_2_alg».proof.Proof.RefRead
import Idealize.ShloMosaic.Lib.StableHlo.Run
import Idealize.ShloMosaic.Lib.Pipeline.Frame

noncomputable section

namespace Cert.ReferenceIdeal.RefValue

namespace RunStages

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

section Stretches

/- A valuation of the device's buffers, and the contents of the three arguments at the launch. Each lemma below takes
   what the valuation holds at the buffers its stretch (or a later one) reads, and gives what the valuation after the
   stretch holds at the buffers still read later. Where a stretch's new stage sits under a change of buffer type
   (an inlined function's typed buffers), the stage on the right is opened down to the stages taken over and those are
   turned back into the valuation's own contents, so that the closing comparison never opens a stage taken over. -/
variable (V : Valuation τ sig (Elt F)) (A0 : (⟨S8192x128, .f32⟩ : BufTy).Contents (Elt F))
  (A1 A2 : (⟨S8192, .i32⟩ : BufTy).Contents (Elt F))

/-- Operations 0 to 9: the scaled rows. -/
abbrev s1 : List (HloOp τ sig (Elt F)) :=
  [ TRef.binary (TRef.of (T := ⟨S8192x128, .f32⟩) main_arg0) (TRef.of (T := ⟨S8192x128, .f32⟩) main_arg0) (TRef.of (T := ⟨S8192x128, .f32⟩) main_call0_v0) mulf,
    TRef.nullary (TRef.of (T := ⟨S_, .f32⟩) main_call0_cst) (constant S_ .f32 0x00000000#32),
    TRef.binary (TRef.of (T := ⟨S8192x128, .f32⟩) main_call0_v0) (TRef.of (T := ⟨S_, .f32⟩) main_call0_cst) (TRef.of (T := ⟨S8192, .f32⟩) main_call0_v1) (fun x v => Host.reduceAdd x v reducesTo_S8192x128_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v0) Host.sqrt,
    nullary main_cst (constant S_ .f32 0x2B8CBCCC#32),
    unary main_cst main_v1 (broadcastInDim S8192x1 ![] bcast_S_S8192x1 : (⟨S_, .f32⟩ : BufTy).Contents (Elt F) → (⟨S8192x1, .f32⟩ : BufTy).Contents (Elt F)),
    binary main_v0 main_v1 main_v2 (maximumf : (⟨S8192x1, .f32⟩ : BufTy).Contents (Elt F) → (⟨S8192x1, .f32⟩ : BufTy).Contents (Elt F) → (⟨S8192x1, .f32⟩ : BufTy).Contents (Elt F)),
    unary main_v2 main_v3 (broadcastInDim S8192x128 ![0, 1] bcast_S8192x1_S8192x128_0_1 : (⟨S8192x1, .f32⟩ : BufTy).Contents (Elt F) → (⟨S8192x128, .f32⟩ : BufTy).Contents (Elt F)),
    binary main_arg0 main_v3 main_v4 (Host.divf : (⟨S8192x128, .f32⟩ : BufTy).Contents (Elt F) → (⟨S8192x128, .f32⟩ : BufTy).Contents (Elt F) → (⟨S8192x128, .f32⟩ : BufTy).Contents (Elt F)) ]
theorem st1 (h_arg0 : V (Proc.devRef .tc main_arg0) = A0) (h_arg1 : V (Proc.devRef .tc main_arg1) = A1)
    (h_arg2 : V (Proc.devRef .tc main_arg2) = A2) :
    after s1 V (Proc.devRef .tc main_v4) = val_main_v4 (F := F) A0
    ∧ after s1 V (Proc.devRef .tc main_arg1) = A1
    ∧ after s1 V (Proc.devRef .tc main_arg2) = A2 := by
  refine ⟨?_, ?_, ?_⟩
  · after_results_simp
    rw [h_arg0]
    rfl
  · after_results_simp
    exact h_arg1
  · after_results_simp
    exact h_arg2

/-- Operations 10 to 14: the distances. -/
abbrev s2 : List (HloOp τ sig (Elt F)) :=
  [ unary main_v4 main_v5 ((transpose S128x8192 [1, 0] · transposes_S8192x128_S128x8192_1_0) : (⟨S8192x128, .f32⟩ : BufTy).Contents (Elt F) → (⟨S128x8192, .f32⟩ : BufTy).Contents (Elt F)),
    binary main_v4 main_v5 main_v6 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    nullary main_cst_0 (constant S_ .f32 0x3F800000#32),
    unary main_cst_0 main_v7 (broadcastInDim S8192x8192 ![] bcast_S_S8192x8192 : (⟨S_, .f32⟩ : BufTy).Contents (Elt F) → (⟨S8192x8192, .f32⟩ : BufTy).Contents (Elt F)),
    binary main_v7 main_v6 main_v8 (subf : (⟨S8192x8192, .f32⟩ : BufTy).Contents (Elt F) → (⟨S8192x8192, .f32⟩ : BufTy).Contents (Elt F) → (⟨S8192x8192, .f32⟩ : BufTy).Contents (Elt F)) ]
theorem st2 (h_v4 : V (Proc.devRef .tc main_v4) = val_main_v4 (F := F) A0) (h_arg1 : V (Proc.devRef .tc main_arg1) = A1)
    (h_arg2 : V (Proc.devRef .tc main_arg2) = A2) :
    after s2 V (Proc.devRef .tc main_v8) = val_main_v8 (F := F) A0
    ∧ after s2 V (Proc.devRef .tc main_arg1) = A1
    ∧ after s2 V (Proc.devRef .tc main_arg2) = A2 := by
  refine ⟨?_, ?_, ?_⟩
  · after_results_simp
    rw [h_v4]
    rfl
  · after_results_simp
    exact h_arg1
  · after_results_simp
    exact h_arg2

/-- Operations 15 to 20: the diagonal mask. -/
abbrev s3 : List (HloOp τ sig (Elt F)) :=
  [ nullary main_v9 (iotaInDim S8192x8192 32 0),
    nullary main_v10 (iotaInDim S8192x8192 32 1),
    nullary main_c (constantI S_ 32 0#32),
    unary main_c main_v11 (broadcastInDim S8192x8192 ![] bcast_S_S8192x8192 : (⟨S_, .i32⟩ : BufTy).Contents (Elt F) → (⟨S8192x8192, .i32⟩ : BufTy).Contents (Elt F)),
    binary main_v9 main_v11 main_v12 (addi : (⟨S8192x8192, .i32⟩ : BufTy).Contents (Elt F) → (⟨S8192x8192, .i32⟩ : BufTy).Contents (Elt F) → (⟨S8192x8192, .i32⟩ : BufTy).Contents (Elt F)),
    binary main_v12 main_v10 main_v13 (cmpi .eq : (⟨S8192x8192, .i32⟩ : BufTy).Contents (Elt F) → (⟨S8192x8192, .i32⟩ : BufTy).Contents (Elt F) → (⟨S8192x8192, .i1⟩ : BufTy).Contents (Elt F)) ]
theorem st3 (h_v8 : V (Proc.devRef .tc main_v8) = val_main_v8 (F := F) A0) (h_arg1 : V (Proc.devRef .tc main_arg1) = A1)
    (h_arg2 : V (Proc.devRef .tc main_arg2) = A2) :
    after s3 V (Proc.devRef .tc main_v8) = val_main_v8 (F := F) A0
    ∧ after s3 V (Proc.devRef .tc main_v13) = val_main_v13 (F := F)
    ∧ after s3 V (Proc.devRef .tc main_arg1) = A1
    ∧ after s3 V (Proc.devRef .tc main_arg2) = A2 := by
  refine ⟨?_, ?_, ?_, ?_⟩
  · after_results_simp
    exact h_v8
  · after_results_simp
    rfl
  · after_results_simp
    exact h_arg1
  · after_results_simp
    exact h_arg2

/-- Operations 21 to 28: the label masks. -/
abbrev s4 : List (HloOp τ sig (Elt F)) :=
  [ unary main_arg1 main_v14 (broadcastInDim S8192x1 ![0] bcast_S8192_S8192x1_0 : (⟨S8192, .i32⟩ : BufTy).Contents (Elt F) → (⟨S8192x1, .i32⟩ : BufTy).Contents (Elt F)),
    unary main_arg1 main_v15 (broadcastInDim S1x8192 ![1] bcast_S8192_S1x8192_1 : (⟨S8192, .i32⟩ : BufTy).Contents (Elt F) → (⟨S1x8192, .i32⟩ : BufTy).Contents (Elt F)),
    unary main_v14 main_v16 (broadcastInDim S8192x8192 ![0, 1] bcast_S8192x1_S8192x8192_0_1 : (⟨S8192x1, .i32⟩ : BufTy).Contents (Elt F) → (⟨S8192x8192, .i32⟩ : BufTy).Contents (Elt F)),
    unary main_v15 main_v17 (broadcastInDim S8192x8192 ![0, 1] bcast_S1x8192_S8192x8192_0_1 : (⟨S1x8192, .i32⟩ : BufTy).Contents (Elt F) → (⟨S8192x8192, .i32⟩ : BufTy).Contents (Elt F)),
    binary main_v16 main_v17 main_v18 (cmpi .eq : (⟨S8192x8192, .i32⟩ : BufTy).Contents (Elt F) → (⟨S8192x8192, .i32⟩ : BufTy).Contents (Elt F) → (⟨S8192x8192, .i1⟩ : BufTy).Contents (Elt F)),
    unary main_v13 main_v19 (noti : (⟨S8192x8192, .i1⟩ : BufTy).Contents (Elt F) → (⟨S8192x8192, .i1⟩ : BufTy).Contents (Elt F)),
    binary main_v18 main_v19 main_v20 (andi : (⟨S8192x8192, .i1⟩ : BufTy).Contents (Elt F) → (⟨S8192x8192, .i1⟩ : BufTy).Contents (Elt F) → (⟨S8192x8192, .i1⟩ : BufTy).Contents (Elt F)),
    unary main_v18 main_v21 (noti : (⟨S8192x8192, .i1⟩ : BufTy).Contents (Elt F) → (⟨S8192x8192, .i1⟩ : BufTy).Contents (Elt F)) ]
theorem st4 (h_v8 : V (Proc.devRef .tc main_v8) = val_main_v8 (F := F) A0)
    (h_v13 : V (Proc.devRef .tc main_v13) = val_main_v13 (F := F))
    (h_arg1 : V (Proc.devRef .tc main_arg1) = A1) (h_arg2 : V (Proc.devRef .tc main_arg2) = A2) :
    after s4 V (Proc.devRef .tc main_v8) = val_main_v8 (F := F) A0
    ∧ after s4 V (Proc.devRef .tc main_v20) = val_main_v20 (F := F) A1
    ∧ after s4 V (Proc.devRef .tc main_v21) = val_main_v21 (F := F) A1
    ∧ after s4 V (Proc.devRef .tc main_arg2) = A2 := by
  refine ⟨?_, ?_, ?_, ?_⟩
  · after_results_simp
    exact h_v8
  · after_results_simp
    rw [h_arg1, h_v13]
    rfl
  · after_results_simp
    rw [h_arg1]
    rfl
  · after_results_simp
    exact h_arg2

/-- Operations 29 to 34: the same-group mask. -/
abbrev s5 : List (HloOp τ sig (Elt F)) :=
  [ unary main_arg2 main_v22 (broadcastInDim S8192x1 ![0] bcast_S8192_S8192x1_0 : (⟨S8192, .i32⟩ : BufTy).Contents (Elt F) → (⟨S8192x1, .i32⟩ : BufTy).Contents (Elt F)),
    unary main_arg2 main_v23 (broadcastInDim S1x8192 ![1] bcast_S8192_S1x8192_1 : (⟨S8192, .i32⟩ : BufTy).Contents (Elt F) → (⟨S1x8192, .i32⟩ : BufTy).Contents (Elt F)),
    unary main_v22 main_v24 (broadcastInDim S8192x8192 ![0, 1] bcast_S8192x1_S8192x8192_0_1 : (⟨S8192x1, .i32⟩ : BufTy).Contents (Elt F) → (⟨S8192x8192, .i32⟩ : BufTy).Contents (Elt F)),
    unary main_v23 main_v25 (broadcastInDim S8192x8192 ![0, 1] bcast_S1x8192_S8192x8192_0_1 : (⟨S1x8192, .i32⟩ : BufTy).Contents (Elt F) → (⟨S8192x8192, .i32⟩ : BufTy).Contents (Elt F)),
    binary main_v24 main_v25 main_v26 (cmpi .eq : (⟨S8192x8192, .i32⟩ : BufTy).Contents (Elt F) → (⟨S8192x8192, .i32⟩ : BufTy).Contents (Elt F) → (⟨S8192x8192, .i1⟩ : BufTy).Contents (Elt F)),
    binary main_v21 main_v26 main_v27 (andi : (⟨S8192x8192, .i1⟩ : BufTy).Contents (Elt F) → (⟨S8192x8192, .i1⟩ : BufTy).Contents (Elt F) → (⟨S8192x8192, .i1⟩ : BufTy).Contents (Elt F)) ]
theorem st5 (h_v8 : V (Proc.devRef .tc main_v8) = val_main_v8 (F := F) A0)
    (h_v20 : V (Proc.devRef .tc main_v20) = val_main_v20 (F := F) A1)
    (h_v21 : V (Proc.devRef .tc main_v21) = val_main_v21 (F := F) A1) (h_arg2 : V (Proc.devRef .tc main_arg2) = A2) :
    after s5 V (Proc.devRef .tc main_v8) = val_main_v8 (F := F) A0
    ∧ after s5 V (Proc.devRef .tc main_v20) = val_main_v20 (F := F) A1
    ∧ after s5 V (Proc.devRef .tc main_v21) = val_main_v21 (F := F) A1
    ∧ after s5 V (Proc.devRef .tc main_v27) = val_main_v27 (F := F) A1 A2 := by
  refine ⟨?_, ?_, ?_, ?_⟩
  · after_results_simp
    exact h_v8
  · after_results_simp
    exact h_v20
  · after_results_simp
    exact h_v21
  · after_results_simp
    rw [h_v21, h_arg2]
    rfl

/-- Operations 35 to 40: the hardest positive. -/
abbrev s6 : List (HloOp τ sig (Elt F)) :=
  [ nullary main_cst_1 (constant S_ .f32 0x4E6E6B28#32),
    unary main_cst_1 main_v28 (Host.negf : (⟨S_, .f32⟩ : BufTy).Contents (Elt F) → (⟨S_, .f32⟩ : BufTy).Contents (Elt F)),
    TRef.unary (TRef.of (T := ⟨S_, .f32⟩) main_v28) (TRef.of (T := ⟨S8192x8192, .f32⟩) main_call1_v0) (broadcastInDim S8192x8192 ![] bcast_S_S8192x8192),
    TRef.ternary (TRef.of (T := ⟨S8192x8192, .i1⟩) main_v20) (TRef.of (T := ⟨S8192x8192, .f32⟩) main_v8) (TRef.of (T := ⟨S8192x8192, .f32⟩) main_call1_v0) (TRef.of (T := ⟨S8192x8192, .f32⟩) main_v29) select,
    nullary main_cst_2 (constant S_ .f32 0xFF800000#32),
    binary main_v29 main_cst_2 main_v30 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)) ]
theorem st6 (h_v8 : V (Proc.devRef .tc main_v8) = val_main_v8 (F := F) A0)
    (h_v20 : V (Proc.devRef .tc main_v20) = val_main_v20 (F := F) A1)
    (h_v21 : V (Proc.devRef .tc main_v21) = val_main_v21 (F := F) A1)
    (h_v27 : V (Proc.devRef .tc main_v27) = val_main_v27 (F := F) A1 A2) :
    after s6 V (Proc.devRef .tc main_v8) = val_main_v8 (F := F) A0
    ∧ after s6 V (Proc.devRef .tc main_v20) = val_main_v20 (F := F) A1
    ∧ after s6 V (Proc.devRef .tc main_v21) = val_main_v21 (F := F) A1
    ∧ after s6 V (Proc.devRef .tc main_v27) = val_main_v27 (F := F) A1 A2
    ∧ after s6 V (Proc.devRef .tc main_v30) = val_main_v30 (F := F) A0 A1 := by
  refine ⟨?_, ?_, ?_, ?_, ?_⟩
  · after_results_simp
    exact h_v8
  · after_results_simp
    exact h_v20
  · after_results_simp
    exact h_v21
  · after_results_simp
    exact h_v27
  · after_results_simp
    unfold val_main_v30 val_main_v29
    rw [← h_v20, ← h_v8]
    rfl

/-- Operations 41 to 45: the hardest same-group negative. -/
abbrev s7 : List (HloOp τ sig (Elt F)) :=
  [ nullary main_cst_3 (constant S_ .f32 0x4E6E6B28#32),
    TRef.unary (TRef.of (T := ⟨S_, .f32⟩) main_cst_3) (TRef.of (T := ⟨S8192x8192, .f32⟩) main_call2_v0) (broadcastInDim S8192x8192 ![] bcast_S_S8192x8192),
    TRef.ternary (TRef.of (T := ⟨S8192x8192, .i1⟩) main_v27) (TRef.of (T := ⟨S8192x8192, .f32⟩) main_v8) (TRef.of (T := ⟨S8192x8192, .f32⟩) main_call2_v0) (TRef.of (T := ⟨S8192x8192, .f32⟩) main_v31) select,
    nullary main_cst_4 (constant S_ .f32 0x7F800000#32),
    binary main_v31 main_cst_4 main_v32 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F)) ]
theorem st7 (h_v8 : V (Proc.devRef .tc main_v8) = val_main_v8 (F := F) A0)
    (h_v20 : V (Proc.devRef .tc main_v20) = val_main_v20 (F := F) A1)
    (h_v21 : V (Proc.devRef .tc main_v21) = val_main_v21 (F := F) A1)
    (h_v27 : V (Proc.devRef .tc main_v27) = val_main_v27 (F := F) A1 A2)
    (h_v30 : V (Proc.devRef .tc main_v30) = val_main_v30 (F := F) A0 A1) :
    after s7 V (Proc.devRef .tc main_v8) = val_main_v8 (F := F) A0
    ∧ after s7 V (Proc.devRef .tc main_v20) = val_main_v20 (F := F) A1
    ∧ after s7 V (Proc.devRef .tc main_v21) = val_main_v21 (F := F) A1
    ∧ after s7 V (Proc.devRef .tc main_v27) = val_main_v27 (F := F) A1 A2
    ∧ after s7 V (Proc.devRef .tc main_v30) = val_main_v30 (F := F) A0 A1
    ∧ after s7 V (Proc.devRef .tc main_v32) = val_main_v32 (F := F) A0 A1 A2 := by
  refine ⟨?_, ?_, ?_, ?_, ?_, ?_⟩
  · after_results_simp
    exact h_v8
  · after_results_simp
    exact h_v20
  · after_results_simp
    exact h_v21
  · after_results_simp
    exact h_v27
  · after_results_simp
    exact h_v30
  · after_results_simp
    unfold val_main_v32 val_main_v31
    rw [← h_v27, ← h_v8]
    rfl

/-- Operations 46 to 50: the hardest negative. -/
abbrev s8 : List (HloOp τ sig (Elt F)) :=
  [ nullary main_cst_5 (constant S_ .f32 0x4E6E6B28#32),
    TRef.unary (TRef.of (T := ⟨S_, .f32⟩) main_cst_5) (TRef.of (T := ⟨S8192x8192, .f32⟩) main_call3_v0) (broadcastInDim S8192x8192 ![] bcast_S_S8192x8192),
    TRef.ternary (TRef.of (T := ⟨S8192x8192, .i1⟩) main_v21) (TRef.of (T := ⟨S8192x8192, .f32⟩) main_v8) (TRef.of (T := ⟨S8192x8192, .f32⟩) main_call3_v0) (TRef.of (T := ⟨S8192x8192, .f32⟩) main_v33) select,
    nullary main_cst_6 (constant S_ .f32 0x7F800000#32),
    binary main_v33 main_cst_6 main_v34 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F)) ]
theorem st8 (h_v8 : V (Proc.devRef .tc main_v8) = val_main_v8 (F := F) A0)
    (h_v20 : V (Proc.devRef .tc main_v20) = val_main_v20 (F := F) A1)
    (h_v21 : V (Proc.devRef .tc main_v21) = val_main_v21 (F := F) A1)
    (h_v27 : V (Proc.devRef .tc main_v27) = val_main_v27 (F := F) A1 A2)
    (h_v30 : V (Proc.devRef .tc main_v30) = val_main_v30 (F := F) A0 A1)
    (h_v32 : V (Proc.devRef .tc main_v32) = val_main_v32 (F := F) A0 A1 A2) :
    after s8 V (Proc.devRef .tc main_v20) = val_main_v20 (F := F) A1
    ∧ after s8 V (Proc.devRef .tc main_v21) = val_main_v21 (F := F) A1
    ∧ after s8 V (Proc.devRef .tc main_v27) = val_main_v27 (F := F) A1 A2
    ∧ after s8 V (Proc.devRef .tc main_v30) = val_main_v30 (F := F) A0 A1
    ∧ after s8 V (Proc.devRef .tc main_v32) = val_main_v32 (F := F) A0 A1 A2
    ∧ after s8 V (Proc.devRef .tc main_v34) = val_main_v34 (F := F) A0 A1 := by
  refine ⟨?_, ?_, ?_, ?_, ?_, ?_⟩
  · after_results_simp
    exact h_v20
  · after_results_simp
    exact h_v21
  · after_results_simp
    exact h_v27
  · after_results_simp
    exact h_v30
  · after_results_simp
    exact h_v32
  · after_results_simp
    unfold val_main_v34 val_main_v33
    rw [← h_v21, ← h_v8]
    rfl

/-- Operations 51 to 56: which rows have a candidate of each kind. -/
abbrev s9 : List (HloOp τ sig (Elt F)) :=
  [ nullary main_c_7 (constantI S_ 1 0#1),
    binary main_v20 main_c_7 main_v35 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)),
    nullary main_c_8 (constantI S_ 1 0#1),
    binary main_v27 main_c_8 main_v36 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)),
    nullary main_c_9 (constantI S_ 1 0#1),
    binary main_v21 main_c_9 main_v37 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)) ]
theorem st9 (h_v20 : V (Proc.devRef .tc main_v20) = val_main_v20 (F := F) A1)
    (h_v21 : V (Proc.devRef .tc main_v21) = val_main_v21 (F := F) A1)
    (h_v27 : V (Proc.devRef .tc main_v27) = val_main_v27 (F := F) A1 A2)
    (h_v30 : V (Proc.devRef .tc main_v30) = val_main_v30 (F := F) A0 A1)
    (h_v32 : V (Proc.devRef .tc main_v32) = val_main_v32 (F := F) A0 A1 A2)
    (h_v34 : V (Proc.devRef .tc main_v34) = val_main_v34 (F := F) A0 A1) :
    after s9 V (Proc.devRef .tc main_v30) = val_main_v30 (F := F) A0 A1
    ∧ after s9 V (Proc.devRef .tc main_v32) = val_main_v32 (F := F) A0 A1 A2
    ∧ after s9 V (Proc.devRef .tc main_v34) = val_main_v34 (F := F) A0 A1
    ∧ after s9 V (Proc.devRef .tc main_v35) = val_main_v35 (F := F) A1
    ∧ after s9 V (Proc.devRef .tc main_v36) = val_main_v36 (F := F) A1 A2
    ∧ after s9 V (Proc.devRef .tc main_v37) = val_main_v37 (F := F) A1 := by
  refine ⟨?_, ?_, ?_, ?_, ?_, ?_⟩
  · after_results_simp
    exact h_v30
  · after_results_simp
    exact h_v32
  · after_results_simp
    exact h_v34
  · after_results_simp
    rw [h_v20]
    rfl
  · after_results_simp
    rw [h_v27]
    rfl
  · after_results_simp
    rw [h_v21]
    rfl

/-- Operations 57 to 64: the row losses. -/
abbrev s10 : List (HloOp τ sig (Elt F)) :=
  [ TRef.ternary (TRef.of (T := ⟨S8192, .i1⟩) main_v36) (TRef.of (T := ⟨S8192, .f32⟩) main_v32) (TRef.of (T := ⟨S8192, .f32⟩) main_v34) (TRef.of (T := ⟨S8192, .f32⟩) main_v38) select,
    binary main_v30 main_v38 main_v39 (subf : (⟨S8192, .f32⟩ : BufTy).Contents (Elt F) → (⟨S8192, .f32⟩ : BufTy).Contents (Elt F) → (⟨S8192, .f32⟩ : BufTy).Contents (Elt F)),
    nullary main_cst_10 (constant S_ .f32 0x3DCCCCCD#32),
    unary main_cst_10 main_v40 (broadcastInDim S8192 ![] bcast_S_S8192 : (⟨S_, .f32⟩ : BufTy).Contents (Elt F) → (⟨S8192, .f32⟩ : BufTy).Contents (Elt F)),
    binary main_v39 main_v40 main_v41 (addf : (⟨S8192, .f32⟩ : BufTy).Contents (Elt F) → (⟨S8192, .f32⟩ : BufTy).Contents (Elt F) → (⟨S8192, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S8192, .f32⟩) main_call5_v0) (broadcastInDim S8192 ![] bcast_S_S8192),
    TRef.binary (TRef.of (T := ⟨S8192, .f32⟩) main_v41) (TRef.of (T := ⟨S8192, .f32⟩) main_call5_v0) (TRef.of (T := ⟨S8192, .f32⟩) main_v42) maximumf ]
theorem st10 (h_v30 : V (Proc.devRef .tc main_v30) = val_main_v30 (F := F) A0 A1)
    (h_v32 : V (Proc.devRef .tc main_v32) = val_main_v32 (F := F) A0 A1 A2)
    (h_v34 : V (Proc.devRef .tc main_v34) = val_main_v34 (F := F) A0 A1)
    (h_v35 : V (Proc.devRef .tc main_v35) = val_main_v35 (F := F) A1)
    (h_v36 : V (Proc.devRef .tc main_v36) = val_main_v36 (F := F) A1 A2)
    (h_v37 : V (Proc.devRef .tc main_v37) = val_main_v37 (F := F) A1) :
    after s10 V (Proc.devRef .tc main_v35) = val_main_v35 (F := F) A1
    ∧ after s10 V (Proc.devRef .tc main_v37) = val_main_v37 (F := F) A1
    ∧ after s10 V (Proc.devRef .tc main_v42) = val_main_v42 (F := F) A0 A1 A2 := by
  refine ⟨?_, ?_, ?_⟩
  · after_results_simp
    exact h_v35
  · after_results_simp
    exact h_v37
  · after_results_simp
    unfold val_main_v42 val_main_v41 val_main_v39 val_main_v38
    rw [← h_v30, ← h_v36, ← h_v32, ← h_v34]
    rfl

/-- Operations 65 to 72: the rows that count, and how many. -/
abbrev s11 : List (HloOp τ sig (Elt F)) :=
  [ binary main_v35 main_v37 main_v43 (andi : (⟨S8192, .i1⟩ : BufTy).Contents (Elt F) → (⟨S8192, .i1⟩ : BufTy).Contents (Elt F) → (⟨S8192, .i1⟩ : BufTy).Contents (Elt F)),
    nullary main_cst_11 (constant S_ .f32 0x00000000#32),
    unary main_cst_11 main_v44 (broadcastInDim S8192 ![] bcast_S_S8192 : (⟨S_, .f32⟩ : BufTy).Contents (Elt F) → (⟨S8192, .f32⟩ : BufTy).Contents (Elt F)),
    binary main_v42 main_v44 main_v45 (cmpf (F := F) .ogt : (⟨S8192, .f32⟩ : BufTy).Contents (Elt F) → (⟨S8192, .f32⟩ : BufTy).Contents (Elt F) → (⟨S8192, .i1⟩ : BufTy).Contents (Elt F)),
    binary main_v43 main_v45 main_v46 (andi : (⟨S8192, .i1⟩ : BufTy).Contents (Elt F) → (⟨S8192, .i1⟩ : BufTy).Contents (Elt F) → (⟨S8192, .i1⟩ : BufTy).Contents (Elt F)),
    unary main_v46 main_v47 (uitofp (F := F) .f32 : (⟨S8192, .i1⟩ : BufTy).Contents (Elt F) → (⟨S8192, .f32⟩ : BufTy).Contents (Elt F)),
    nullary main_cst_12 (constant S_ .f32 0x00000000#32),
    binary main_v47 main_cst_12 main_v48 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) ]
theorem st11 (h_v35 : V (Proc.devRef .tc main_v35) = val_main_v35 (F := F) A1)
    (h_v37 : V (Proc.devRef .tc main_v37) = val_main_v37 (F := F) A1)
    (h_v42 : V (Proc.devRef .tc main_v42) = val_main_v42 (F := F) A0 A1 A2) :
    after s11 V (Proc.devRef .tc main_v42) = val_main_v42 (F := F) A0 A1 A2
    ∧ after s11 V (Proc.devRef .tc main_v46) = val_main_v46 (F := F) A0 A1 A2
    ∧ after s11 V (Proc.devRef .tc main_v48) = val_main_v48 (F := F) A0 A1 A2 := by
  refine ⟨?_, ?_, ?_⟩
  · after_results_simp
    exact h_v42
  · after_results_simp
    rw [h_v35, h_v37, h_v42]
    rfl
  · after_results_simp
    rw [h_v35, h_v37, h_v42]
    rfl

/-- Operations 73 to 78: the sum of the kept losses. -/
abbrev s12 : List (HloOp τ sig (Elt F)) :=
  [ nullary main_cst_13 (constant S_ .f32 0x00000000#32),
    TRef.unary (TRef.of (T := ⟨S_, .f32⟩) main_cst_13) (TRef.of (T := ⟨S_, .f32⟩) main_call6_v0) id,
    TRef.unary (TRef.of (T := ⟨S_, .f32⟩) main_call6_v0) (TRef.of (T := ⟨S8192, .f32⟩) main_call6_v1) (broadcastInDim S8192 ![] bcast_S_S8192),
    TRef.ternary (TRef.of (T := ⟨S8192, .i1⟩) main_v46) (TRef.of (T := ⟨S8192, .f32⟩) main_v42) (TRef.of (T := ⟨S8192, .f32⟩) main_call6_v1) (TRef.of (T := ⟨S8192, .f32⟩) main_v49) select,
    nullary main_cst_14 (constant S_ .f32 0x00000000#32),
    binary main_v49 main_cst_14 main_v50 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) ]
theorem st12 (h_v42 : V (Proc.devRef .tc main_v42) = val_main_v42 (F := F) A0 A1 A2)
    (h_v46 : V (Proc.devRef .tc main_v46) = val_main_v46 (F := F) A0 A1 A2)
    (h_v48 : V (Proc.devRef .tc main_v48) = val_main_v48 (F := F) A0 A1 A2) :
    after s12 V (Proc.devRef .tc main_v48) = val_main_v48 (F := F) A0 A1 A2
    ∧ after s12 V (Proc.devRef .tc main_v50) = val_main_v50 (F := F) A0 A1 A2 := by
  refine ⟨?_, ?_⟩
  · after_results_simp
    exact h_v48
  · after_results_simp
    unfold val_main_v50 val_main_v49
    rw [← h_v46, ← h_v42]
    rfl

/-- Operations 79 to 90: the mean. -/
abbrev s13 : List (HloOp τ sig (Elt F)) :=
  [ nullary main_cst_15 (constant S_ .f32 0x00000000#32),
    binary main_v48 main_cst_15 main_v51 (cmpf (F := F) .ogt : (⟨S_, .f32⟩ : BufTy).Contents (Elt F) → (⟨S_, .f32⟩ : BufTy).Contents (Elt F) → (⟨S_, .i1⟩ : BufTy).Contents (Elt F)),
    nullary main_cst_16 (constant S_ .f32 0x3F800000#32),
    binary main_v48 main_cst_16 main_v52 (maximumf : (⟨S_, .f32⟩ : BufTy).Contents (Elt F) → (⟨S_, .f32⟩ : BufTy).Contents (Elt F) → (⟨S_, .f32⟩ : BufTy).Contents (Elt F)),
    binary main_v50 main_v52 main_v53 (Host.divf : (⟨S_, .f32⟩ : BufTy).Contents (Elt F) → (⟨S_, .f32⟩ : BufTy).Contents (Elt F) → (⟨S_, .f32⟩ : BufTy).Contents (Elt F)),
    nullary main_cst_17 (constant S_ .f32 0x00000000#32),
    TRef.unary (TRef.of (T := ⟨S_, .f32⟩) main_cst_17) (TRef.of (T := ⟨S_, .f32⟩) main_call7_v0) id,
    TRef.ternary (TRef.of (T := ⟨S_, .i1⟩) main_v51) (TRef.of (T := ⟨S_, .f32⟩) main_v53) (TRef.of (T := ⟨S_, .f32⟩) main_call7_v0) (TRef.of (T := ⟨S_, .f32⟩) main_v54) select,
    binary main_v54 main_v54 main_v55 (cmpf (F := F) .une : (⟨S_, .f32⟩ : BufTy).Contents (Elt F) → (⟨S_, .f32⟩ : BufTy).Contents (Elt F) → (⟨S_, .i1⟩ : BufTy).Contents (Elt F)),
    nullary main_cst_18 (constant S_ .f32 0x00000000#32),
    TRef.unary (TRef.of (T := ⟨S_, .f32⟩) main_cst_18) (TRef.of (T := ⟨S_, .f32⟩) main_call8_v0) id,
    TRef.ternary (TRef.of (T := ⟨S_, .i1⟩) main_v55) (TRef.of (T := ⟨S_, .f32⟩) main_call8_v0) (TRef.of (T := ⟨S_, .f32⟩) main_v54) (TRef.of (T := ⟨S_, .f32⟩) main_v56) select ]
theorem st13 (h_v48 : V (Proc.devRef .tc main_v48) = val_main_v48 (F := F) A0 A1 A2)
    (h_v50 : V (Proc.devRef .tc main_v50) = val_main_v50 (F := F) A0 A1 A2) :
    after s13 V (Proc.devRef .tc main_v56) = val_main_v56 (F := F) A0 A1 A2 := by
  after_results_simp
  unfold val_main_v56 val_main_v55 val_main_v54 val_main_v51 val_main_v53 val_main_v52
  rw [← h_v48, ← h_v50]
  rfl

end Stretches

/-- The thirteen stretches in a row are @main's operations. -/
theorem ops_eq : (ValueP.ops : List (HloOp τ sig (Elt F)))
    = s1 ++ s2 ++ s3 ++ s4 ++ s5 ++ s6 ++ s7 ++ s8 ++ s9 ++ s10 ++ s11 ++ s12 ++ s13 := rfl

/-- After the whole line the result buffer holds the last stage of the read-back, at the arguments' contents. -/
theorem after_v56 (W : Valuation τ sig (Elt F)) :
    after (ValueP.ops : List (HloOp τ sig (Elt F))) W (Proc.devRef .tc main_v56)
      = val_main_v56 (F := F) (W (Proc.devRef .tc main_arg0)) (W (Proc.devRef .tc main_arg1)) (W (Proc.devRef .tc main_arg2)) := by
  rw [ops_eq]
  simp only [StableHlo.after_append]
  obtain ⟨h_v4, h_arg1, h_arg2⟩ := st1 W _ _ _ rfl rfl rfl
  generalize after s1 W = V1 at *
  obtain ⟨h_v8, h_arg1, h_arg2⟩ := st2 V1 _ _ _ h_v4 h_arg1 h_arg2
  generalize after s2 V1 = V2 at *
  obtain ⟨h_v8, h_v13, h_arg1, h_arg2⟩ := st3 V2 _ _ _ h_v8 h_arg1 h_arg2
  generalize after s3 V2 = V3 at *
  obtain ⟨h_v8, h_v20, h_v21, h_arg2⟩ := st4 V3 _ _ _ h_v8 h_v13 h_arg1 h_arg2
  generalize after s4 V3 = V4 at *
  obtain ⟨h_v8, h_v20, h_v21, h_v27⟩ := st5 V4 _ _ _ h_v8 h_v20 h_v21 h_arg2
  generalize after s5 V4 = V5 at *
  obtain ⟨h_v8, h_v20, h_v21, h_v27, h_v30⟩ := st6 V5 _ _ _ h_v8 h_v20 h_v21 h_v27
  generalize after s6 V5 = V6 at *
  obtain ⟨h_v8, h_v20, h_v21, h_v27, h_v30, h_v32⟩ := st7 V6 _ _ _ h_v8 h_v20 h_v21 h_v27 h_v30
  generalize after s7 V6 = V7 at *
  obtain ⟨h_v20, h_v21, h_v27, h_v30, h_v32, h_v34⟩ := st8 V7 _ _ _ h_v8 h_v20 h_v21 h_v27 h_v30 h_v32
  generalize after s8 V7 = V8 at *
  obtain ⟨h_v30, h_v32, h_v34, h_v35, h_v36, h_v37⟩ := st9 V8 _ _ _ h_v20 h_v21 h_v27 h_v30 h_v32 h_v34
  generalize after s9 V8 = V9 at *
  obtain ⟨h_v35, h_v37, h_v42⟩ := st10 V9 _ _ _ h_v30 h_v32 h_v34 h_v35 h_v36 h_v37
  generalize after s10 V9 = V10 at *
  obtain ⟨h_v42, h_v46, h_v48⟩ := st11 V10 _ _ _ h_v35 h_v37 h_v42
  generalize after s11 V10 = V11 at *
  obtain ⟨h_v48, h_v50⟩ := st12 V11 _ _ _ h_v42 h_v46 h_v48
  generalize after s12 V11 = V12 at *
  exact st13 V12 _ _ _ h_v48 h_v50

/-- No operation writes an argument's buffer. -/
theorem after_arg0 (W : Valuation τ sig (Elt F)) :
    after (ValueP.ops : List (HloOp τ sig (Elt F))) W (Proc.devRef .tc main_arg0) = W (Proc.devRef .tc main_arg0) := by
  after_results_simp
theorem after_arg1 (W : Valuation τ sig (Elt F)) :
    after (ValueP.ops : List (HloOp τ sig (Elt F))) W (Proc.devRef .tc main_arg1) = W (Proc.devRef .tc main_arg1) := by
  after_results_simp
theorem after_arg2 (W : Valuation τ sig (Elt F)) :
    after (ValueP.ops : List (HloOp τ sig (Elt F))) W (Proc.devRef .tc main_arg2) = W (Proc.devRef .tc main_arg2) := by
  after_results_simp

end RunStages

open Cert.ReferenceIdeal Cert.ReferenceIdeal.Gen Idealize.ShloMosaic Idealize.ShloMosaic.TcCoe Idealize.SL.Sem Idealize.ShloMosaic.StableHlo

/-- On every device, from any memory with zero counters: every weakly fair execution of @main terminates with the result
    buffer at the last stage of the read-back of the arguments' launch contents, and the arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v56) = Cert.ReferenceIdeal.ReadP.val_main_v56 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v56).trans (RunStages.after_v56 _),
      (h c main_arg0).trans (RunStages.after_arg0 _),
      (h c main_arg1).trans (RunStages.after_arg1 _),
      (h c main_arg2).trans (RunStages.after_arg2 _)⟩)
    (run_seq ValueP.scopedRefs_eq ValueP.scopedSems_eq defs main (fun _ => ValueP.ops) ValueP.main_eq (fun _ => ValueP.ops_sub) m ρ)

end Cert.ReferenceIdeal.RefValue

end
-- ==== Proof.Algebra.lean ====
/-
  The algebra that joins the two readings of the specification: on rows scaled into the unit ball every distance lies
  in [-127, 129], so comparing a running extremum against ∓5·10⁸ decides exactly whether a candidate exists, and an
  extremum run over eight column blocks from the fill value is the extremum over the whole row from ∓∞.
-/
import proofs.«135937_j90099823936181_2_alg».proof.Proof.Spec

noncomputable section

namespace Cert.Spec

open Idealize.ShloMosaic

/-! ## The literals -/

theorem lit_zero : lit 0x00000000#32 = 0 := by simp [lit, Ideal.ofBits, Ideal.ieee]
theorem lit_one : lit 0x3F800000#32 = 1 := by
  simp [lit, Ideal.ofBits, Ideal.ieee]
  exact_mod_cast (by norm_num : (8388608 : ℝ) * (2 ^ 23)⁻¹ = 1)
theorem lit_top : lit 0x7F800000#32 = ⊤ := by simp [lit, Ideal.ofBits, Ideal.ieee]
theorem lit_bot : lit 0xFF800000#32 = ⊥ := by simp [lit, Ideal.ofBits, Ideal.ieee]
/-- `15625000 · 2⁶ = 10⁹`. -/
theorem lit_1e9 : lit 0x4E6E6B28#32 = ((1000000000 : ℝ) : EReal) := by
  simp [lit, Ideal.ofBits, Ideal.ieee]
  exact_mod_cast (by norm_num : (15625000 : ℝ) * 2 ^ 6 = 1000000000)
theorem lit_n1e9 : lit 0xCE6E6B28#32 = ((-1000000000 : ℝ) : EReal) := by
  simp [lit, Ideal.ofBits, Ideal.ieee]
  exact_mod_cast (by norm_num : (15625000 : ℝ) * 2 ^ 6 = 1000000000)
/-- `15625000 · 2⁵ = 5·10⁸`. -/
theorem lit_5e8 : lit 0x4DEE6B28#32 = ((500000000 : ℝ) : EReal) := by
  simp [lit, Ideal.ofBits, Ideal.ieee]
  exact_mod_cast (by norm_num : (15625000 : ℝ) * 2 ^ 5 = 500000000)
theorem lit_n5e8 : lit 0xCDEE6B28#32 = ((-500000000 : ℝ) : EReal) := by
  simp [lit, Ideal.ofBits, Ideal.ieee]
  exact_mod_cast (by norm_num : (15625000 : ℝ) * 2 ^ 5 = 500000000)
/-- The floor under the norm is a positive real. -/
theorem lit_eps : ∃ ε : ℝ, 0 < ε ∧ lit 0x2B8CBCCC#32 = (ε : EReal) := by
  simp [lit, Ideal.ofBits, Ideal.ieee]
  exact ⟨9223372 * (2 ^ 63)⁻¹, by positivity, by norm_cast⟩
/-- The kernel's literal `-10⁹` is the negation of the literal `10⁹`. -/
theorem lit_n1e9_eq_neg : lit 0xCE6E6B28#32 = -(lit 0x4E6E6B28#32) := by
  rw [lit_n1e9, lit_1e9]; rfl

/-! ## Real sums inside the extended reals -/

theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-! ## The scaled rows -/

/-- Finite embeddings scale to real rows with every entry in [-1, 1]. -/
theorem xn_real_bound (e : Fin 8192 → Fin 128 → EReal) (he : ∀ r k, ∃ y : ℝ, e r k = (y : EReal)) (r : Fin 8192) (k : Fin 128) :
    ∃ y : ℝ, xn e r k = (y : EReal) ∧ |y| ≤ 1 := by
  choose f hf using he
  obtain ⟨ε, hε, hlit⟩ := lit_eps
  -- the squared norm of the row is a nonnegative real
  have hsum : (lit 0x00000000#32 + ∑ k' : Fin 128, e r k' * e r k') = ((∑ k' : Fin 128, f r k' * f r k' : ℝ) : EReal) := by
    rw [lit_zero, zero_add, coe_sum]
    exact Finset.sum_congr rfl fun k' _ => by rw [hf, EReal.coe_mul]
  have hs0 : 0 ≤ ∑ k' : Fin 128, f r k' * f r k' := Finset.sum_nonneg fun k' _ => mul_self_nonneg _
  -- the divisor is a positive real
  have hdpos : 0 < max (Real.sqrt (∑ k' : Fin 128, f r k' * f r k')) ε := lt_max_of_lt_right hε
  have hden : max (Ideal.sqrt (lit 0x00000000#32 + ∑ k' : Fin 128, e r k' * e r k')) (lit 0x2B8CBCCC#32)
      = ((max (Real.sqrt (∑ k' : Fin 128, f r k' * f r k')) ε : ℝ) : EReal) := by
    rw [hsum, Ideal.sqrt_coe, if_neg (not_lt.mpr hs0), hlit]
    exact (EReal.coe_strictMono.monotone.map_max).symm
  refine ⟨f r k * (1 / max (Real.sqrt (∑ k' : Fin 128, f r k' * f r k')) ε), ?_, ?_⟩
  · unfold xn
    rw [hden, Ideal.div_coe hdpos.ne', hf, EReal.coe_mul]
  · -- an entry is at most the norm of its row, which is at most the divisor
    have h1 : |f r k| ≤ Real.sqrt (∑ k' : Fin 128, f r k' * f r k') := by
      rw [← Real.sqrt_sq_eq_abs]
      apply Real.sqrt_le_sqrt
      rw [sq]
      exact Finset.single_le_sum (f := fun k' => f r k' * f r k') (fun i _ => mul_self_nonneg _) (Finset.mem_univ k)
    have h2 : |f r k| ≤ max (Real.sqrt (∑ k' : Fin 128, f r k' * f r k')) ε := h1.trans (le_max_left _ _)
    rw [abs_mul, abs_of_pos (one_div_pos.mpr hdpos), mul_one_div, div_le_one hdpos]
    exact h2

section Rows

variable (x : Fin 8192 → Fin 128 → EReal) (l g : Fin 8192 → BitVec 32)

/-! ## Distances on the unit ball -/

/-- On rows with entries in [-1, 1] a distance is a real in [-127, 129]. -/
theorem dist_bound (hx : ∀ r k, ∃ y : ℝ, x r k = (y : EReal) ∧ |y| ≤ 1) (r c : Fin 8192) :
    ∃ d : ℝ, dist x r c = (d : EReal) ∧ -127 ≤ d ∧ d ≤ 129 := by
  choose f hf hb using hx
  have habs : |∑ k : Fin 128, f r k * f c k| ≤ 128 := by
    calc |∑ k : Fin 128, f r k * f c k| ≤ ∑ k : Fin 128, |f r k * f c k| := Finset.abs_sum_le_sum_abs _ _
      _ ≤ ∑ _k : Fin 128, (1 : ℝ) := Finset.sum_le_sum fun k _ => by
          rw [abs_mul]; exact mul_le_one₀ (hb r k) (abs_nonneg _) (hb c k)
      _ = 128 := by simp
  refine ⟨1 - ∑ k : Fin 128, f r k * f c k, ?_, ?_, ?_⟩
  · unfold dist
    rw [lit_one, EReal.coe_sub, coe_sum, EReal.coe_one]
    congr 1
    exact Finset.sum_congr rfl fun k _ => by rw [hf, hf, EReal.coe_mul]
  · linarith [(abs_le.mp habs).2]
  · linarith [(abs_le.mp habs).1]

theorem dist_gt (hx : ∀ r k, ∃ y : ℝ, x r k = (y : EReal) ∧ |y| ≤ 1) (r c : Fin 8192) :
    lit 0xCDEE6B28#32 < dist x r c := by
  obtain ⟨d, hd, h1, _⟩ := dist_bound x hx r c
  rw [hd, lit_n5e8, EReal.coe_lt_coe_iff]; linarith

theorem dist_lt (hx : ∀ r k, ∃ y : ℝ, x r k = (y : EReal) ∧ |y| ≤ 1) (r c : Fin 8192) :
    dist x r c < lit 0x4DEE6B28#32 := by
  obtain ⟨d, hd, _, h2⟩ := dist_bound x hx r c
  rw [hd, lit_5e8, EReal.coe_lt_coe_iff]; linarith

/-! ## Eight column blocks are the whole row -/

/-- Every column lies in exactly one block: `i = (i / 1024) · 1024 + i % 1024`. -/
theorem col_surj (i : Fin 8192) : ∃ j q, col j q = i :=
  ⟨⟨i.val / 1024, by omega⟩, ⟨i.val % 1024, by omega⟩, Fin.ext (by simp only [col]; omega)⟩

/-- A running maximum over the first `n ≤ 8` blocks is below `c` exactly when its start and those blocks are. -/
theorem runMax_le_iff (R : ℕ → EReal) (a e : EReal) (b : Fin 8 → EReal) (h0 : R 0 = a)
    (hs : ∀ n, R (n + 1) = max (R n) (if h : n < 8 then b ⟨n, h⟩ else e)) (c : EReal) :
    ∀ n, n ≤ 8 → (R n ≤ c ↔ a ≤ c ∧ ∀ j : Fin 8, j.val < n → b j ≤ c) := by
  intro n
  induction n with
  | zero => intro _; rw [h0]; simp
  | succ n ih =>
    intro hn
    have hn' : n < 8 := hn
    rw [hs, dif_pos hn', max_le_iff, ih (by omega)]
    constructor
    · rintro ⟨⟨ha, hj⟩, hb⟩
      refine ⟨ha, fun j hjn => ?_⟩
      rcases Nat.lt_succ_iff_lt_or_eq.mp hjn with h | h
      · exact hj j h
      · have hj' : j = ⟨n, hn'⟩ := Fin.ext h
        rw [hj']; exact hb
    · rintro ⟨ha, hj⟩
      exact ⟨⟨ha, fun j h => hj j (by omega)⟩, hj ⟨n, hn'⟩ (Nat.lt_succ_self n)⟩

/-- The same for a running minimum. -/
theorem le_runMin_iff (R : ℕ → EReal) (a e : EReal) (b : Fin 8 → EReal) (h0 : R 0 = a)
    (hs : ∀ n, R (n + 1) = min (R n) (if h : n < 8 then b ⟨n, h⟩ else e)) (c : EReal) :
    ∀ n, n ≤ 8 → (c ≤ R n ↔ c ≤ a ∧ ∀ j : Fin 8, j.val < n → c ≤ b j) := by
  intro n
  induction n with
  | zero => intro _; rw [h0]; simp
  | succ n ih =>
    intro hn
    have hn' : n < 8 := hn
    rw [hs, dif_pos hn', le_min_iff, ih (by omega)]
    constructor
    · rintro ⟨⟨ha, hj⟩, hb⟩
      refine ⟨ha, fun j hjn => ?_⟩
      rcases Nat.lt_succ_iff_lt_or_eq.mp hjn with h | h
      · exact hj j h
      · have hj' : j = ⟨n, hn'⟩ := Fin.ext h
        rw [hj']; exact hb
    · rintro ⟨ha, hj⟩
      exact ⟨⟨ha, fun j h => hj j (by omega)⟩, hj ⟨n, hn'⟩ (Nat.lt_succ_self n)⟩

/-- A maximum run over the eight blocks from a value that is itself one of the row's entries is the row's maximum. -/
theorem blocks_max (f : Fin 8192 → EReal) (R : ℕ → EReal) (a e : EReal) (i₀ : Fin 8192) (ha : f i₀ = a) (h0 : R 0 = a)
    (hs : ∀ n, R (n + 1) = max (R n)
      (if h : n < 8 then (Finset.univ : Finset (Fin 1024)).fold max ⊥ (fun q => f (col ⟨n, h⟩ q)) else e)) :
    R 8 = (Finset.univ : Finset (Fin 8192)).fold max ⊥ f := by
  apply eq_of_forall_ge_iff
  intro c
  rw [runMax_le_iff R a e (fun j => (Finset.univ : Finset (Fin 1024)).fold max ⊥ (fun q => f (col j q))) h0 hs c 8 le_rfl,
    Finset.fold_max_le]
  constructor
  · rintro ⟨_, h⟩
    refine ⟨bot_le, fun i _ => ?_⟩
    obtain ⟨j, q, rfl⟩ := col_surj i
    exact ((Finset.fold_max_le c).mp (h j j.isLt)).2 q (Finset.mem_univ q)
  · rintro ⟨_, h⟩
    exact ⟨ha ▸ h i₀ (Finset.mem_univ _), fun j _ => (Finset.fold_max_le c).mpr ⟨bot_le, fun q _ => h _ (Finset.mem_univ _)⟩⟩

/-- A minimum run over the eight blocks from a value that is itself one of the row's entries is the row's minimum. -/
theorem blocks_min (f : Fin 8192 → EReal) (R : ℕ → EReal) (a e : EReal) (i₀ : Fin 8192) (ha : f i₀ = a) (h0 : R 0 = a)
    (hs : ∀ n, R (n + 1) = min (R n)
      (if h : n < 8 then (Finset.univ : Finset (Fin 1024)).fold min ⊤ (fun q => f (col ⟨n, h⟩ q)) else e)) :
    R 8 = (Finset.univ : Finset (Fin 8192)).fold min ⊤ f := by
  apply eq_of_forall_le_iff
  intro c
  rw [le_runMin_iff R a e (fun j => (Finset.univ : Finset (Fin 1024)).fold min ⊤ (fun q => f (col j q))) h0 hs c 8 le_rfl,
    Finset.le_fold_min]
  constructor
  · rintro ⟨_, h⟩
    refine ⟨le_top, fun i _ => ?_⟩
    obtain ⟨j, q, rfl⟩ := col_surj i
    exact ((Finset.le_fold_min c).mp (h j j.isLt)).2 q (Finset.mem_univ q)
  · rintro ⟨_, h⟩
    exact ⟨ha ▸ h i₀ (Finset.mem_univ _), fun j _ => (Finset.le_fold_min c).mpr ⟨le_top, fun q _ => h _ (Finset.mem_univ _)⟩⟩

/-! ## The kernel's extrema are the reference's -/

/-- A row is never its own positive, so its own candidate is the fill value. -/
theorem candAp_self (fill : EReal) (r : Fin 8192) : candAp x l fill r r = fill := by
  unfold candAp; exact if_neg fun h => h.2 rfl
theorem candSg_self (r : Fin 8192) : candSg x l g r r = lit 0x4E6E6B28#32 := by
  unfold candSg; exact if_neg fun h => h.1 rfl
theorem candAll_self (r : Fin 8192) : candAll x l r r = lit 0x4E6E6B28#32 := by
  unfold candAll; exact if_neg fun h => h rfl

theorem apK_eq_apR (r : Fin 8192) : apK x l r = apR x l r := by
  unfold apK apR
  rw [lit_bot]
  refine blocks_max (candAp x l (-(lit 0x4E6E6B28#32)) r) (apRun x l r) (-(lit 0x4E6E6B28#32)) ⊥ r
    (candAp_self x l _ r) ?_ fun n => ?_
  · show lit 0xCE6E6B28#32 = _
    exact lit_n1e9_eq_neg
  · show max (apRun x l r n) (if h : n < 8 then apBlk x l r ⟨n, h⟩ else lit 0xFF800000#32) = _
    simp only [apBlk, lit_bot, lit_n1e9_eq_neg]

theorem sgK_eq_sgR (r : Fin 8192) : sgK x l g r = sgR x l g r := by
  unfold sgK sgR
  rw [lit_top]
  refine blocks_min (candSg x l g r) (sgRun x l g r) (lit 0x4E6E6B28#32) ⊤ r (candSg_self x l g r) rfl fun n => ?_
  show min (sgRun x l g r n) (if h : n < 8 then sgBlk x l g r ⟨n, h⟩ else lit 0x7F800000#32) = _
  simp only [sgBlk, lit_top]

theorem allK_eq_allR (r : Fin 8192) : allK x l r = allR x l r := by
  unfold allK allR
  rw [lit_top]
  refine blocks_min (candAll x l r) (allRun x l r) (lit 0x4E6E6B28#32) ⊤ r (candAll_self x l r) rfl fun n => ?_
  show min (allRun x l r n) (if h : n < 8 then allBlk x l r ⟨n, h⟩ else lit 0x7F800000#32) = _
  simp only [allBlk, lit_top]

/-! ## A candidate exists exactly when the extremum is on the near side of ∓5·10⁸ -/

variable (hx : ∀ r k, ∃ y : ℝ, x r k = (y : EReal) ∧ |y| ≤ 1)
include hx

theorem exists_pos_iff (r : Fin 8192) : (∃ c, pos l r c) ↔ lit 0xCDEE6B28#32 < apR x l r := by
  unfold apR
  rw [Finset.lt_fold_max, lit_bot]
  constructor
  · rintro ⟨c, hc⟩
    refine Or.inr ⟨c, Finset.mem_univ c, ?_⟩
    unfold candAp; rw [if_pos hc]; exact dist_gt x hx r c
  · rintro (h | ⟨c, _, hc⟩)
    · exact absurd h (not_lt_bot)
    · refine ⟨c, ?_⟩
      by_contra hn
      unfold candAp at hc
      rw [if_neg hn, lit_n5e8, lit_1e9, ← EReal.coe_neg, EReal.coe_lt_coe_iff] at hc
      norm_num at hc

theorem exists_neg_iff (r : Fin 8192) : (∃ c, neg l r c) ↔ allR x l r < lit 0x4DEE6B28#32 := by
  unfold allR
  rw [Finset.fold_min_lt, lit_top]
  constructor
  · rintro ⟨c, hc⟩
    refine Or.inr ⟨c, Finset.mem_univ c, ?_⟩
    unfold candAll; rw [if_pos hc]; exact dist_lt x hx r c
  · rintro (h | ⟨c, _, hc⟩)
    · exact absurd h (not_top_lt)
    · refine ⟨c, ?_⟩
      by_contra hn
      unfold candAll at hc
      rw [if_neg hn, lit_5e8, lit_1e9, EReal.coe_lt_coe_iff] at hc
      norm_num at hc

theorem exists_negsg_iff (r : Fin 8192) : (∃ c, negsg l g r c) ↔ sgR x l g r < lit 0x4DEE6B28#32 := by
  unfold sgR
  rw [Finset.fold_min_lt, lit_top]
  constructor
  · rintro ⟨c, hc⟩
    refine Or.inr ⟨c, Finset.mem_univ c, ?_⟩
    unfold candSg; rw [if_pos hc]; exact dist_lt x hx r c
  · rintro (h | ⟨c, _, hc⟩)
    · exact absurd h (not_top_lt)
    · refine ⟨c, ?_⟩
      by_contra hn
      unfold candSg at hc
      rw [if_neg hn, lit_5e8, lit_1e9, EReal.coe_lt_coe_iff] at hc
      norm_num at hc

/-! ## Losses, counted rows, the result -/

theorem lossK_eq_lossR (r : Fin 8192) : lossK x l g r = lossR x l g r := by
  unfold lossK lossR
  rw [apK_eq_apR, sgK_eq_sgR, allK_eq_allR]
  by_cases h : ∃ c, negsg l g r c
  · rw [if_pos h, if_pos ((exists_negsg_iff x l g hx r).mp h)]
  · rw [if_neg h, if_neg (mt (exists_negsg_iff x l g hx r).mpr h)]

theorem inclK_iff_inclR (r : Fin 8192) : inclK x l g r ↔ inclR x l g r := by
  unfold inclK inclR
  rw [lossK_eq_lossR x l g hx r, apK_eq_apR, allK_eq_allR, ← exists_pos_iff x l hx r, ← exists_neg_iff x l hx r]

theorem finalK_eq_finalR_aux : finalK x l g = finalR x l g := by
  unfold finalK finalR
  have h1 : ∀ r, (if inclK x l g r then lossK x l g r else lit 0x00000000#32)
      = (if inclR x l g r then lossR x l g r else lit 0x00000000#32) := by
    intro r
    by_cases h : inclR x l g r
    · rw [if_pos h, if_pos ((inclK_iff_inclR x l g hx r).mpr h), lossK_eq_lossR x l g hx r]
    · rw [if_neg h, if_neg (mt (inclK_iff_inclR x l g hx r).mp h)]
  have h2 : ∀ r, (if inclK x l g r then (1 : EReal) else 0) = (if inclR x l g r then (1 : EReal) else 0) := by
    intro r
    by_cases h : inclR x l g r
    · rw [if_pos h, if_pos ((inclK_iff_inclR x l g hx r).mpr h)]
    · rw [if_neg h, if_neg (mt (inclK_iff_inclR x l g hx r).mp h)]
  rw [Finset.sum_congr rfl fun r _ => h1 r, Finset.sum_congr rfl fun r _ => h2 r]

end Rows

/-- On such rows the kernel's reading and the reference's reading give one result. -/
theorem finalK_eq_finalR (x : Fin 8192 → Fin 128 → EReal) (l g : Fin 8192 → BitVec 32)
    (hx : ∀ r k, ∃ y : ℝ, x r k = (y : EReal) ∧ |y| ≤ 1) : finalK x l g = finalR x l g :=
  finalK_eq_finalR_aux x l g hx

end Cert.Spec

end
-- ==== Proof.Finite.lean ====
/-
  The precondition read back: every entry of the embeddings argument is a real number. The printed predicate is
  "|e| < +∞ at every index, all of them": the reduce by `and` from 1 came out 1, so the compare is 1 at every index,
  and an extended real whose absolute value is below +∞ is neither infinity.
-/
import proofs.«135937_j90099823936181_2_alg».proof.Defs
import proofs.«135937_j90099823936181_2_alg».proof.Proof.Gen.Pre_finite_inputs
import Idealize.ShloMosaic.Lib.ReduceAll
import Idealize.ShloMosaic.Lib.ValueIdx
import Idealize.ShloMosaic.PureOps.Ideal.Laws

noncomputable section

namespace Cert.Proof.Finite

open Idealize.ShloMosaic Idealize.ShloMosaic.TcCoe Idealize.SL.Sem
open Cert.KernelIdeal

instance : Subsingleton Cert.Pre_finite_inputs.S_.Idx := ⟨fun a b => funext fun d => d.elim0⟩

/-- The f32 pattern of `+∞` is the top of the extended reals. -/
theorem lit_top : Ideal.ofBits .f32 0x7F800000#32 = ⊤ := by simp [Ideal.ofBits, Ideal.ieee]

/-- An extended real whose absolute value `max x (-x)` lies below `+∞` is a real: at `⊥` and at `⊤` that maximum is `⊤`. -/
theorem real_of_abs_lt_top (x : EReal) (h : max x (-x) < ⊤) : ∃ y : ℝ, x = (y : EReal) := by
  induction x using EReal.rec with
  | bot => simp at h
  | top => simp at h
  | coe r => exact ⟨r, rfl⟩

/-- Where the compare `|v| < w` is 1 at an index at which `w` is `+∞`, the entry of `v` there is a real. -/
theorem real_of_cmp_one (v w : Cert.Pre_finite_inputs.S8192x128.Idx → EReal) (i : Cert.Pre_finite_inputs.S8192x128.Idx)
    (hw : w i = Ideal.ofBits .f32 0x7F800000#32)
    (h : cmpf (F := Ideal) (φ := .f32) .olt (Host.absf (F := Ideal) (φ := .f32) v) w i = 1#1) : ∃ y : ℝ, v i = (y : EReal) := by
  -- the compare at `i` is the order's `<` between `max (v i) (-(v i))` and `w i`
  have h' : BitVec.ofBool (decide (max (v i) (-(v i)) < w i)) = 1#1 := h
  have hlt : max (v i) (-(v i)) < ⊤ := by
    rw [← lit_top, ← hw]
    by_contra hn
    rw [decide_eq_false hn] at h'
    exact absurd h' (by decide)
  exact real_of_abs_lt_top _ hlt

/-- Under the precondition every entry of the embeddings argument, on every core, is a real number. -/
theorem emb_real (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S8192x128.Idx) :
    ∃ y : ℝ, (m ((c.tc : Thread Cert.KernelIdeal.nD Cert.KernelIdeal.τ).loc Cert.KernelIdeal.main_arg0) : Cert.KernelIdeal.S8192x128.Idx → EReal) i = (y : EReal) := by
  -- the reduce by `and` from 1 came out 1 at the one result index, so the compare is 1 at every index
  have e := congrFun (hpre c) ValueIdx.ix0
  dsimp only [Cert.Pre_finite_inputs.fn] at e
  have h := Host.reduce_andi_all _ _ _ _ _ e i
  -- the right operand is the constant `+∞` read at `i`
  exact real_of_cmp_one _ _ i rfl h

end Cert.Proof.Finite

end
-- ==== Proof.lean ====
/-
  The kernel mines, for every anchor row of L2-scaled embeddings, the hardest positive (largest cosine distance among
  rows of the same label) and the hardest negative (smallest among rows of another label, preferring the anchor's
  group), and returns the mean of the positive triplet losses over the anchors that have both. It sweeps the
  8192 x 8192 distance matrix as 8 x 8 tiles, keeping per row three running extrema in scratch across the eight column
  tiles, and recovers "a positive exists" / "a negative exists" from the finished extrema: an extremum that still
  equals its fill value ∓10⁹ saw no candidate. The reference takes each extremum over the whole row and asks whether a
  candidate exists. Over the extended reals the two agree on finite inputs: the scaled rows have entries in [-1, 1],
  so every distance lies in [-127, 129], strictly between the thresholds ∓5·10⁸; an extremum run over column blocks
  from the fill value is the whole-row extremum, because the diagonal candidate always carries the fill value.

  frame (both programs): the pallas_call's body obligation at every grid point, by cases on the column (reset at 0,
    fold at 1..6, fold and store at 7), under the launch for windows that share one array (the scaled embeddings enter
    as anchor rows and as candidate rows); the argument arrays bypass the region and no host operation writes them.
  frame (reference): its run, proved stage by stage over the operation list.
  preserves: the ideal pass rewrote nothing.
  algebraic: the kernel's result buffer is the specification's kernel reading of the arguments (the extrema by
    induction on the grid point, the outputs by the cover of the last column's write-backs, the host stretches read as
    values), the reference's its reference reading (the read-back stages composed index by index), and the two
    readings agree under the precondition (every embedding entry is a real).
-/
import proofs.«135937_j90099823936181_2_alg».proof.Defs
import proofs.«135937_j90099823936181_2_alg».proof.Proof.Gen.Kernel
import proofs.«135937_j90099823936181_2_alg».proof.Proof.Gen.KernelIdeal
import proofs.«135937_j90099823936181_2_alg».proof.Proof.Gen.ReferenceIdeal
import proofs.«135937_j90099823936181_2_alg».proof.Proof.Gen.Pre_finite_inputs
import proofs.«135937_j90099823936181_2_alg».proof.Proof.K.Frame
import proofs.«135937_j90099823936181_2_alg».proof.Proof.KI.Result
import proofs.«135937_j90099823936181_2_alg».proof.Proof.RefSide
import proofs.«135937_j90099823936181_2_alg».proof.Proof.RefRunStages
import proofs.«135937_j90099823936181_2_alg».proof.Proof.Algebra
import proofs.«135937_j90099823936181_2_alg».proof.Proof.Finite
import Idealize.ShloMosaic.Adequacy
import Idealize.ShloMosaic.Init

noncomputable section

namespace Cert.Proof

open Idealize.ShloMosaic Idealize.ShloMosaic.TcCoe Idealize.SL.Sem
open Idealize.ShloMosaic.ValueIdx

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.RefValue.run_value m ρ)

/-- Both programs end at one value: the kernel's reading of the arguments is the reference's, the embeddings being
    finite. -/
theorem algebraic : Cert.algebraic_KernelIdeal_ReferenceIdeal := by
  intro m ρ m' ρ' hpre hagree
  refine ⟨fun c => (fun _ => Cert.Spec.finalK (Cert.KernelIdeal.Hand.xS m c) (Cert.KernelIdeal.Hand.labL m c) (Cert.KernelIdeal.Hand.grpG m c)),
    Cert.KernelIdeal.Hand.kernel_value m ρ, ?_⟩
  refine (θ_run Cert.ReferenceIdeal.defs _ _).mono (fun _ h c => ⟨(h c).1.trans ?_, (h c).2⟩)
    (Cert.ReferenceIdeal.RefValue.run_value m' ρ')
  rw [(hagree c).1, (hagree c).2.1, (hagree c).2.2, Cert.ReferenceIdeal.RefValue.ref_value]
  funext _
  exact (Cert.Spec.finalK_eq_finalR _ _ _ fun r k =>
    Cert.Spec.xn_real_bound _ (fun r k => Cert.Proof.Finite.emb_real m hpre c (ix2 r k)) r k).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
